-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg13 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  main_v58

def fn_part2 {F : FTy → Type} [FloatOps F] (main_arg9 : FVec F S64x64 .f32) (main_arg10 : FVec F S64 .f32) (main_arg11 : FVec F S64x64 .f32) (main_arg12 : FVec F S64x64 .f32) (main_arg13 : FVec F S64 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_arg13 main_v48 main_v49 main_v50

def fn_part1 {F : FTy → Type} [FloatOps F] (main_arg6 : FVec F S64x64 .f32) (main_arg7 : FVec F S64 .f32) (main_arg8 : FVec F S64x64 .f32) (main_arg9 : FVec F S64x64 .f32) (main_arg10 : FVec F S64 .f32) (main_arg11 : FVec F S64x64 .f32) (main_arg12 : FVec F S64x64 .f32) (main_arg13 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x64 .f32) (main_arg1 : IVec S2x1600000 32) (main_arg2 : IVec S100000 32) (main_arg3 : FVec F S64x64 .f32) (main_arg4 : FVec F S64 .f32) (main_arg5 : FVec F S64x64 .f32) (main_arg6 : FVec F S64x64 .f32) (main_arg7 : FVec F S64 .f32) (main_arg8 : FVec F S64x64 .f32) (main_arg9 : FVec F S64x64 .f32) (main_arg10 : FVec F S64 .f32) (main_arg11 : FVec F S64x64 .f32) (main_arg12 : FVec F S64x64 .f32) (main_arg13 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_arg13 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S100000x1 : Shape := ⟨2, ![100000, 1]⟩
abbrev S1x64 : Shape := ⟨2, ![1, 64]⟩
abbrev S_ : Shape := ⟨0, ![]⟩
abbrev S1600000x1 : Shape := ⟨2, ![1600000, 1]⟩
abbrev S1600000x64 : Shape := ⟨2, ![1600000, 64]⟩
abbrev S10000x64 : Shape := ⟨2, ![10000, 64]⟩
abbrev S64x1 : Shape := ⟨2, ![64, 1]⟩
abbrev S10000x1 : Shape := ⟨2, ![10000, 1]⟩

abbrev nBuf : Space → Nat
  | .hbm => 90
  | .vmem => 36
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64x64, .f32⟩
  | .hbm, ⟨13, _⟩ => ⟨S64, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S100000x1, .i32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S64x64, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S1x64, .f32⟩
  | .hbm, ⟨27, _⟩ => ⟨S1x64, .f32⟩
  | .hbm, ⟨28, _⟩ => ⟨S1x64, .f32⟩
  | .hbm, ⟨29, _⟩ => ⟨S1x64, .f32⟩
  | .hbm, ⟨30, _⟩ => ⟨S100000x64, .bf16⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x64, .bf16⟩
  | .hbm, ⟨40, _⟩ => ⟨S1600000x64, .f32⟩
  | .hbm, ⟨41, _⟩ => ⟨S_, .f32⟩
  | .hbm, ⟨42, _⟩ => ⟨S100000x64, .f32⟩
  | .hbm, ⟨43, _⟩ => ⟨S1600000x1, .i32⟩
  | .hbm, ⟨44, _⟩ => ⟨S100000x64, .f32⟩
  | .hbm, ⟨45, _⟩ => ⟨S100000x64, .bf16⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x64, .bf16⟩
  | .hbm, ⟨55, _⟩ => ⟨S1600000x64, .f32⟩
  | .hbm, ⟨56, _⟩ => ⟨S_, .f32⟩
  | .hbm, ⟨57, _⟩ => ⟨S100000x64, .f32⟩
  | .hbm, ⟨58, _⟩ => ⟨S1600000x1, .i32⟩
  | .hbm, ⟨59, _⟩ => ⟨S100000x64, .f32⟩
  | .hbm, ⟨60, _⟩ => ⟨S100000x64, .bf16⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x64, .bf16⟩
  | .hbm, ⟨70, _⟩ => ⟨S1600000x64, .f32⟩
  | .hbm, ⟨71, _⟩ => ⟨S_, .f32⟩
  | .hbm, ⟨72, _⟩ => ⟨S100000x64, .f32⟩
  | .hbm, ⟨73, _⟩ => ⟨S1600000x1, .i32⟩
  | .hbm, ⟨74, _⟩ => ⟨S100000x64, .f32⟩
  | .hbm, ⟨75, _⟩ => ⟨S100000x64, .bf16⟩
  | .hbm, ⟨76, _⟩ => ⟨S_, .f32⟩
  | .hbm, ⟨77, _⟩ => ⟨S100000, .f32⟩
  | .hbm, ⟨78, _⟩ => ⟨S_, .f32⟩
  | .hbm, ⟨79, _⟩ => ⟨S64, .f32⟩
  | .hbm, ⟨80, _⟩ => ⟨S100000x1, .i32⟩
  | .hbm, ⟨81, _⟩ => ⟨S64, .f32⟩
  | .hbm, ⟨82, _⟩ => ⟨S_, .f32⟩
  | .hbm, ⟨83, _⟩ => ⟨S64, .f32⟩
  | .hbm, ⟨84, _⟩ => ⟨S64, .f32⟩
  | .hbm, ⟨85, _⟩ => ⟨S_, .f32⟩
  | .hbm, ⟨86, _⟩ => ⟨S64, .f32⟩
  | .hbm, ⟨87, _⟩ => ⟨S64, .f32⟩
  | .hbm, ⟨88, _⟩ => ⟨S64x1, .f32⟩
  | .hbm, ⟨89, _⟩ => ⟨S64x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S10000x64, .bf16⟩
  | .local _ .vmem, ⟨8, _⟩ => ⟨S10000x64, .bf16⟩
  | .local _ .vmem, ⟨9, _⟩ => ⟨S10000x64, .f32⟩
  | .local _ .vmem, ⟨10, _⟩ => ⟨S10000x64, .f32⟩
  | .local _ .vmem, ⟨11, _⟩ => ⟨S10000x64, .bf16⟩
  | .local _ .vmem, ⟨12, _⟩ => ⟨S10000x64, .bf16⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S10000x64, .bf16⟩
  | .local _ .vmem, ⟨17, _⟩ => ⟨S10000x64, .bf16⟩
  | .local _ .vmem, ⟨18, _⟩ => ⟨S10000x64, .f32⟩
  | .local _ .vmem, ⟨19, _⟩ => ⟨S10000x64, .f32⟩
  | .local _ .vmem, ⟨20, _⟩ => ⟨S10000x64, .bf16⟩
  | .local _ .vmem, ⟨21, _⟩ => ⟨S10000x64, .bf16⟩
  | .local _ .vmem, ⟨22, _⟩ => ⟨S64x64, .f32⟩
  | .local _ .vmem, ⟨23, _⟩ => ⟨S1x64, .f32⟩
  | .local _ .vmem, ⟨24, _⟩ => ⟨S64x64, .f32⟩
  | .local _ .vmem, ⟨25, _⟩ => ⟨S10000x64, .bf16⟩
  | .local _ .vmem, ⟨26, _⟩ => ⟨S10000x64, .bf16⟩
  | .local _ .vmem, ⟨27, _⟩ => ⟨S10000x64, .bf16⟩
  | .local _ .vmem, ⟨28, _⟩ => ⟨S10000x64, .bf16⟩
  | .local _ .vmem, ⟨29, _⟩ => ⟨S10000x1, .i32⟩
  | .local _ .vmem, ⟨30, _⟩ => ⟨S10000x1, .i32⟩
  | .local _ .vmem, ⟨31, _⟩ => ⟨S64x64, .f32⟩
  | .local _ .vmem, ⟨32, _⟩ => ⟨S1x64, .f32⟩
  | .local _ .vmem, ⟨33, _⟩ => ⟨S64x1, .f32⟩
  | .local _ .vmem, ⟨34, _⟩ => ⟨S64x64, .f32⟩
  | .local _ .vmem, ⟨35, _⟩ => ⟨S64x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_0 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_1 : Ref sig .tc := ⟨.hbm, 46, rfl⟩
abbrev main_v29 : Ref sig .tc := ⟨.hbm, 47, rfl⟩
abbrev main_v30 : Ref sig .tc := ⟨.hbm, 48, rfl⟩
abbrev main_c_2 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_3 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_4 : Ref sig .tc := ⟨.hbm, 61, rfl⟩
abbrev main_v41 : Ref sig .tc := ⟨.hbm, 62, rfl⟩
abbrev main_v42 : Ref sig .tc := ⟨.hbm, 63, rfl⟩
abbrev main_c_5 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_6 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_7 : Ref sig .tc := ⟨.hbm, 76, rfl⟩
abbrev main_v53 : Ref sig .tc := ⟨.hbm, 77, rfl⟩
abbrev main_cst_8 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_9 : Ref sig .tc := ⟨.hbm, 82, rfl⟩
abbrev main_v57 : Ref sig .tc := ⟨.hbm, 83, rfl⟩
abbrev main_v58 : Ref sig .tc := ⟨.hbm, 84, rfl⟩
abbrev main_cst_10 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_scratch0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def k3_cond2 (i : grid3.Coords) : BitVec 1 :=
  let arg0 : BitVec 32 := BitVec.ofNat 32 (i 0).val
  let c9_i32 : BitVec 32 := 9#32
  let v19 : BitVec 1 := Scalar.cmpi .eq arg0 c9_i32
  let v20 : BitVec 32 := Scalar.extui v19
  let c0_i32_8 : BitVec 32 := 0#32
  let v21 : BitVec 1 := Scalar.cmpi .ne v20 c0_i32_8
  v21

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S10000x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S100000_S100000x1 : S100000.ShapeCasts S100000x1
  transposes_S64x64_S64x64_1_0 : S64x64.Transposes [1, 0] S64x64
  shapeCasts_S64_S1x64 : S64.ShapeCasts S1x64
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  packedbf16_S10000x64_S10000x64_0_0 : (Rect.unit (s := S10000x64) ![0, 0] S10000x64.size inb_S10000x64_S10000x64_0_0).PackedRows (EltTy.packing .bf16)
  bcast_S_S100000 : S_.BroadcastsInDim S100000 (![] : Fin 0 → Fin S100000.rank)
  bcast_S_S64 : S_.BroadcastsInDim S64 (![] : Fin 0 → Fin S64.rank)
  bcast_S100000_S100000x1_0 : S100000.BroadcastsInDim S100000x1 (![0] : Fin 1 → Fin S100000x1.rank)
  shapeCasts_S64_S64x1 : S64.ShapeCasts S64x1
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  iota_S10000x64_d1_w32 : S10000x64.Iotas .tc 32 [1]
  broadcasts_S10000x1_S10000x64 : S10000x1.Broadcasts S10000x64
  natLt_1_32 : 1 < 32
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x64 : S64x1.Broadcasts S64x64
  broadcasts_S1x64_S64x64 : S1x64.Broadcasts S64x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  scatter_S64_S100000x1_S100000_n_0_0_1_wf : ScatterDims.WF S64 S100000x1 S100000 [] [0] [0] 1
  dot_S10000x64_S10000x64_S64x64_0_0_1_1_n_n_wf : DotDims.WF S10000x64 S10000x64 S64x64 [0] [0] [1] [1] [] []
  dot_S64x64_S64x64_S64x64_1_0_0_1_n_n_wf : DotDims.WF S64x64 S64x64 S64x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .bf16 = 32 ∨ (Rect.block (s := S100000x64) S10000x64.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .bf16 = 32 ∨ (Rect.block (s := S100000x64) S10000x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .bf16 = 32 ∨ (Rect.block (s := S100000x64) S10000x64.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .bf16 = 32 ∨ (Rect.block (s := S100000x64) S10000x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .bf16 = 32 ∨ (Rect.block (s := S100000x64) S10000x64.size (cc2_transform_5 i) (hinb2_5 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .bf16 = 32 ∨ (Rect.block (s := S100000x64) S10000x64.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S100000x1.size a
  hwx3_1 : ∀ i : grid3.Coords, EltTy.bits .i32 = 32 ∨ (Rect.block (s := S100000x1) S10000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x1.size a ≤ S64x1.size a
  hwx3_4 : ∀ i : grid3.Coords, EltTy.bits .f32 = 32 ∨ (Rect.block (s := S64x1) S64x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .f32 = 32 ∨ (Rect.block (s := S64x64) S64x64.size (cc3_transform_5 i) (hinb3_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S10000x64_S10000x64_S64x64_0_0_1_1_n_n : DotDims S10000x64 S10000x64 S64x64 where
  lhsContracting := [0]
  rhsContracting := [0]
  lhsNonContracting := [1]
  rhsNonContracting := [1]
  lhsBatch := []
  rhsBatch := []
  wf := dot_S10000x64_S10000x64_S64x64_0_0_1_1_n_n_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf

abbrev win0_0 : Pipeline.Window sig grid0 :=
  Pipeline.Window.ofSpec (Memref.whole main_v27) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v51) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v14) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v10) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v52) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v52) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v15) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v61) S64x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v62) S64x64.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev idle3 : Fin 6 → grid3.Coords → Bool := fun | 0 => fun _ => false | 1 => fun _ => false | 2 => fun _ => false | 3 => fun _ => false | 4 => fun _ => false | 5 => fun i => !(k3_cond2 i == 1#1) | ⟨_ + 6, h⟩ => absurd h (Nat.not_lt.2 (Nat.le_add_left _ _))

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S100000x1 : Shape := ⟨2, ![100000, 1]⟩
abbrev S64x1 : Shape := ⟨2, ![64, 1]⟩

abbrev nBuf : Space → Nat
  | .hbm => 108
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64x64, .f32⟩
  | .hbm, ⟨13, _⟩ => ⟨S64, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x64, .f32⟩
  | .hbm, ⟨27, _⟩ => ⟨S_, .f32⟩
  | .hbm, ⟨28, _⟩ => ⟨S100000x64, .f32⟩
  | .hbm, ⟨29, _⟩ => ⟨S1600000x1, .i32⟩
  | .hbm, ⟨30, _⟩ => ⟨S100000x64, .f32⟩
  | .hbm, ⟨31, _⟩ => ⟨S64x64, .f32⟩
  | .hbm, ⟨32, _⟩ => ⟨S100000x64, .f32⟩
  | .hbm, ⟨33, _⟩ => ⟨S1x64, .f32⟩
  | .hbm, ⟨34, _⟩ => ⟨S100000x64, .f32⟩
  | .hbm, ⟨35, _⟩ => ⟨S100000x64, .f32⟩
  | .hbm, ⟨36, _⟩ => ⟨S64x64, .f32⟩
  | .hbm, ⟨37, _⟩ => ⟨S100000x64, .f32⟩
  | .hbm, ⟨38, _⟩ => ⟨S100000x64, .f32⟩
  | .hbm, ⟨39, _⟩ => ⟨S_, .f32⟩
  | .hbm, ⟨40, _⟩ => ⟨S100000x64, .f32⟩
  | .hbm, ⟨41, _⟩ => ⟨S100000x64, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x64, .f32⟩
  | .hbm, ⟨51, _⟩ => ⟨S_, .f32⟩
  | .hbm, ⟨52, _⟩ => ⟨S100000x64, .f32⟩
  | .hbm, ⟨53, _⟩ => ⟨S1600000x1, .i32⟩
  | .hbm, ⟨54, _⟩ => ⟨S100000x64, .f32⟩
  | .hbm, ⟨55, _⟩ => ⟨S64x64, .f32⟩
  | .hbm, ⟨56, _⟩ => ⟨S100000x64, .f32⟩
  | .hbm, ⟨57, _⟩ => ⟨S1x64, .f32⟩
  | .hbm, ⟨58, _⟩ => ⟨S100000x64, .f32⟩
  | .hbm, ⟨59, _⟩ => ⟨S100000x64, .f32⟩
  | .hbm, ⟨60, _⟩ => ⟨S64x64, .f32⟩
  | .hbm, ⟨61, _⟩ => ⟨S100000x64, .f32⟩
  | .hbm, ⟨62, _⟩ => ⟨S100000x64, .f32⟩
  | .hbm, ⟨63, _⟩ => ⟨S_, .f32⟩
  | .hbm, ⟨64, _⟩ => ⟨S100000x64, .f32⟩
  | .hbm, ⟨65, _⟩ => ⟨S100000x64, .f32⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1600000x64, .f32⟩
  | .hbm, ⟨75, _⟩ => ⟨S_, .f32⟩
  | .hbm, ⟨76, _⟩ => ⟨S100000x64, .f32⟩
  | .hbm, ⟨77, _⟩ => ⟨S1600000x1, .i32⟩
  | .hbm, ⟨78, _⟩ => ⟨S100000x64, .f32⟩
  | .hbm, ⟨79, _⟩ => ⟨S64x64, .f32⟩
  | .hbm, ⟨80, _⟩ => ⟨S100000x64, .f32⟩
  | .hbm, ⟨81, _⟩ => ⟨S1x64, .f32⟩
  | .hbm, ⟨82, _⟩ => ⟨S100000x64, .f32⟩
  | .hbm, ⟨83, _⟩ => ⟨S100000x64, .f32⟩
  | .hbm, ⟨84, _⟩ => ⟨S64x64, .f32⟩
  | .hbm, ⟨85, _⟩ => ⟨S100000x64, .f32⟩
  | .hbm, ⟨86, _⟩ => ⟨S100000x64, .f32⟩
  | .hbm, ⟨87, _⟩ => ⟨S_, .f32⟩
  | .hbm, ⟨88, _⟩ => ⟨S64x64, .f32⟩
  | .hbm, ⟨89, _⟩ => ⟨S100000x1, .i32⟩
  | .hbm, ⟨90, _⟩ => ⟨S64x64, .f32⟩
  | .hbm, ⟨91, _⟩ => ⟨S_, .f32⟩
  | .hbm, ⟨92, _⟩ => ⟨S100000, .f32⟩
  | .hbm, ⟨93, _⟩ => ⟨S_, .f32⟩
  | .hbm, ⟨94, _⟩ => ⟨S64, .f32⟩
  | .hbm, ⟨95, _⟩ => ⟨S100000x1, .i32⟩
  | .hbm, ⟨96, _⟩ => ⟨S64, .f32⟩
  | .hbm, ⟨97, _⟩ => ⟨S_, .f32⟩
  | .hbm, ⟨98, _⟩ => ⟨S64, .f32⟩
  | .hbm, ⟨99, _⟩ => ⟨S64, .f32⟩
  | .hbm, ⟨100, _⟩ => ⟨S64x1, .f32⟩
  | .hbm, ⟨101, _⟩ => ⟨S64x64, .f32⟩
  | .hbm, ⟨102, _⟩ => ⟨S64x64, .f32⟩
  | .hbm, ⟨103, _⟩ => ⟨S64x64, .f32⟩
  | .hbm, ⟨104, _⟩ => ⟨S64x64, .f32⟩
  | .hbm, ⟨105, _⟩ => ⟨S1x64, .f32⟩
  | .hbm, ⟨106, _⟩ => ⟨S64x64, .f32⟩
  | .hbm, ⟨107, _⟩ => ⟨S64x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_call0_cst : Ref sig .tc := ⟨.hbm, 39, rfl⟩
abbrev main_call0_v0 : Ref sig .tc := ⟨.hbm, 40, rfl⟩
abbrev main_v22 : Ref sig .tc := ⟨.hbm, 41, rfl⟩
abbrev main_c_1 : Ref sig .tc := ⟨.hbm, 42, rfl⟩
abbrev main_v23 : Ref sig .tc := ⟨.hbm, 43, rfl⟩
abbrev main_v24 : Ref sig .tc := ⟨.hbm, 44, rfl⟩
abbrev main_c_2 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_3 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_call1_cst : Ref sig .tc := ⟨.hbm, 63, rfl⟩
abbrev main_call1_v0 : Ref sig .tc := ⟨.hbm, 64, rfl⟩
abbrev main_v41 : Ref sig .tc := ⟨.hbm, 65, rfl⟩
abbrev main_c_4 : Ref sig .tc := ⟨.hbm, 66, rfl⟩
abbrev main_v42 : Ref sig .tc := ⟨.hbm, 67, rfl⟩
abbrev main_v43 : Ref sig .tc := ⟨.hbm, 68, rfl⟩
abbrev main_c_5 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_6 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_7 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_8 : Ref sig .tc := ⟨.hbm, 91, rfl⟩
abbrev main_v63 : Ref sig .tc := ⟨.hbm, 92, rfl⟩
abbrev main_cst_9 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_10 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64x64 : S_.BroadcastsInDim S64x64 (![] : Fin 0 → Fin S64x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x64_S64x64_S64x64_1_0_0_1_n_n_wf : DotDims.WF S64x64 S64x64 S64x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf

class Facts : Prop extends Facts₀ where

variable [Facts]
-- ==== Proof.K.Gc0.lean ====
/-
  The first graph-convolution call (pipeline 0) as the pipeline sees it, at any contents `V` of the core's buffers
  when the call is entered: over a grid of ten row tiles, tile `t` reads rows [10000 t, 10000 (t+1)) of the
  aggregated messages and of the node features, the two transposed weight matrices and the bias whole, and
  writes the same rows of the result: relu (aggr · Wr + h · Wn + b).
-/
import proofs.«430438_j75239237091885_2_alg».proof.Proof.Gen.Kernel.Launch
import proofs.«430438_j75239237091885_2_alg».proof.Proof.Gen.Kernel.Skeleton
import proofs.«430438_j75239237091885_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gc0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at tile `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The one store of the body covers the whole output tile. -/
abbrev r0_0 : Rect S10000x64 := Rect.unit (s := S10000x64) ![0, 0] S10000x64.size inb_S10000x64_S10000x64_0_0

/-- What the body leaves in the output tile's buffer, from the five input blocks. -/
def out0_5 (x0 : Vec F S10000x64 .f32) (x1 : Vec F S10000x64 .f32) (x2 : Vec F S64x64 .f32) (x3 : Vec F S1x64 .f32) (x4 : Vec F S64x64 .f32) : Vec F S10000x64 .bf16 :=
  View.canon [⟨r0_0, k0_pay1 x0 x1 x2 x4 x3⟩]

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

/-! ## What the body finds in the input buffers -/

/-- Input window 0 holds its block at every tile, fetched there or not: unfetched, its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 holds its block at every tile, fetched there or not: unfetched, its block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 holds its block at every tile, fetched there or not: unfetched, its block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 holds its block at every tile, fetched there or not: unfetched, its block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4 holds its block at every tile, fetched there or not: unfetched, its block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- What the body leaves in each input buffer: the block it found. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]

/-- Each input's current staging buffer holds its block at every tile. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## Whole-buffer accesses -/

/-- The zero offsets of a whole-buffer access, however spelt. -/
theorem off_zero : (![0, 0] : Fin 2 → ℕ) = fun _ => 0 := by funext a; fin_cases a <;> rfl

/-- A load of a whole row-tile buffer reads its contents. -/
theorem readAt_tile {κ : Kind} {sp : Space} {e : EltTy} (v : View sig κ sp S10000x64 e) (f : v.ty.Contents (Elt F)) :
    View.readAt (Elt F) v (Rect.unit (s := S10000x64) ![0, 0] S10000x64.size inb_S10000x64_S10000x64_0_0).toLoadRect f
      = View.read (Elt F) v f :=
  View.ld_unit_zero off_zero inb_S10000x64_S10000x64_0_0 (View.read (Elt F) v f)

/-- A load of a whole weight buffer reads its contents. -/
theorem readAt_weight {κ : Kind} {sp : Space} (v : View sig κ sp S64x64 .f32) (f : v.ty.Contents (Elt F)) :
    View.readAt (Elt F) v (Rect.unit (s := S64x64) ![0, 0] S64x64.size inb_S64x64_S64x64_0_0).toLoadRect f
      = View.read (Elt F) v f :=
  View.ld_unit_zero off_zero inb_S64x64_S64x64_0_0 (View.read (Elt F) v f)

/-- A load of the whole bias buffer reads its contents. -/
theorem readAt_bias {κ : Kind} {sp : Space} (v : View sig κ sp S1x64 .f32) (f : v.ty.Contents (Elt F)) :
    View.readAt (Elt F) v (Rect.unit (s := S1x64) ![0, 0] S1x64.size inb_S1x64_S1x64_0_0).toLoadRect f
      = View.read (Elt F) v f :=
  View.ld_unit_zero off_zero inb_S1x64_S1x64_0_0 (View.read (Elt F) v f)

/-- The one store covers the output tile: its rectangle is the whole shape. -/
theorem cover0_5 (p0 : Vec F S10000x64 .bf16) (y : S10000x64.Idx) :
    ∃ pc ∈ ([⟨r0_0, p0⟩] : List (View.Piece (Elt F) S10000x64 .bf16)), y ∈ pc.1.set :=
  ⟨_, List.mem_singleton_self _, View.mem_set_unit_zero off_zero inb_S10000x64_S10000x64_0_0 y⟩

/-! ## The body's triple -/

set_option maxHeartbeats 1000000 in
/-- The body on whole staging buffers, the five inputs' at read contents `x0 … x4` and the output's at anything,
    runs to a continuation holding the inputs' as they were and the output's at `out0_5` of them: five whole loads,
    a load of the output buffer whose value is unused, and one covering store. -/
theorem sound_kernel0 (c : Dev nD) (E : Set ℕ) (i : grid0.Coords)
    (arg1 : Memref sig .tc .vmem S10000x64 .f32) (harg1 : arg1.IsWhole)
    (arg2 : Memref sig .tc .vmem S10000x64 .f32) (harg2 : arg2.IsWhole)
    (arg3 : Memref sig .tc .vmem S64x64 .f32) (harg3 : arg3.IsWhole)
    (arg4 : Memref sig .tc .vmem S1x64 .f32) (harg4 : arg4.IsWhole)
    (arg5 : Memref sig .tc .vmem S64x64 .f32) (harg5 : arg5.IsWhole)
    (arg6 : Memref sig .tc .vmem S10000x64 .bf16) (harg6 : arg6.IsWhole)
    (x0 : Vec F S10000x64 .f32) (x1 : Vec F S10000x64 .f32) (x2 : Vec F S64x64 .f32) (x3 : Vec F S1x64 .f32) (x4 : Vec F S64x64 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E
          (cc0__graphconv_kernel i arg1 harg1 arg2 harg2 arg3 harg3 arg4 harg4 arg5 harg5 arg6 harg6) K := by
  simp only [cc0__graphconv_kernel_eq_skeleton]; unfold cc0__graphconv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover0_5 _), readAt_tile, readAt_tile, readAt_weight, readAt_weight, readAt_bias]
  rfl

/-! ## The body obligation, at a generic tile -/

/-- What the body is called with at tile `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any tile: the five input buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every tile. -/
theorem body_obligation0 (c : Dev nD) : BodyObligation (dat0 (F := F) V c) (defs₀ (F := F)) Variants.none () Set.univ := fun t => by
  rw [bigSep_W0, bigSep_W0]
  exact sound_body0 V c t

end Cert.Kernel.Gc0

end
-- ==== Proof.K.Gc1.lean ====
/-
  The graph-convolution call of pipeline 1 as the pipeline sees it, at any contents `V` of the core's buffers
  when the call is entered: over a grid of ten row tiles, tile `t` reads rows [10000 t, 10000 (t+1)) of the
  aggregated messages and of the node features, the two transposed weight matrices and the bias whole, and
  writes the same rows of the result: relu (aggr · Wr + h · Wn + b).
-/
import proofs.«430438_j75239237091885_2_alg».proof.Proof.Gen.Kernel.Launch
import proofs.«430438_j75239237091885_2_alg».proof.Proof.Gen.Kernel.Skeleton
import proofs.«430438_j75239237091885_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gc1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at tile `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The one store of the body covers the whole output tile. -/
abbrev r1_0 : Rect S10000x64 := Rect.unit (s := S10000x64) ![0, 0] S10000x64.size inb_S10000x64_S10000x64_0_0

/-- What the body leaves in the output tile's buffer, from the five input blocks. -/
def out1_5 (x0 : Vec F S10000x64 .f32) (x1 : Vec F S10000x64 .bf16) (x2 : Vec F S64x64 .f32) (x3 : Vec F S1x64 .f32) (x4 : Vec F S64x64 .f32) : Vec F S10000x64 .bf16 :=
  View.canon [⟨r1_0, k1_pay1 x0 x1 x2 x4 x3⟩]

/-- The proof data of pipeline 0 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-! ## What the body finds in the input buffers -/

/-- Input window 0 holds its block at every tile, fetched there or not: unfetched, its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 holds its block at every tile, fetched there or not: unfetched, its block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 holds its block at every tile, fetched there or not: unfetched, its block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 holds its block at every tile, fetched there or not: unfetched, its block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4 holds its block at every tile, fetched there or not: unfetched, its block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- What the body leaves in each input buffer: the block it found. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]

/-- Each input's current staging buffer holds its block at every tile. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## Whole-buffer accesses -/

/-- The zero offsets of a whole-buffer access, however spelt. -/
theorem off_zero : (![0, 0] : Fin 2 → ℕ) = fun _ => 0 := by funext a; fin_cases a <;> rfl

/-- A load of a whole row-tile buffer reads its contents. -/
theorem readAt_tile {κ : Kind} {sp : Space} {e : EltTy} (v : View sig κ sp S10000x64 e) (f : v.ty.Contents (Elt F)) :
    View.readAt (Elt F) v (Rect.unit (s := S10000x64) ![0, 0] S10000x64.size inb_S10000x64_S10000x64_0_0).toLoadRect f
      = View.read (Elt F) v f :=
  View.ld_unit_zero off_zero inb_S10000x64_S10000x64_0_0 (View.read (Elt F) v f)

/-- A load of a whole weight buffer reads its contents. -/
theorem readAt_weight {κ : Kind} {sp : Space} (v : View sig κ sp S64x64 .f32) (f : v.ty.Contents (Elt F)) :
    View.readAt (Elt F) v (Rect.unit (s := S64x64) ![0, 0] S64x64.size inb_S64x64_S64x64_0_0).toLoadRect f
      = View.read (Elt F) v f :=
  View.ld_unit_zero off_zero inb_S64x64_S64x64_0_0 (View.read (Elt F) v f)

/-- A load of the whole bias buffer reads its contents. -/
theorem readAt_bias {κ : Kind} {sp : Space} (v : View sig κ sp S1x64 .f32) (f : v.ty.Contents (Elt F)) :
    View.readAt (Elt F) v (Rect.unit (s := S1x64) ![0, 0] S1x64.size inb_S1x64_S1x64_0_0).toLoadRect f
      = View.read (Elt F) v f :=
  View.ld_unit_zero off_zero inb_S1x64_S1x64_0_0 (View.read (Elt F) v f)

/-- The one store covers the output tile: its rectangle is the whole shape. -/
theorem cover1_5 (p0 : Vec F S10000x64 .bf16) (y : S10000x64.Idx) :
    ∃ pc ∈ ([⟨r1_0, p0⟩] : List (View.Piece (Elt F) S10000x64 .bf16)), y ∈ pc.1.set :=
  ⟨_, List.mem_singleton_self _, View.mem_set_unit_zero off_zero inb_S10000x64_S10000x64_0_0 y⟩

/-! ## The body's triple -/

set_option maxHeartbeats 1000000 in
/-- The body on whole staging buffers, the five inputs' at read contents `x0 … x4` and the output's at anything,
    runs to a continuation holding the inputs' as they were and the output's at `out1_5` of them: five whole loads,
    a load of the output buffer whose value is unused, and one covering store. -/
theorem sound_kernel1 (c : Dev nD) (E : Set ℕ) (i : grid1.Coords)
    (arg1 : Memref sig .tc .vmem S10000x64 .f32) (harg1 : arg1.IsWhole)
    (arg2 : Memref sig .tc .vmem S10000x64 .bf16) (harg2 : arg2.IsWhole)
    (arg3 : Memref sig .tc .vmem S64x64 .f32) (harg3 : arg3.IsWhole)
    (arg4 : Memref sig .tc .vmem S1x64 .f32) (harg4 : arg4.IsWhole)
    (arg5 : Memref sig .tc .vmem S64x64 .f32) (harg5 : arg5.IsWhole)
    (arg6 : Memref sig .tc .vmem S10000x64 .bf16) (harg6 : arg6.IsWhole)
    (x0 : Vec F S10000x64 .f32) (x1 : Vec F S10000x64 .bf16) (x2 : Vec F S64x64 .f32) (x3 : Vec F S1x64 .f32) (x4 : Vec F S64x64 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__graphconv_kernel i arg1 harg1 arg2 harg2 arg3 harg3 arg4 harg4 arg5 harg5 arg6 harg6) K := by
  simp only [cc1__graphconv_kernel_eq_skeleton]; unfold cc1__graphconv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover1_5 _), readAt_tile, readAt_tile, readAt_weight, readAt_weight, readAt_bias]
  rfl

/-! ## The body obligation, at a generic tile -/

/-- What the body is called with at tile `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any tile: the five input buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every tile. -/
theorem body_obligation1 (c : Dev nD) : BodyObligation (dat1 (F := F) V c) (defs₀ (F := F)) Variants.none () Set.univ := fun t => by
  rw [bigSep_W1, bigSep_W1]
  exact sound_body1 V c t

end Cert.Kernel.Gc1

end
-- ==== Proof.K.Gc2.lean ====
/-
  The graph-convolution call of pipeline 2 as the pipeline sees it, at any contents `V` of the core's buffers
  when the call is entered: over a grid of ten row tiles, tile `t` reads rows [10000 t, 10000 (t+1)) of the
  aggregated messages and of the node features, the two transposed weight matrices and the bias whole, and
  writes the same rows of the result: relu (aggr · Wr + h · Wn + b).
-/
import proofs.«430438_j75239237091885_2_alg».proof.Proof.Gen.Kernel.Launch
import proofs.«430438_j75239237091885_2_alg».proof.Proof.Gen.Kernel.Skeleton
import proofs.«430438_j75239237091885_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gc2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at tile `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The one store of the body covers the whole output tile. -/
abbrev r2_0 : Rect S10000x64 := Rect.unit (s := S10000x64) ![0, 0] S10000x64.size inb_S10000x64_S10000x64_0_0

/-- What the body leaves in the output tile's buffer, from the five input blocks. -/
def out2_5 (x0 : Vec F S10000x64 .f32) (x1 : Vec F S10000x64 .bf16) (x2 : Vec F S64x64 .f32) (x3 : Vec F S1x64 .f32) (x4 : Vec F S64x64 .f32) : Vec F S10000x64 .bf16 :=
  View.canon [⟨r2_0, k2_pay1 x0 x1 x2 x4 x3⟩]

/-- The proof data of pipeline 0 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

/-! ## What the body finds in the input buffers -/

/-- Input window 0 holds its block at every tile, fetched there or not: unfetched, its block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 holds its block at every tile, fetched there or not: unfetched, its block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 holds its block at every tile, fetched there or not: unfetched, its block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3 holds its block at every tile, fetched there or not: unfetched, its block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4 holds its block at every tile, fetched there or not: unfetched, its block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- What the body leaves in each input buffer: the block it found. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]

/-- Each input's current staging buffer holds its block at every tile. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## Whole-buffer accesses -/

/-- The zero offsets of a whole-buffer access, however spelt. -/
theorem off_zero : (![0, 0] : Fin 2 → ℕ) = fun _ => 0 := by funext a; fin_cases a <;> rfl

/-- A load of a whole row-tile buffer reads its contents. -/
theorem readAt_tile {κ : Kind} {sp : Space} {e : EltTy} (v : View sig κ sp S10000x64 e) (f : v.ty.Contents (Elt F)) :
    View.readAt (Elt F) v (Rect.unit (s := S10000x64) ![0, 0] S10000x64.size inb_S10000x64_S10000x64_0_0).toLoadRect f
      = View.read (Elt F) v f :=
  View.ld_unit_zero off_zero inb_S10000x64_S10000x64_0_0 (View.read (Elt F) v f)

/-- A load of a whole weight buffer reads its contents. -/
theorem readAt_weight {κ : Kind} {sp : Space} (v : View sig κ sp S64x64 .f32) (f : v.ty.Contents (Elt F)) :
    View.readAt (Elt F) v (Rect.unit (s := S64x64) ![0, 0] S64x64.size inb_S64x64_S64x64_0_0).toLoadRect f
      = View.read (Elt F) v f :=
  View.ld_unit_zero off_zero inb_S64x64_S64x64_0_0 (View.read (Elt F) v f)

/-- A load of the whole bias buffer reads its contents. -/
theorem readAt_bias {κ : Kind} {sp : Space} (v : View sig κ sp S1x64 .f32) (f : v.ty.Contents (Elt F)) :
    View.readAt (Elt F) v (Rect.unit (s := S1x64) ![0, 0] S1x64.size inb_S1x64_S1x64_0_0).toLoadRect f
      = View.read (Elt F) v f :=
  View.ld_unit_zero off_zero inb_S1x64_S1x64_0_0 (View.read (Elt F) v f)

/-- The one store covers the output tile: its rectangle is the whole shape. -/
theorem cover2_5 (p0 : Vec F S10000x64 .bf16) (y : S10000x64.Idx) :
    ∃ pc ∈ ([⟨r2_0, p0⟩] : List (View.Piece (Elt F) S10000x64 .bf16)), y ∈ pc.1.set :=
  ⟨_, List.mem_singleton_self _, View.mem_set_unit_zero off_zero inb_S10000x64_S10000x64_0_0 y⟩

/-! ## The body's triple -/

set_option maxHeartbeats 1000000 in
/-- The body on whole staging buffers, the five inputs' at read contents `x0 … x4` and the output's at anything,
    runs to a continuation holding the inputs' as they were and the output's at `out2_5` of them: five whole loads,
    a load of the output buffer whose value is unused, and one covering store. -/
theorem sound_kernel2 (c : Dev nD) (E : Set ℕ) (i : grid2.Coords)
    (arg1 : Memref sig .tc .vmem S10000x64 .f32) (harg1 : arg1.IsWhole)
    (arg2 : Memref sig .tc .vmem S10000x64 .bf16) (harg2 : arg2.IsWhole)
    (arg3 : Memref sig .tc .vmem S64x64 .f32) (harg3 : arg3.IsWhole)
    (arg4 : Memref sig .tc .vmem S1x64 .f32) (harg4 : arg4.IsWhole)
    (arg5 : Memref sig .tc .vmem S64x64 .f32) (harg5 : arg5.IsWhole)
    (arg6 : Memref sig .tc .vmem S10000x64 .bf16) (harg6 : arg6.IsWhole)
    (x0 : Vec F S10000x64 .f32) (x1 : Vec F S10000x64 .bf16) (x2 : Vec F S64x64 .f32) (x3 : Vec F S1x64 .f32) (x4 : Vec F S64x64 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E
          (cc2__graphconv_kernel i arg1 harg1 arg2 harg2 arg3 harg3 arg4 harg4 arg5 harg5 arg6 harg6) K := by
  simp only [cc2__graphconv_kernel_eq_skeleton]; unfold cc2__graphconv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover2_5 _), readAt_tile, readAt_tile, readAt_weight, readAt_weight, readAt_bias]
  rfl

/-! ## The body obligation, at a generic tile -/

/-- What the body is called with at tile `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any tile: the five input buffers hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _
    (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every tile. -/
theorem body_obligation2 (c : Dev nD) : BodyObligation (dat2 (F := F) V c) (defs₀ (F := F)) Variants.none () Set.univ := fun t => by
  rw [bigSep_W2, bigSep_W2]
  exact sound_body2 V c t

end Cert.Kernel.Gc2

end
-- ==== Proof.K.PoolRuns.lean ====
/-
  The pooling call (pipeline 3): the body's runs.

  Over a grid of ten row tiles the body keeps a 64×64 accumulator beside its windows. At the first tile it is
  reset to zero; at every tile the tile's contribution — the one-hot matrix of the tile's graph indices, contracted
  over the tile's rows with the tile's features — is added to it; at the last tile the sums are scaled by the
  inverse node counts, multiplied by the transposed linear weight, shifted by the bias, and stored into the
  output block. So three control cases: the first tile (reset and update), a middle tile (update), the last tile
  (update and finish). This module decides the two conditions over the grid, records where the output window is
  idle, splits the call's invariant at the accumulator, and runs the body in each case on arbitrary whole memrefs:
  what each buffer is left with, as the list of pieces written (last first), is the witness each run finds.
-/
import proofs.«430438_j75239237091885_2_alg».proof.Proof.Gen.Kernel.Launch
import proofs.«430438_j75239237091885_2_alg».proof.Proof.Gen.Kernel.Skeleton
import proofs.«430438_j75239237091885_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional of the pooling body: the grid coordinate is 0. -/
abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val = 0 :=
  (by decide +kernel : ∀ t : Fin grid3.N, cond3_0 (grid3.coords t) ↔ t.val = 0)

/-- The second conditional: the grid coordinate is 9. -/
abbrev cond3_1 (i : grid3.Coords) : Prop := k3_cond2 i = 1#1
theorem hcond3_1 : ∀ t : Fin cfg3.N, cond3_1 (grid3.coords t) ↔ t.val = 9 :=
  (by decide +kernel : ∀ t : Fin grid3.N, cond3_1 (grid3.coords t) ↔ t.val = 9)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
theorem idleAt3_5 : ∀ t : Fin cfg3.N, ¬cond3_1 (grid3.coords t) → cfg3.idle 5 (grid3.coords t) = true := by decide +kernel
theorem noFlush3_5 : ∀ t : Fin cfg3.N, ¬cond3_1 (grid3.coords t) → (cfg3.win 5).flush t = false := by decide +kernel
theorem liveAt3_5 : ∀ t : Fin cfg3.N, cond3_1 (grid3.coords t) → cfg3.idle 5 (grid3.coords t) = false := by decide +kernel

abbrev scM3 : Memref sig .tc .vmem S64x64 .f32 := Memref.whole cc3_scratch0

theorem PhiA3_eq (c : Dev nD) :
    (Pipeline.ΦA spec3 c : sProp 𝕄)
      = iprop(iprop(iprop(∃ d, owns (c : Thread nD τ) scM3 fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

/-! ## The body's run, case by case -/

set_option maxHeartbeats 1000000 in
/-- AT THE FIRST POINT (the reset taken, the finish not): on whole memrefs, the five inputs at their blocks, the
    output's buffer at anything (handed back untouched), the accumulator at anything, the body runs to the
    continuation with the inputs as they were and the accumulator with the pieces `LS0` written — the reset to
    zero, then the update. The pieces are the witness the run finds. -/
noncomputable def kernelRun3_A (c : Dev nD) (i : grid3.Coords) (arg1 : Memref sig .tc .vmem S10000x64 .bf16) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x1 .f32) (harg5 : arg5.IsWhole) (arg6 : Memref sig .tc .vmem S64x64 .f32) (harg6 : arg6.IsWhole) (arg7 : Memref sig .tc .vmem S64x64 .f32) (harg7 : arg7.IsWhole) (hc0 : cond3_0 i) (hc1 : ¬cond3_1 i)
    (x0 : Vec F S10000x64 .bf16) (x1 : Vec F S10000x1 .i32) (x2 : Vec F S64x64 .f32) (x3 : Vec F S1x64 .f32) (x4 : Vec F S64x1 .f32) :
    { LS0 : List (View.Piece (Elt F) S64x64 .f32) //
      ∀ (xi5 : Vec F S64x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc3__pool_kernel i arg1 harg1 arg2 harg2 arg3 harg3 arg4 harg4 arg5 harg5 arg6 harg6 arg7 harg7) K } := by
  refine ⟨?_, fun xi5 E K => ?run⟩
  case run =>
    simp only [cc3__pool_kernel_eq_skeleton]; unfold cc3__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

set_option maxHeartbeats 1000000 in
/-- AT A MIDDLE POINT (neither conditional taken): the same, the accumulator at what the point before left
    (`xs0`); one piece, the update. -/
noncomputable def kernelRun3_B (c : Dev nD) (i : grid3.Coords) (arg1 : Memref sig .tc .vmem S10000x64 .bf16) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x1 .f32) (harg5 : arg5.IsWhole) (arg6 : Memref sig .tc .vmem S64x64 .f32) (harg6 : arg6.IsWhole) (arg7 : Memref sig .tc .vmem S64x64 .f32) (harg7 : arg7.IsWhole) (hc0 : ¬cond3_0 i) (hc1 : ¬cond3_1 i)
    (x0 : Vec F S10000x64 .bf16) (x1 : Vec F S10000x1 .i32) (x2 : Vec F S64x64 .f32) (x3 : Vec F S1x64 .f32) (x4 : Vec F S64x1 .f32) (xs0 : Vec F S64x64 .f32) :
    { LS0 : List (View.Piece (Elt F) S64x64 .f32) //
      ∀ (xi5 : Vec F S64x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc3__pool_kernel i arg1 harg1 arg2 harg2 arg3 harg3 arg4 harg4 arg5 harg5 arg6 harg6 arg7 harg7) K } := by
  refine ⟨?_, fun xi5 E K => ?run⟩
  case run =>
    simp only [cc3__pool_kernel_eq_skeleton]; unfold cc3__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

set_option maxHeartbeats 1000000 in
/-- AT THE LAST POINT (the finish taken, the reset not): the accumulator at what the point before left, the
    output's buffer at anything; the body leaves the accumulator with the update written (`LS0`) and the output's
    buffer with the finished block written (`L5`). -/
noncomputable def kernelRun3_C (c : Dev nD) (i : grid3.Coords) (arg1 : Memref sig .tc .vmem S10000x64 .bf16) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x1 .f32) (harg5 : arg5.IsWhole) (arg6 : Memref sig .tc .vmem S64x64 .f32) (harg6 : arg6.IsWhole) (arg7 : Memref sig .tc .vmem S64x64 .f32) (harg7 : arg7.IsWhole) (hc0 : ¬cond3_0 i) (hc1 : cond3_1 i)
    (x0 : Vec F S10000x64 .bf16) (x1 : Vec F S10000x1 .i32) (x2 : Vec F S64x64 .f32) (x3 : Vec F S1x64 .f32) (x4 : Vec F S64x1 .f32) (xs0 : Vec F S64x64 .f32) :
    Σ' (L5 : List (View.Piece (Elt F) S64x64 .f32)), { LS0 : List (View.Piece (Elt F) S64x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc3__pool_kernel i arg1 harg1 arg2 harg2 arg3 harg3 arg4 harg4 arg5 harg5 arg6 harg6 arg7 harg7) K } := by
  refine ⟨?_, ?_, fun E K => ?run⟩
  case run =>
    simp only [cc3__pool_kernel_eq_skeleton]; unfold cc3__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4
    obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

end Cert.Kernel.Pool

end
-- ==== Proof.K.Pool.lean ====
/-
  The pooling call (pipeline 3) as the pipeline sees it, at any contents `V` of the core's buffers when the call
  is entered. Over a grid of ten row tiles, tile `t` reads rows [10000 t, 10000 (t+1)) of the node features and of
  the graph indices, and the transposed linear weight, the bias and the inverse node counts whole. A 64×64
  accumulator is carried from tile to tile: zero before the first, then each tile adds its per-graph feature sums.
  The output block — the sums scaled by the inverse counts, times the weight, plus the bias — is written at the
  last tile only, so the output window is idle at every other tile. This module names what the accumulator and
  the output block hold after each tile (by recursion on the tile: `outsAt3`), states the invariant that carries
  the accumulator between tiles, gives the proof data, and proves the body obligation by the three cases of the
  tile's number; it closes with the case equations read as the body's payloads.
-/
import proofs.«430438_j75239237091885_2_alg».proof.Proof.K.PoolRuns
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The call at the contents it is entered with -/

variable (V : (c : Dev nD) → (b : Ref sig .tc) → Buf (Elt F) ((c : Thread nD τ).loc b))

/-- Window `w`'s block at tile `t`, read off its array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Each window's current staging memref at tile `t`, and its wholeness. -/
abbrev ms3_0 (t : Fin cfg3.N) : Memref sig .tc .vmem S10000x64 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S10000x1 .i32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S64x64 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x64 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S64x1 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S64x64 .f32 := win3_5.stage (cfg3.slots t 5)
abbrev hs3_5 (t : Fin cfg3.N) : (ms3_5 t).IsWhole := hstage3_5 ((cfg3.slots t 5).cast nbuf3_5)

/-- The first tile's run, at the pipeline's memrefs and the blocks read there. -/
abbrev runA (c : Dev nD) (t : Fin cfg3.N) (h0 : t.val = 0) :=
  kernelRun3_A c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _) ((hcond3_0 t).mpr h0) (fun h => absurd ((hcond3_1 t).mp h) (by omega)) (iblk3 V c 0 t) (iblk3 V c 1 t) (iblk3 V c 2 t) (iblk3 V c 3 t) (iblk3 V c 4 t)
/-- A middle tile's run, over what the accumulator held (`xs`). -/
abbrev runB (c : Dev nD) (t : Fin cfg3.N) (h0 : ¬t.val = 0) (h9 : ¬t.val = 9) (xs : Vec F S64x64 .f32) :=
  kernelRun3_B c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _) (fun h => h0 ((hcond3_0 t).mp h)) (fun h => h9 ((hcond3_1 t).mp h)) (iblk3 V c 0 t) (iblk3 V c 1 t) (iblk3 V c 2 t) (iblk3 V c 3 t) (iblk3 V c 4 t) xs
/-- The last tile's run, over what the accumulator held (`xs`). -/
abbrev runC (c : Dev nD) (t : Fin cfg3.N) (h0 : ¬t.val = 0) (h9 : t.val = 9) (xs : Vec F S64x64 .f32) :=
  kernelRun3_C c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _) (fun h => h0 ((hcond3_0 t).mp h)) ((hcond3_1 t).mpr h9) (iblk3 V c 0 t) (iblk3 V c 1 t) (iblk3 V c 2 t) (iblk3 V c 3 t) (iblk3 V c 4 t) xs

/-- Each case's pieces for the accumulator cover it (every store is of the whole 64×64 buffer), -/
theorem scoverA (c : Dev nD) (t : Fin cfg3.N) (h0 : t.val = 0) (y : S64x64.Idx) : ∃ pc ∈ (runA V c t h0).1, y ∈ pc.1.set :=
  View.cover_of_tiledL (runA V c t h0).1 S64x64.size (by sl_kernel_rfl) y
theorem scoverB (c : Dev nD) (t : Fin cfg3.N) (h0 : ¬t.val = 0) (h9 : ¬t.val = 9) (xs : Vec F S64x64 .f32) (y : S64x64.Idx) :
    ∃ pc ∈ (runB V c t h0 h9 xs).1, y ∈ pc.1.set :=
  View.cover_of_tiledL (runB V c t h0 h9 xs).1 S64x64.size (by sl_kernel_rfl) y
theorem scoverC (c : Dev nD) (t : Fin cfg3.N) (h0 : ¬t.val = 0) (h9 : t.val = 9) (xs : Vec F S64x64 .f32) (y : S64x64.Idx) :
    ∃ pc ∈ (runC V c t h0 h9 xs).2.1, y ∈ pc.1.set :=
  View.cover_of_tiledL (runC V c t h0 h9 xs).2.1 S64x64.size (by sl_kernel_rfl) y
/-- and the last tile's pieces for the output block cover it. -/
theorem coverC (c : Dev nD) (t : Fin cfg3.N) (h0 : ¬t.val = 0) (h9 : t.val = 9) (xs : Vec F S64x64 .f32) (y : S64x64.Idx) :
    ∃ pc ∈ (runC V c t h0 h9 xs).1, y ∈ pc.1.set :=
  View.cover_of_tiledL (runC V c t h0 h9 xs).1 S64x64.size (by sl_kernel_rfl) y

/-! ## What the accumulator and the output block hold after each tile -/

/-- After the body at tile `n`: (the output window's staging buffer, the accumulator). The accumulator is the
    canonical contents of the case's pieces, over what tile `n - 1` left in it; the output block is written at the
    last tile only — before that the component is a placeholder nothing reads (the window is idle and not written
    back there). -/
def outsAt3 (c : Dev nD) : (n : ℕ) → n < cfg3.N → Vec F S64x64 .f32 × Vec F S64x64 .f32
  | 0, hn => (View.canon [], View.canon (runA V c ⟨0, hn⟩ rfl).1)
  | n + 1, hn =>
    if h9 : n + 1 = 9 then
      (View.canon (runC V c ⟨n + 1, hn⟩ (Nat.succ_ne_zero n) h9 (outsAt3 c n (Nat.lt_of_succ_lt hn)).2).1,
       View.canon (runC V c ⟨n + 1, hn⟩ (Nat.succ_ne_zero n) h9 (outsAt3 c n (Nat.lt_of_succ_lt hn)).2).2.1)
    else
      (View.canon [], View.canon (runB V c ⟨n + 1, hn⟩ (Nat.succ_ne_zero n) h9 (outsAt3 c n (Nat.lt_of_succ_lt hn)).2).1)

theorem outsAt3_A (c : Dev nD) (t : Fin cfg3.N) (h0 : t.val = 0) :
    outsAt3 V c t.val t.isLt = (View.canon [], View.canon (runA V c t h0).1) := by
  obtain ⟨n, hn⟩ := t
  cases n with
  | zero => exact rfl
  | succ n => exact absurd h0 (Nat.succ_ne_zero n)

theorem outsAt3_B (c : Dev nD) (t : Fin cfg3.N) (h0 : ¬t.val = 0) (h9 : ¬t.val = 9) :
    outsAt3 V c t.val t.isLt = (View.canon [], View.canon (runB V c t h0 h9 (outsAt3 V c (t.val - 1) (Nat.lt_of_le_of_lt (Nat.sub_le _ _) t.isLt)).2).1) := by
  obtain ⟨n, hn⟩ := t
  cases n with
  | zero => exact absurd rfl h0
  | succ n => exact (dif_neg h9).trans rfl

theorem outsAt3_C (c : Dev nD) (t : Fin cfg3.N) (h0 : ¬t.val = 0) (h9 : t.val = 9) :
    outsAt3 V c t.val t.isLt = (View.canon (runC V c t h0 h9 (outsAt3 V c (t.val - 1) (Nat.lt_of_le_of_lt (Nat.sub_le _ _) t.isLt)).2).1,
      View.canon (runC V c t h0 h9 (outsAt3 V c (t.val - 1) (Nat.lt_of_le_of_lt (Nat.sub_le _ _) t.isLt)).2).2.1) := by
  obtain ⟨n, hn⟩ := t
  cases n with
  | zero => exact absurd rfl h0
  | succ n => exact (dif_pos h9).trans rfl

/-! ## The invariant and the proof data -/

/-- The invariant before tile `n`: before the first, the call's own (every scoped buffer that is no staging buffer
    at anything, the generator register at some state); afterwards the same with the accumulator at what tile
    `n - 1` left in it. -/
def PhiS (c : Dev nD) : (n : ℕ) → n ≤ cfg3.N → sProp 𝕄
  | 0, _ => Pipeline.ΦA spec3 c
  | n + 1, hn => iprop(iprop(owns (c : Thread nD τ) scM3 fullShare ((outsAt3 V c n hn).2) ∗ Pipeline.scopedRestBut (Ix := Unit) (Name := ℕ) (U := UR sig nD τ) (Lvl := ℕ) (Val := Elt F) spec3 c [cc3_scratch0]) ∗ (∃ r, prngReg c r))

theorem PhiS_zero (c : Dev nD) (n : ℕ) (h : n ≤ cfg3.N) (hz : n = 0) : PhiS V c n h = Pipeline.ΦA spec3 c := by
  subst hz; rfl

theorem PhiS_succ (c : Dev nD) (n : ℕ) (hn : n < cfg3.N) :
    PhiS V c (n + 1) hn = iprop(iprop(owns (c : Thread nD τ) scM3 fullShare ((outsAt3 V c n hn).2) ∗ Pipeline.scopedRestBut (Ix := Unit) (Name := ℕ) (U := UR sig nD τ) (Lvl := ℕ) (Val := Elt F) spec3 c [cc3_scratch0]) ∗ (∃ r, prngReg c r)) := rfl

theorem PhiS_pos (c : Dev nD) (n : ℕ) (h : n ≤ cfg3.N) (hz : n ≠ 0) :
    PhiS V c n h = iprop(iprop(owns (c : Thread nD τ) scM3 fullShare ((outsAt3 V c (n - 1) (by omega)).2) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-- The proof data of the pooling call on core `c`: the arrays as the call finds them; after the body at tile `t`
    each input's buffer at its block and the output's at `outsAt3`'s first component; the invariant `PhiS`; full
    shares; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => (outsAt3 V c t.val t.isLt).1
  Φ t := PhiS V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = (outsAt3 V c t.val t.isLt).1 := by dsimp only [dat3]

theorem PhiS_castSucc (c : Dev nD) (t : Fin cfg3.N) :
    (dat3 V c).Φ t.castSucc = PhiS V c t.val (Nat.le_of_lt t.isLt) := by
  dsimp only [dat3]; simp only [Fin.coe_castSucc]

/-- Each input's current staging buffer holds its block at every tile, fetched there or not. -/
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl) (fun t => by rw [after3_4]; unfold Dat.blockOf iblk3; rw [A_eq3]; try rfl) t d).trans
    (by unfold Dat.fetched Dat.blockOf iblk3; rw [A_eq3]; try rfl)

/-! ## The body obligation, at a generic tile -/

/-- What the body is called with at tile `t`, the windows one by one, -/
def bodyPre (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))

/-- and what it returns. -/
def bodyPost (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t)

set_option maxHeartbeats 4800000 in
/-- The body at any tile. The inputs' buffers hold their blocks; which case the tile is in is read off its number.
    At the first tile the invariant is the call's own, split at the accumulator, which the body takes at anything;
    later it hands the accumulator at what the tile before left. In every case the accumulator comes back at the
    canonical contents of the case's pieces (they cover it), which is `outsAt3`'s second component there. The
    output's buffer is handed back untouched where the window is idle (every tile but the last) and comes back at
    the canonical contents of the finishing store at the last. Nothing is owed throughout. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before3_0, before3_1, before3_2, before3_3, before3_4]
  rw [show (dat3 V c).owesAt () t.succ = (dat3 V c).owesAt () t.castSucc from rfl]
  rw [show (dat3 V c).Φ t.succ = PhiS V c (t.val + 1) t.isLt from rfl, PhiS_succ]
  have hN : t.val < 10 := lt_of_lt_of_eq t.isLt (show cfg3.N = 10 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  rw [show (dat3 V c).leavesExact 4 t = owns (c : Thread nD τ) (ms3_4 t) fullShare ((dat3 V c).after 4 t) from by
    unfold Dat.leavesExact; rw [liveAt3_4 t], after3_4]
  by_cases h0 : t.val = 0
  · have hn1 : ¬cond3_1 (grid3.coords t) := fun h => absurd ((hcond3_1 t).mp h) (by omega)
    rw [Dat.leavesExact_idle (dat3 V c) 5 t (idleAt3_5 t hn1) (noFlush3_5 t hn1)]
    rw [outsAt3_A V c t h0]; (try dsimp only)
    rw [PhiS_castSucc V c t, PhiS_zero V c _ _ h0, PhiA3_eq]
    iintro ⟨⟨⟨HS0, Hr⟩, Hg⟩, Ho, ⟨%d0, H0⟩, ⟨%d1, H1⟩, ⟨%d2, H2⟩, ⟨%d3, H3⟩, ⟨%d4, H4⟩, ⟨%d5, H5⟩⟩
    iapply ((runA V c t h0).2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    iintro ⟨H0, H1, H2, H3, H4, H5, ⟨%es0, HS0⟩⟩
    isplitl [HS0 Hr Hg]
    · isplitl [HS0 Hr]
      · isplitl [HS0]
        · unfold owns; iexists _; isplitr
          swap; · iexact HS0
          ipureintro; exact View.read_writes_eq_canon _ _ _ (scoverA V c t h0)
        iexact Hr
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · by_cases h9 : t.val = 9
    · rw [show (dat3 V c).leavesExact 5 t = owns (c : Thread nD τ) (ms3_5 t) fullShare ((dat3 V c).after 5 t) from by
        unfold Dat.leavesExact; rw [liveAt3_5 t ((hcond3_1 t).mpr h9)], after3_5]
      rw [outsAt3_C V c t h0 h9]; (try dsimp only)
      rw [PhiS_castSucc V c t, PhiS_pos V c _ _ h0]
      iintro ⟨⟨⟨HS0, Hr⟩, Hg⟩, Ho, ⟨%d0, H0⟩, ⟨%d1, H1⟩, ⟨%d2, H2⟩, ⟨%d3, H3⟩, ⟨%d4, H4⟩, ⟨%d5, H5⟩⟩
      iapply ((runC V c t h0 h9 _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hr Hg]
      · isplitl [HS0 Hr]
        · isplitl [HS0]
          · unfold owns; iexists _; isplitr
            swap; · iexact HS0
            ipureintro; exact View.read_writes_eq_canon _ _ _ (scoverC V c t h0 h9 _)
          iexact Hr
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_eq_canon _ _ _ (coverC V c t h0 h9 _)
    · have hn1 : ¬cond3_1 (grid3.coords t) := fun h => h9 ((hcond3_1 t).mp h)
      rw [Dat.leavesExact_idle (dat3 V c) 5 t (idleAt3_5 t hn1) (noFlush3_5 t hn1)]
      rw [outsAt3_B V c t h0 h9]; (try dsimp only)
      rw [PhiS_castSucc V c t, PhiS_pos V c _ _ h0]
      iintro ⟨⟨⟨HS0, Hr⟩, Hg⟩, Ho, ⟨%d0, H0⟩, ⟨%d1, H1⟩, ⟨%d2, H2⟩, ⟨%d3, H3⟩, ⟨%d4, H4⟩, ⟨%d5, H5⟩⟩
      iapply ((runB V c t h0 h9 _).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hr Hg]
      · isplitl [HS0 Hr]
        · isplitl [HS0]
          · unfold owns; iexists _; isplitr
            swap; · iexact HS0
            ipureintro; exact View.read_writes_eq_canon _ _ _ (scoverB V c t h0 h9 _)
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every tile. -/
theorem body_obligation3 (c : Dev nD) : BodyObligation (dat3 (F := F) V c) (defs₀ (F := F)) Variants.none () Set.univ := fun t => by
  rw [bigSep_W3, bigSep_W3]
  exact sound_body V c t

/-- Before the first tile the invariant is the call's own. -/
theorem Phi3_zero (c : Dev nD) : (dat3 V c).Φ 0 = Pipeline.ΦA spec3 c := by
  rw [show (dat3 V c).Φ 0 = PhiS V c 0 (Nat.zero_le _) from rfl, PhiS_zero V c 0 _ rfl]

/-- After any tile but the first the invariant gives the call's own back: what the accumulator holds is forgotten. -/
theorem Phi3_out (c : Dev nD) (t : Fin (cfg3.N + 1)) (ht : t.val ≠ 0) : (dat3 V c).Φ t ⊢ Pipeline.ΦA spec3 c := by
  rw [show (dat3 V c).Φ t = PhiS V c t.val (Nat.le_of_lt_succ t.isLt) from rfl, PhiS_pos V c _ _ ht, PhiA3_eq]
  iintro ⟨⟨HS0, Hr⟩, Hg⟩
  isplitl [HS0 Hr]
  · isplitl [HS0]
    · iexists _; iexact HS0
    iexact Hr
  iexact Hg

/-- The same after the last tile. -/
theorem Phi3_last (c : Dev nD) : (dat3 V c).Φ (Fin.last cfg3.N) ⊢ Pipeline.ΦA spec3 c :=
  Phi3_out V c _ (by rw [Fin.val_last]; have : cfg3.N = 10 := N_3; omega)

/-! ## The case equations as the body's payloads -/

theorem hz : (![0, 0] : Fin 2 → Nat) = fun _ => 0 := funext fun a => by fin_cases a <;> rfl

/-- The first tile leaves in the accumulator the update of the zero block: the reset is read back whole. -/
theorem accA_eq (c : Dev nD) (t : Fin cfg3.N) (h0 : t.val = 0) :
    View.canon (runA V c t h0).1 = k3_pay2 (iblk3 V c 0 t) (iblk3 V c 1 t) (k3_pay1 (F := F)) := by
  unfold runA kernelRun3_A
  dsimp only
  sl_unfold_words
  rw [View.canon_cons_unit_zero (S := S64x64) hz, View.readCov_unit_zero (S := S64x64) _ hz]
  simp only [View.readAt_eq_ld, (hs3_0 t).read_unread, (hs3_1 t).read_unread,
    View.ld_unit_zero (S := S10000x64) hz, View.ld_unit_zero (S := S10000x1) hz]

/-- A middle tile leaves the update of what the accumulator held. -/
theorem accB_eq (c : Dev nD) (t : Fin cfg3.N) (h0 : ¬t.val = 0) (h9 : ¬t.val = 9) (xs : Vec F S64x64 .f32) :
    View.canon (runB V c t h0 h9 xs).1 = k3_pay2 (iblk3 V c 0 t) (iblk3 V c 1 t) xs := by
  unfold runB kernelRun3_B
  dsimp only
  try sl_unfold_words
  rw [View.canon_unit_zero (S := S64x64) hz]
  simp only [View.readAt_eq_ld, (hs3_0 t).read_unread, (hs3_1 t).read_unread, (Memref.isWhole_whole cc3_scratch0).read_unread,
    View.ld_unit_zero (S := S10000x64) hz, View.ld_unit_zero (S := S10000x1) hz, View.ld_unit_zero (S := S64x64) hz]

/-- So does the last tile; -/
theorem accC_eq (c : Dev nD) (t : Fin cfg3.N) (h0 : ¬t.val = 0) (h9 : t.val = 9) (xs : Vec F S64x64 .f32) :
    View.canon (runC V c t h0 h9 xs).2.1 = k3_pay2 (iblk3 V c 0 t) (iblk3 V c 1 t) xs := by
  unfold runC kernelRun3_C
  dsimp only
  try sl_unfold_words
  rw [View.canon_unit_zero (S := S64x64) hz]
  simp only [View.readAt_eq_ld, (hs3_0 t).read_unread, (hs3_1 t).read_unread, (Memref.isWhole_whole cc3_scratch0).read_unread,
    View.ld_unit_zero (S := S10000x64) hz, View.ld_unit_zero (S := S10000x1) hz, View.ld_unit_zero (S := S64x64) hz]

/-- and it finishes the output block from the accumulator as just updated, read back whole. -/
theorem outC_eq (c : Dev nD) (t : Fin cfg3.N) (h0 : ¬t.val = 0) (h9 : t.val = 9) (xs : Vec F S64x64 .f32) :
    View.canon (runC V c t h0 h9 xs).1
      = k3_pay3 (k3_pay2 (iblk3 V c 0 t) (iblk3 V c 1 t) xs) (iblk3 V c 4 t) (iblk3 V c 2 t) (iblk3 V c 3 t) := by
  unfold runC kernelRun3_C
  dsimp only
  sl_unfold_words
  rw [View.canon_unit_zero (S := S64x64) hz, View.readCov_unit_zero (S := S64x64) _ hz]
  simp only [View.readAt_eq_ld, (hs3_0 t).read_unread, (hs3_1 t).read_unread, (hs3_2 t).read_unread, (hs3_3 t).read_unread,
    (hs3_4 t).read_unread, (Memref.isWhole_whole cc3_scratch0).read_unread,
    View.ld_unit_zero (S := S10000x64) hz, View.ld_unit_zero (S := S10000x1) hz, View.ld_unit_zero (S := S64x64) hz,
    View.ld_unit_zero (S := S1x64) hz, View.ld_unit_zero (S := S64x1) hz]

/-- After the first tile the accumulator is the first tile's update of zero. -/
theorem scratch3_first (c : Dev nD) (h0 : 0 < cfg3.N) :
    (outsAt3 V c 0 h0).2 = k3_pay2 (iblk3 V c 0 ⟨0, h0⟩) (iblk3 V c 1 ⟨0, h0⟩) (k3_pay1 (F := F)) :=
  accA_eq V c ⟨0, h0⟩ rfl

/-- After every later tile it is that tile's update of what the tile before left. -/
theorem scratch3_succ (c : Dev nD) (n : ℕ) (hn : n + 1 < cfg3.N) :
    (outsAt3 V c (n + 1) hn).2 = k3_pay2 (iblk3 V c 0 ⟨n + 1, hn⟩) (iblk3 V c 1 ⟨n + 1, hn⟩) (outsAt3 V c n (Nat.lt_of_succ_lt hn)).2 := by
  by_cases h9 : n + 1 = 9
  · exact (congrArg Prod.snd (outsAt3_C V c ⟨n + 1, hn⟩ (Nat.succ_ne_zero n) h9)).trans (accC_eq V c ⟨n + 1, hn⟩ (Nat.succ_ne_zero n) h9 _)
  · exact (congrArg Prod.snd (outsAt3_B V c ⟨n + 1, hn⟩ (Nat.succ_ne_zero n) h9)).trans (accB_eq V c ⟨n + 1, hn⟩ (Nat.succ_ne_zero n) h9 _)

/-- After the last tile the output block is finished from the accumulator as that tile leaves it. -/
theorem out3_last (c : Dev nD) (h9 : 9 < cfg3.N) :
    (outsAt3 V c 9 h9).1 = k3_pay3 (outsAt3 V c 9 h9).2 (iblk3 V c 4 ⟨9, h9⟩) (iblk3 V c 2 ⟨9, h9⟩) (iblk3 V c 3 ⟨9, h9⟩) := by
  have e := outsAt3_C V c ⟨9, h9⟩ (Nat.succ_ne_zero 8) rfl
  rw [show outsAt3 V c 9 h9 = _ from e]
  dsimp only
  rw [outC_eq, accC_eq]

end Cert.Kernel.Pool

end
-- ==== Proof.K.Run.lean ====
/-
  The run of @main: four kernel calls among four stretches of host operations. Between two items each core holds
  every unscoped buffer whole at a named valuation: the launch contents, then what each host stretch computes
  (`StableHlo.after`), then, after a call, the same valuation with the call's arrays at what its pipeline leaves
  (`Dat.arrAt … N`). Each call's entry contents are defined from the earlier calls' results, stage by stage, so the
  run ends with the result array at a named value and every argument array as launched.
-/
import proofs.«430438_j75239237091885_2_alg».proof.Proof.Gen.Kernel.Launch
import proofs.«430438_j75239237091885_2_alg».proof.Proof.Gen.Kernel.Skeleton
import proofs.«430438_j75239237091885_2_alg».proof.Proof.Gen.Kernel.Points
import proofs.«430438_j75239237091885_2_alg».proof.Proof.Gen.Kernel.Regions
import proofs.«430438_j75239237091885_2_alg».proof.Proof.K.Gc0
import proofs.«430438_j75239237091885_2_alg».proof.Proof.K.Gc1
import proofs.«430438_j75239237091885_2_alg».proof.Proof.K.Gc2
import proofs.«430438_j75239237091885_2_alg».proof.Proof.K.Pool
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The run, given the calls' records -/

set_option backward.isDefEq.respectTransparency.types false in
/-- THE CONDITIONAL RUN. For any user algebra, level assignment, launch dues and ghost resources, any rest states `E`
    the launch makes on every core at once (`hE0`) and that end owing nothing (`hE4`), any contents the calls leave
    (`outs`) and any proof data: GIVEN, per call K, a segment record entered from the thread state before it and left at
    the one after it, every weakly fair execution of @main from memory `m` with zero counters terminates, and every final
    memory holds the result array `main_v62` at the last valuation's contents there and each argument as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c)) :
    θ_run defs (onTc (τ := τ) (main (F := F))) ⟨m, fun _ => 0, ρ⟩ (fun r => ∀ c : Dev nD,
      r.2.mem ((c.tc : Thread nD τ).loc main_v62) = V8 m outs c main_v62
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) := by
  refine Pipeline.θ_run_regions_kit_dev (pcfgs (F := F)) adm pdats ι cellOf_inj EP defs₀ 𝒱₀ L lv m ρ main
    (segs m outs 𝒱₀ L lv E ι pdats R0 R1 R2 R3)
    (fun c Q => by
      rewrite [main_chain c, Seg.run_eq_chain,
        show (segs m outs 𝒱₀ L lv E ι pdats R0 R1 R2 R3 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V8 m outs c))
    (hch := fun c => ⟨.rfl, hpre0 c, hpost0 c, hpre1 c, hpost1 c, hpre2 c, hpost2 c, hpre3 c, (hpost3 c).trans (sep_mono .rfl (hE4 c))⟩)
    (hinit := ?_) (QY := fun c s => s.mem ((c.tc : Thread nD τ).loc main_v62) = V8 m outs c main_v62 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V8 m outs c) s') $$ [Hh HSI]
    · isplitl [Hh] <;> iassumption
    icases Hr with ⟨%h, HSI⟩
    imodintro
    isplitr
    · ipureintro
      exact ⟨h (Proc.devRef .tc main_v62) (Finset.mem_filter.mpr ⟨StableHlo.devRef_mem_tcRefs main_v62, by decide⟩),
        (h (Proc.devRef .tc main_arg0) (Finset.mem_filter.mpr ⟨StableHlo.devRef_mem_tcRefs main_arg0, by decide⟩)).trans (V8_main_arg0 m outs c),
        (h (Proc.devRef .tc main_arg1) (Finset.mem_filter.mpr ⟨StableHlo.devRef_mem_tcRefs main_arg1, by decide⟩)).trans (V8_main_arg1 m outs c),
        (h (Proc.devRef .tc main_arg2) (Finset.mem_filter.mpr ⟨StableHlo.devRef_mem_tcRefs main_arg2, by decide⟩)).trans (V8_main_arg2 m outs c),
        (h (Proc.devRef .tc main_arg3) (Finset.mem_filter.mpr ⟨StableHlo.devRef_mem_tcRefs main_arg3, by decide⟩)).trans (V8_main_arg3 m outs c),
        (h (Proc.devRef .tc main_arg4) (Finset.mem_filter.mpr ⟨StableHlo.devRef_mem_tcRefs main_arg4, by decide⟩)).trans (V8_main_arg4 m outs c),
        (h (Proc.devRef .tc main_arg5) (Finset.mem_filter.mpr ⟨StableHlo.devRef_mem_tcRefs main_arg5, by decide⟩)).trans (V8_main_arg5 m outs c),
        (h (Proc.devRef .tc main_arg6) (Finset.mem_filter.mpr ⟨StableHlo.devRef_mem_tcRefs main_arg6, by decide⟩)).trans (V8_main_arg6 m outs c),
        (h (Proc.devRef .tc main_arg7) (Finset.mem_filter.mpr ⟨StableHlo.devRef_mem_tcRefs main_arg7, by decide⟩)).trans (V8_main_arg7 m outs c),
        (h (Proc.devRef .tc main_arg8) (Finset.mem_filter.mpr ⟨StableHlo.devRef_mem_tcRefs main_arg8, by decide⟩)).trans (V8_main_arg8 m outs c),
        (h (Proc.devRef .tc main_arg9) (Finset.mem_filter.mpr ⟨StableHlo.devRef_mem_tcRefs main_arg9, by decide⟩)).trans (V8_main_arg9 m outs c),
        (h (Proc.devRef .tc main_arg10) (Finset.mem_filter.mpr ⟨StableHlo.devRef_mem_tcRefs main_arg10, by decide⟩)).trans (V8_main_arg10 m outs c),
        (h (Proc.devRef .tc main_arg11) (Finset.mem_filter.mpr ⟨StableHlo.devRef_mem_tcRefs main_arg11, by decide⟩)).trans (V8_main_arg11 m outs c),
        (h (Proc.devRef .tc main_arg12) (Finset.mem_filter.mpr ⟨StableHlo.devRef_mem_tcRefs main_arg12, by decide⟩)).trans (V8_main_arg12 m outs c),
        (h (Proc.devRef .tc main_arg13) (Finset.mem_filter.mpr ⟨StableHlo.devRef_mem_tcRefs main_arg13, by decide⟩)).trans (V8_main_arg13 m outs c)⟩
    · iexact HSI

/-! ## The buffers' contents, call by call

Each call's entry contents are what the launch memory, the host stretches and the EARLIER calls' results make them, so
they are defined in order: `E1` (entry of the first call), `X2` (its exit), `E3`, `X4`, `E5`, `X6`, `E7`, `X8`. A
call's exit contents are its entry contents with its arrays at what the pipeline leaves after the last point: an input
array as entered, the output array with every tile's write-back folded in. -/

/-- Core `c`'s unscoped buffers when the first call is entered: the launch contents after the first host stretch. -/
abbrev E1 (c : Dev nD) : Valuation τ sig (Elt F) := V1 m c
/-- Core `c`'s unscoped buffers when the first call returns: its arrays at what its pipeline leaves. -/
def X2 (c : Dev nD) : Valuation τ sig (Elt F) :=
  Pipeline.withArrays spec0 c (E1 m c) fun w => (Gc0.dat0 (fun c b => E1 m c b) c).arrAt w cfg0.N
/-- Core `c`'s unscoped buffers when the second call is entered: the first call's result in `main_v28`, then the
    second host stretch. -/
abbrev E3 (c : Dev nD) : Valuation τ sig (Elt F) :=
  StableHlo.after hostOps1 (Function.update (E1 m c) main_v28 (X2 m c main_v28))
/-- Core `c`'s unscoped buffers when the second call returns. -/
def X4 (c : Dev nD) : Valuation τ sig (Elt F) :=
  Pipeline.withArrays spec1 c (E3 m c) fun w => (Gc1.dat1 (fun c b => E3 m c b) c).arrAt w cfg1.N
/-- Core `c`'s unscoped buffers when the third call is entered: the second call's result in `main_v40`, then the
    third host stretch. -/
abbrev E5 (c : Dev nD) : Valuation τ sig (Elt F) :=
  StableHlo.after hostOps2 (Function.update (E3 m c) main_v40 (X4 m c main_v40))
/-- Core `c`'s unscoped buffers when the third call returns. -/
def X6 (c : Dev nD) : Valuation τ sig (Elt F) :=
  Pipeline.withArrays spec2 c (E5 m c) fun w => (Gc2.dat2 (fun c b => E5 m c b) c).arrAt w cfg2.N
/-- Core `c`'s unscoped buffers when the pooling call is entered: the third call's result in `main_v52`, then the
    fourth host stretch. -/
abbrev E7 (c : Dev nD) : Valuation τ sig (Elt F) :=
  StableHlo.after hostOps3 (Function.update (E5 m c) main_v52 (X6 m c main_v52))
/-- Core `c`'s unscoped buffers when the pooling call returns. -/
def X8 (c : Dev nD) : Valuation τ sig (Elt F) :=
  Pipeline.withArrays spec3 c (E7 m c) fun w => (Pool.dat3 (fun c b => E7 m c b) c).arrAt w cfg3.N

/-- What the calls leave in the buffers they may change: each call's exit contents, read at its output array. -/
def outs : Outs (F := F) := fun n r c =>
  match n with
  | 2 => X2 m c r
  | 4 => X4 m c r
  | 6 => X6 m c r
  | 8 => X8 m c r
  | _ => m ((c : Thread nD τ).loc r)

/-- With these results the valuations between items are the staged contents. -/
theorem V3_eq (c : Dev nD) : V3 m (outs m) c = E3 m c := rfl
theorem V5_eq (c : Dev nD) : V5 m (outs m) c = E5 m c := rfl
theorem V7_eq (c : Dev nD) : V7 m (outs m) c = E7 m c := rfl

/-! ## Each call's exit contents, array by array -/

/-- The first call's result: its output array after the last tile's write-back. -/
theorem h1_eq (c : Dev nD) : X2 m c main_v28 = (Gc0.dat0 (fun c b => E1 m c b) c).arrAt 5 cfg0.N := by
  unfold X2; exact Pipeline.withArrays_arr spec0 launch0.win.arr_inj c _ _ 5

/-- An input window's array leaves the first call as it entered. -/
theorem hF0_in (c : Dev nD) (w : Fin cfg0.W) (hin : (cfg0.win w).isOut = false)
    (hne : Pipeline.arrRef spec0 w ∉ ([main_v28] : List (Ref sig .tc))) :
    (Gc0.dat0 (fun c b => E1 m c b) c).arrAt w cfg0.N = V2 m (outs m) c (Pipeline.arrRef spec0 w) := by
  rw [Pipeline.Dat.arrAt_in _ w hin, Gc0.A_eq0]
  exact (V2_of m (outs m) c _ hne).symm

/-- At the first call's exit each of its arrays holds what the pipeline leaves: the five inputs as entered, the output
    array the call's result. -/
theorem hF0 (c : Dev nD) : ∀ w : Fin cfg0.W,
    (Gc0.dat0 (fun c b => E1 m c b) c).arrAt w cfg0.N = V2 m (outs m) c (Pipeline.arrRef spec0 w)
  | ⟨0, _⟩ => hF0_in m c 0 rfl (by decide)
  | ⟨1, _⟩ => hF0_in m c 1 rfl (by decide)
  | ⟨2, _⟩ => hF0_in m c 2 rfl (by decide)
  | ⟨3, _⟩ => hF0_in m c 3 rfl (by decide)
  | ⟨4, _⟩ => hF0_in m c 4 rfl (by decide)
  | ⟨5, _⟩ => by
    show _ = Function.update (V1 m c) main_v28 (X2 m c main_v28) main_v28
    rw [Function.update_self]
    exact (h1_eq m c).symm

/-- and every other buffer holds what it held at entry. -/
theorem hrest0 (c : Dev nD) (b : Ref sig .tc) (hb : b ∉ Finset.univ.image (Pipeline.arrRef spec0)) :
    V2 m (outs m) c b = E1 m c b :=
  V2_of m (outs m) c b fun h => hb (Finset.mem_image.mpr ⟨5, Finset.mem_univ _, (List.mem_singleton.mp h).symm⟩)

/-- The second call's result: its output array after the last tile's write-back. -/
theorem h2_eq (c : Dev nD) : X4 m c main_v40 = (Gc1.dat1 (fun c b => E3 m c b) c).arrAt 5 cfg1.N := by
  unfold X4; exact Pipeline.withArrays_arr spec1 launch1.win.arr_inj c _ _ 5

/-- An input window's array leaves the second call as it entered. -/
theorem hF1_in (c : Dev nD) (w : Fin cfg1.W) (hin : (cfg1.win w).isOut = false)
    (hne : Pipeline.arrRef spec1 w ∉ ([main_v40] : List (Ref sig .tc))) :
    (Gc1.dat1 (fun c b => E3 m c b) c).arrAt w cfg1.N = V4 m (outs m) c (Pipeline.arrRef spec1 w) := by
  rw [Pipeline.Dat.arrAt_in _ w hin, Gc1.A_eq1]
  exact ((V4_of m (outs m) c _ hne).trans (congrFun (V3_eq m c) _)).symm

/-- At the second call's exit each of its arrays holds what the pipeline leaves: the five inputs as entered, the output
    array the call's result. -/
theorem hF1 (c : Dev nD) : ∀ w : Fin cfg1.W,
    (Gc1.dat1 (fun c b => E3 m c b) c).arrAt w cfg1.N = V4 m (outs m) c (Pipeline.arrRef spec1 w)
  | ⟨0, _⟩ => hF1_in m c 0 rfl (by decide)
  | ⟨1, _⟩ => hF1_in m c 1 rfl (by decide)
  | ⟨2, _⟩ => hF1_in m c 2 rfl (by decide)
  | ⟨3, _⟩ => hF1_in m c 3 rfl (by decide)
  | ⟨4, _⟩ => hF1_in m c 4 rfl (by decide)
  | ⟨5, _⟩ => by
    show _ = Function.update (V3 m (outs m) c) main_v40 (X4 m c main_v40) main_v40
    rw [Function.update_self]
    exact (h2_eq m c).symm

/-- and every other buffer holds what it held at entry. -/
theorem hrest1 (c : Dev nD) (b : Ref sig .tc) (hb : b ∉ Finset.univ.image (Pipeline.arrRef spec1)) :
    V4 m (outs m) c b = E3 m c b :=
  (V4_of m (outs m) c b fun h => hb (Finset.mem_image.mpr ⟨5, Finset.mem_univ _, (List.mem_singleton.mp h).symm⟩)).trans (congrFun (V3_eq m c) _)

/-- The third call's result: its output array after the last tile's write-back. -/
theorem h3_eq (c : Dev nD) : X6 m c main_v52 = (Gc2.dat2 (fun c b => E5 m c b) c).arrAt 5 cfg2.N := by
  unfold X6; exact Pipeline.withArrays_arr spec2 launch2.win.arr_inj c _ _ 5

/-- An input window's array leaves the third call as it entered. -/
theorem hF2_in (c : Dev nD) (w : Fin cfg2.W) (hin : (cfg2.win w).isOut = false)
    (hne : Pipeline.arrRef spec2 w ∉ ([main_v52] : List (Ref sig .tc))) :
    (Gc2.dat2 (fun c b => E5 m c b) c).arrAt w cfg2.N = V6 m (outs m) c (Pipeline.arrRef spec2 w) := by
  rw [Pipeline.Dat.arrAt_in _ w hin, Gc2.A_eq2]
  exact ((V6_of m (outs m) c _ hne).trans (congrFun (V5_eq m c) _)).symm

/-- At the third call's exit each of its arrays holds what the pipeline leaves: the five inputs as entered, the output
    array the call's result. -/
theorem hF2 (c : Dev nD) : ∀ w : Fin cfg2.W,
    (Gc2.dat2 (fun c b => E5 m c b) c).arrAt w cfg2.N = V6 m (outs m) c (Pipeline.arrRef spec2 w)
  | ⟨0, _⟩ => hF2_in m c 0 rfl (by decide)
  | ⟨1, _⟩ => hF2_in m c 1 rfl (by decide)
  | ⟨2, _⟩ => hF2_in m c 2 rfl (by decide)
  | ⟨3, _⟩ => hF2_in m c 3 rfl (by decide)
  | ⟨4, _⟩ => hF2_in m c 4 rfl (by decide)
  | ⟨5, _⟩ => by
    show _ = Function.update (V5 m (outs m) c) main_v52 (X6 m c main_v52) main_v52
    rw [Function.update_self]
    exact (h3_eq m c).symm

/-- and every other buffer holds what it held at entry. -/
theorem hrest2 (c : Dev nD) (b : Ref sig .tc) (hb : b ∉ Finset.univ.image (Pipeline.arrRef spec2)) :
    V6 m (outs m) c b = E5 m c b :=
  (V6_of m (outs m) c b fun h => hb (Finset.mem_image.mpr ⟨5, Finset.mem_univ _, (List.mem_singleton.mp h).symm⟩)).trans (congrFun (V5_eq m c) _)

/-- The pooling call's result: its output array after the last tile's write-back. -/
theorem h4_eq (c : Dev nD) : X8 m c main_v62 = (Pool.dat3 (fun c b => E7 m c b) c).arrAt 5 cfg3.N := by
  unfold X8; exact Pipeline.withArrays_arr spec3 launch3.win.arr_inj c _ _ 5

/-- An input window's array leaves the pooling call as it entered. -/
theorem hF3_in (c : Dev nD) (w : Fin cfg3.W) (hin : (cfg3.win w).isOut = false)
    (hne : Pipeline.arrRef spec3 w ∉ ([main_v62] : List (Ref sig .tc))) :
    (Pool.dat3 (fun c b => E7 m c b) c).arrAt w cfg3.N = V8 m (outs m) c (Pipeline.arrRef spec3 w) := by
  rw [Pipeline.Dat.arrAt_in _ w hin, Pool.A_eq3]
  exact ((V8_of m (outs m) c _ hne).trans (congrFun (V7_eq m c) _)).symm

/-- At the pooling call's exit each of its arrays holds what the pipeline leaves: the five inputs as entered, the output
    array the call's result. -/
theorem hF3 (c : Dev nD) : ∀ w : Fin cfg3.W,
    (Pool.dat3 (fun c b => E7 m c b) c).arrAt w cfg3.N = V8 m (outs m) c (Pipeline.arrRef spec3 w)
  | ⟨0, _⟩ => hF3_in m c 0 rfl (by decide)
  | ⟨1, _⟩ => hF3_in m c 1 rfl (by decide)
  | ⟨2, _⟩ => hF3_in m c 2 rfl (by decide)
  | ⟨3, _⟩ => hF3_in m c 3 rfl (by decide)
  | ⟨4, _⟩ => hF3_in m c 4 rfl (by decide)
  | ⟨5, _⟩ => by
    show _ = Function.update (V7 m (outs m) c) main_v62 (X8 m c main_v62) main_v62
    rw [Function.update_self]
    exact (h4_eq m c).symm

/-- and every other buffer holds what it held at entry. -/
theorem hrest3 (c : Dev nD) (b : Ref sig .tc) (hb : b ∉ Finset.univ.image (Pipeline.arrRef spec3)) :
    V8 m (outs m) c b = E7 m c b :=
  (V8_of m (outs m) c b fun h => hb (Finset.mem_image.mpr ⟨5, Finset.mem_univ _, (List.mem_singleton.mp h).symm⟩)).trans (congrFun (V7_eq m c) _)

/-! ## The proof data family and the thread state -/

/-- Every pipeline's proof data, each at its call's entry contents. -/
def pdats : (p : Fin 4) → (c : Dev nD) → Dat τ (Elt F) Unit ℕ (UR sig nD τ) ℕ (cfgs p) c
  | ⟨0, _⟩ => fun c => Gc0.dat0 (fun c b => E1 m c b) c
  | ⟨1, _⟩ => fun c => Gc1.dat1 (fun c b => E3 m c b) c
  | ⟨2, _⟩ => fun c => Gc2.dat2 (fun c b => E5 m c b) c
  | ⟨3, _⟩ => fun c => Pool.dat3 (fun c b => E7 m c b) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a call's
    invariant takes it in and gives it back) and the core owing nothing. -/
abbrev R (c : Dev nD) : sProp 𝕄 := iprop((∃ r, prngReg c r) ∗ ∃ W, owes (c : Thread nD τ) (0 : CellTallies nD τ sig Unit) W)
/-- The rest state between any two items. -/
abbrev E : Fin 5 → Dev nD → sProp 𝕄 := fun _ c => R (F := F) c

/-! ## The calls as segments -/

-- the pinned configuration `pin pcfgs adm p` is the printed `cfgs p` only up to unfolding plain definitions in a type
set_option backward.isDefEq.respectTransparency.types false in
/-- THE FIRST CALL over the thread state: entered from every unscoped buffer at `E1`, left at `V2`. Its arrays are split
    out of the unscoped buffers and put back at the exit contents; the generator register goes into the call's invariant
    and comes out; nothing is owed; the kernel has no semaphore of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Gc0.body_obligation0 (fun c b => E1 m c b) c).loose
  hwaits := Pipeline.hwaits_of_owed_zero _ _ _ _ L lv 0 fun _ _ => rfl
  pre c := iprop(StableHlo.held (c : Thread nD τ) (Pipeline.ucRefs τ sig) (E1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (fun b => E1 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => E1 m c b) fun w => Gc0.A_eq0 (fun c b => E1 m c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => E1 m c b) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the pinned configuration `pin pcfgs adm p` is the printed `cfgs p` only up to unfolding plain definitions in a type
set_option backward.isDefEq.respectTransparency.types false in
/-- THE SECOND CALL over the thread state: entered from every unscoped buffer at `E3`, left at `V4`; as the first. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Gc1.body_obligation1 (fun c b => E3 m c b) c).loose
  hwaits := Pipeline.hwaits_of_owed_zero _ _ _ _ L lv 1 fun _ _ => rfl
  pre c := iprop(StableHlo.held (c : Thread nD τ) (Pipeline.ucRefs τ sig) (E3 m c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => E3 m c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => E3 m c b) fun w => Gc1.A_eq1 (fun c b => E3 m c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => E3 m c b) (fun b => V4 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the pinned configuration `pin pcfgs adm p` is the printed `cfgs p` only up to unfolding plain definitions in a type
set_option backward.isDefEq.respectTransparency.types false in
/-- THE THIRD CALL over the thread state: entered from every unscoped buffer at `E5`, left at `V6`; as the first. -/
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Gc2.body_obligation2 (fun c b => E5 m c b) c).loose
  hwaits := Pipeline.hwaits_of_owed_zero _ _ _ _ L lv 2 fun _ _ => rfl
  pre c := iprop(StableHlo.held (c : Thread nD τ) (Pipeline.ucRefs τ sig) (E5 m c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec2 c (fun b => E5 m c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b => E5 m c b) fun w => Gc2.A_eq2 (fun c b => E5 m c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => E5 m c b) (fun b => V6 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the pinned configuration `pin pcfgs adm p` is the printed `cfgs p` only up to unfolding plain definitions in a type
set_option backward.isDefEq.respectTransparency.types false in
/-- THE POOLING CALL over the thread state: entered from every unscoped buffer at `E7`, left at `V8` (what the run reads at
    the end). Its invariant carries the call's scratch buffer between tiles; at the first tile and after the last it is
    the plain one (the scoped buffers at some contents, the generator register at some state). -/
def reg3 : RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (Pool.body_obligation3 (fun c b => E7 m c b) c).loose
  hwaits := Pipeline.hwaits_of_owed_zero _ _ _ _ L lv 3 fun _ _ => rfl
  pre c := iprop(StableHlo.held (c : Thread nD τ) (Pipeline.ucRefs τ sig) (E7 m c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec3 c (fun b => E7 m c b)
  hentry c := by
    rw [Pipeline.ownSems0_none]
    have hsplit := Pipeline.arrays_of_unscopedBufs (p := 3) (pcfgs (F := F)) adm (pdats m) launch3.win launch3.arr_whole c
      ((pdats m 3 c).share_full fun _ => rfl) (fun b => E7 m c b) fun w => Pool.A_eq3 (fun c b => E7 m c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from Pool.Phi3_zero (fun c b => E7 m c b) c]; unfold Pipeline.ΦA
    iintro ⟨Hp, -, Hr⟩
    isplitl [Hr]; · iexact Hr
    iexact Hp
  hout c := by
    rw [Pipeline.ownSems0_none]
    refine (show (pdats m 3 c).Φ (Fin.last _) ⊢ Pipeline.ΦA spec3 c from Pool.Phi3_last (fun c b => E7 m c b) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (fun b => E7 m c b) (fun b => V8 m (outs m) c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The result, named -/

/-- The run's last valuation at the result array is what the pooling call's pipeline leaves there. -/
theorem res_eq (c : Dev nD) : V8 m (outs m) c main_v62 = (Pool.dat3 (fun c b => E7 m c b) c).arrAt 5 cfg3.N := by
  show Function.update (V7 m (outs m) c) main_v62 (X8 m c main_v62) main_v62 = _
  rw [Function.update_self]
  exact h4_eq m c

/-! ## The run -/

variable (ρ : Dev nD → PrngReg)

/-- THE RUN. At the compiled mesh, from any memory with zero counters, every weakly fair execution of @main
    terminates, and every final memory holds the result array at the last valuation's contents and every argument
    array as launched: the conditional run at the four calls' records, the staged contents for what the calls leave,
    nothing owed at launch, no ghost resource beside the pipelines' cells. -/
theorem run : θ_run defs (onTc (τ := τ) (main (F := F))) ⟨m, fun _ => 0, ρ⟩ (fun r => ∀ c : Dev nD,
      r.2.mem ((c.tc : Thread nD τ).loc main_v62) = V8 m (outs m) c main_v62
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  run_cond m (EP := emb₁) (ι := ()) (𝒱₀ := 𝒱₀) (L := L) (lv := lv) (hL := fun _ _ => rfl) (ρ := ρ) (outs := outs m)
    (pdats := pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := E)
    (hE0 := Pipeline.initEach L lv fun c => by
      iintro ⟨⟨-, HO, -, Hp, -⟩, -⟩
      imodintro
      isplitl [Hp]; · iexists _; iexact Hp
      iexists ∅; iexact HO)
    (hE4 := fun c => by iintro ⟨-, H⟩; iexact H)
    (R0 := reg0 m) (hpre0 := fun c => .rfl) (hpost0 := fun c => .rfl)
    (R1 := reg1 m) (hpre1 := fun c => by rw [V3_eq m c]; exact .rfl) (hpost1 := fun c => .rfl)
    (R2 := reg2 m) (hpre2 := fun c => by rw [V5_eq m c]; exact .rfl) (hpost2 := fun c => .rfl)
    (R3 := reg3 m) (hpre3 := fun c => by rw [V7_eq m c]; exact .rfl) (hpost3 := fun c => .rfl)

end Cert.Kernel.Run

end
-- ==== Proof.KI.Gc0.lean ====
/-
  The first graph-convolution call (pipeline 0) as the pipeline sees it, at any contents `V` of the core's buffers
  when the call is entered: over a grid of ten row tiles, tile `t` reads rows [10000 t, 10000 (t+1)) of the
  aggregated messages and of the node features, the two transposed weight matrices and the bias whole, and
  writes the same rows of the result: relu (aggr · Wr + h · Wn + b).
-/
import proofs.«430438_j75239237091885_2_alg».proof.Proof.Gen.KernelIdeal.Launch
import proofs.«430438_j75239237091885_2_alg».proof.Proof.Gen.KernelIdeal.Skeleton
import proofs.«430438_j75239237091885_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gc0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at tile `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The one store of the body covers the whole output tile. -/
abbrev r0_0 : Rect S10000x64 := Rect.unit (s := S10000x64) ![0, 0] S10000x64.size inb_S10000x64_S10000x64_0_0

/-- What the body leaves in the output tile's buffer, from the five input blocks. -/
def out0_5 (x0 : Vec F S10000x64 .f32) (x1 : Vec F S10000x64 .f32) (x2 : Vec F S64x64 .f32) (x3 : Vec F S1x64 .f32) (x4 : Vec F S64x64 .f32) : Vec F S10000x64 .bf16 :=
  View.canon [⟨r0_0, k0_pay1 x0 x1 x2 x4 x3⟩]

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

/-! ## What the body finds in the input buffers -/

/-- Input window 0 holds its block at every tile, fetched there or not: unfetched, its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 holds its block at every tile, fetched there or not: unfetched, its block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 holds its block at every tile, fetched there or not: unfetched, its block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 holds its block at every tile, fetched there or not: unfetched, its block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4 holds its block at every tile, fetched there or not: unfetched, its block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- What the body leaves in each input buffer: the block it found. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]

/-- Each input's current staging buffer holds its block at every tile. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## Whole-buffer accesses -/

/-- The zero offsets of a whole-buffer access, however spelt. -/
theorem off_zero : (![0, 0] : Fin 2 → ℕ) = fun _ => 0 := by funext a; fin_cases a <;> rfl

/-- A load of a whole row-tile buffer reads its contents. -/
theorem readAt_tile {κ : Kind} {sp : Space} {e : EltTy} (v : View sig κ sp S10000x64 e) (f : v.ty.Contents (Elt F)) :
    View.readAt (Elt F) v (Rect.unit (s := S10000x64) ![0, 0] S10000x64.size inb_S10000x64_S10000x64_0_0).toLoadRect f
      = View.read (Elt F) v f :=
  View.ld_unit_zero off_zero inb_S10000x64_S10000x64_0_0 (View.read (Elt F) v f)

/-- A load of a whole weight buffer reads its contents. -/
theorem readAt_weight {κ : Kind} {sp : Space} (v : View sig κ sp S64x64 .f32) (f : v.ty.Contents (Elt F)) :
    View.readAt (Elt F) v (Rect.unit (s := S64x64) ![0, 0] S64x64.size inb_S64x64_S64x64_0_0).toLoadRect f
      = View.read (Elt F) v f :=
  View.ld_unit_zero off_zero inb_S64x64_S64x64_0_0 (View.read (Elt F) v f)

/-- A load of the whole bias buffer reads its contents. -/
theorem readAt_bias {κ : Kind} {sp : Space} (v : View sig κ sp S1x64 .f32) (f : v.ty.Contents (Elt F)) :
    View.readAt (Elt F) v (Rect.unit (s := S1x64) ![0, 0] S1x64.size inb_S1x64_S1x64_0_0).toLoadRect f
      = View.read (Elt F) v f :=
  View.ld_unit_zero off_zero inb_S1x64_S1x64_0_0 (View.read (Elt F) v f)

/-- The one store covers the output tile: its rectangle is the whole shape. -/
theorem cover0_5 (p0 : Vec F S10000x64 .bf16) (y : S10000x64.Idx) :
    ∃ pc ∈ ([⟨r0_0, p0⟩] : List (View.Piece (Elt F) S10000x64 .bf16)), y ∈ pc.1.set :=
  ⟨_, List.mem_singleton_self _, View.mem_set_unit_zero off_zero inb_S10000x64_S10000x64_0_0 y⟩

/-! ## The body's triple -/

set_option maxHeartbeats 1000000 in
/-- The body on whole staging buffers, the five inputs' at read contents `x0 … x4` and the output's at anything,
    runs to a continuation holding the inputs' as they were and the output's at `out0_5` of them: five whole loads,
    a load of the output buffer whose value is unused, and one covering store. -/
theorem sound_kernel0 (c : Dev nD) (E : Set ℕ) (i : grid0.Coords)
    (arg1 : Memref sig .tc .vmem S10000x64 .f32) (harg1 : arg1.IsWhole)
    (arg2 : Memref sig .tc .vmem S10000x64 .f32) (harg2 : arg2.IsWhole)
    (arg3 : Memref sig .tc .vmem S64x64 .f32) (harg3 : arg3.IsWhole)
    (arg4 : Memref sig .tc .vmem S1x64 .f32) (harg4 : arg4.IsWhole)
    (arg5 : Memref sig .tc .vmem S64x64 .f32) (harg5 : arg5.IsWhole)
    (arg6 : Memref sig .tc .vmem S10000x64 .bf16) (harg6 : arg6.IsWhole)
    (x0 : Vec F S10000x64 .f32) (x1 : Vec F S10000x64 .f32) (x2 : Vec F S64x64 .f32) (x3 : Vec F S1x64 .f32) (x4 : Vec F S64x64 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E
          (cc0__graphconv_kernel i arg1 harg1 arg2 harg2 arg3 harg3 arg4 harg4 arg5 harg5 arg6 harg6) K := by
  simp only [cc0__graphconv_kernel_eq_skeleton]; unfold cc0__graphconv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover0_5 _), readAt_tile, readAt_tile, readAt_weight, readAt_weight, readAt_bias]
  rfl

/-! ## The body obligation, at a generic tile -/

/-- What the body is called with at tile `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any tile: the five input buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every tile. -/
theorem body_obligation0 (c : Dev nD) : BodyObligation (dat0 (F := F) V c) (defs₀ (F := F)) Variants.none () Set.univ := fun t => by
  rw [bigSep_W0, bigSep_W0]
  exact sound_body0 V c t

end Cert.KernelIdeal.Gc0

end
-- ==== Proof.KI.Gc1.lean ====
/-
  The graph-convolution call of pipeline 1 as the pipeline sees it, at any contents `V` of the core's buffers
  when the call is entered: over a grid of ten row tiles, tile `t` reads rows [10000 t, 10000 (t+1)) of the
  aggregated messages and of the node features, the two transposed weight matrices and the bias whole, and
  writes the same rows of the result: relu (aggr · Wr + h · Wn + b).
-/
import proofs.«430438_j75239237091885_2_alg».proof.Proof.Gen.KernelIdeal.Launch
import proofs.«430438_j75239237091885_2_alg».proof.Proof.Gen.KernelIdeal.Skeleton
import proofs.«430438_j75239237091885_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gc1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at tile `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The one store of the body covers the whole output tile. -/
abbrev r1_0 : Rect S10000x64 := Rect.unit (s := S10000x64) ![0, 0] S10000x64.size inb_S10000x64_S10000x64_0_0

/-- What the body leaves in the output tile's buffer, from the five input blocks. -/
def out1_5 (x0 : Vec F S10000x64 .f32) (x1 : Vec F S10000x64 .bf16) (x2 : Vec F S64x64 .f32) (x3 : Vec F S1x64 .f32) (x4 : Vec F S64x64 .f32) : Vec F S10000x64 .bf16 :=
  View.canon [⟨r1_0, k1_pay1 x0 x1 x2 x4 x3⟩]

/-- The proof data of pipeline 0 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-! ## What the body finds in the input buffers -/

/-- Input window 0 holds its block at every tile, fetched there or not: unfetched, its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 holds its block at every tile, fetched there or not: unfetched, its block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 holds its block at every tile, fetched there or not: unfetched, its block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 holds its block at every tile, fetched there or not: unfetched, its block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4 holds its block at every tile, fetched there or not: unfetched, its block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- What the body leaves in each input buffer: the block it found. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]

/-- Each input's current staging buffer holds its block at every tile. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## Whole-buffer accesses -/

/-- The zero offsets of a whole-buffer access, however spelt. -/
theorem off_zero : (![0, 0] : Fin 2 → ℕ) = fun _ => 0 := by funext a; fin_cases a <;> rfl

/-- A load of a whole row-tile buffer reads its contents. -/
theorem readAt_tile {κ : Kind} {sp : Space} {e : EltTy} (v : View sig κ sp S10000x64 e) (f : v.ty.Contents (Elt F)) :
    View.readAt (Elt F) v (Rect.unit (s := S10000x64) ![0, 0] S10000x64.size inb_S10000x64_S10000x64_0_0).toLoadRect f
      = View.read (Elt F) v f :=
  View.ld_unit_zero off_zero inb_S10000x64_S10000x64_0_0 (View.read (Elt F) v f)

/-- A load of a whole weight buffer reads its contents. -/
theorem readAt_weight {κ : Kind} {sp : Space} (v : View sig κ sp S64x64 .f32) (f : v.ty.Contents (Elt F)) :
    View.readAt (Elt F) v (Rect.unit (s := S64x64) ![0, 0] S64x64.size inb_S64x64_S64x64_0_0).toLoadRect f
      = View.read (Elt F) v f :=
  View.ld_unit_zero off_zero inb_S64x64_S64x64_0_0 (View.read (Elt F) v f)

/-- A load of the whole bias buffer reads its contents. -/
theorem readAt_bias {κ : Kind} {sp : Space} (v : View sig κ sp S1x64 .f32) (f : v.ty.Contents (Elt F)) :
    View.readAt (Elt F) v (Rect.unit (s := S1x64) ![0, 0] S1x64.size inb_S1x64_S1x64_0_0).toLoadRect f
      = View.read (Elt F) v f :=
  View.ld_unit_zero off_zero inb_S1x64_S1x64_0_0 (View.read (Elt F) v f)

/-- The one store covers the output tile: its rectangle is the whole shape. -/
theorem cover1_5 (p0 : Vec F S10000x64 .bf16) (y : S10000x64.Idx) :
    ∃ pc ∈ ([⟨r1_0, p0⟩] : List (View.Piece (Elt F) S10000x64 .bf16)), y ∈ pc.1.set :=
  ⟨_, List.mem_singleton_self _, View.mem_set_unit_zero off_zero inb_S10000x64_S10000x64_0_0 y⟩

/-! ## The body's triple -/

set_option maxHeartbeats 1000000 in
/-- The body on whole staging buffers, the five inputs' at read contents `x0 … x4` and the output's at anything,
    runs to a continuation holding the inputs' as they were and the output's at `out1_5` of them: five whole loads,
    a load of the output buffer whose value is unused, and one covering store. -/
theorem sound_kernel1 (c : Dev nD) (E : Set ℕ) (i : grid1.Coords)
    (arg1 : Memref sig .tc .vmem S10000x64 .f32) (harg1 : arg1.IsWhole)
    (arg2 : Memref sig .tc .vmem S10000x64 .bf16) (harg2 : arg2.IsWhole)
    (arg3 : Memref sig .tc .vmem S64x64 .f32) (harg3 : arg3.IsWhole)
    (arg4 : Memref sig .tc .vmem S1x64 .f32) (harg4 : arg4.IsWhole)
    (arg5 : Memref sig .tc .vmem S64x64 .f32) (harg5 : arg5.IsWhole)
    (arg6 : Memref sig .tc .vmem S10000x64 .bf16) (harg6 : arg6.IsWhole)
    (x0 : Vec F S10000x64 .f32) (x1 : Vec F S10000x64 .bf16) (x2 : Vec F S64x64 .f32) (x3 : Vec F S1x64 .f32) (x4 : Vec F S64x64 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__graphconv_kernel i arg1 harg1 arg2 harg2 arg3 harg3 arg4 harg4 arg5 harg5 arg6 harg6) K := by
  simp only [cc1__graphconv_kernel_eq_skeleton]; unfold cc1__graphconv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover1_5 _), readAt_tile, readAt_tile, readAt_weight, readAt_weight, readAt_bias]
  rfl

/-! ## The body obligation, at a generic tile -/

/-- What the body is called with at tile `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any tile: the five input buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every tile. -/
theorem body_obligation1 (c : Dev nD) : BodyObligation (dat1 (F := F) V c) (defs₀ (F := F)) Variants.none () Set.univ := fun t => by
  rw [bigSep_W1, bigSep_W1]
  exact sound_body1 V c t

end Cert.KernelIdeal.Gc1

end
-- ==== Proof.KI.Gc2.lean ====
/-
  The graph-convolution call of pipeline 2 as the pipeline sees it, at any contents `V` of the core's buffers
  when the call is entered: over a grid of ten row tiles, tile `t` reads rows [10000 t, 10000 (t+1)) of the
  aggregated messages and of the node features, the two transposed weight matrices and the bias whole, and
  writes the same rows of the result: relu (aggr · Wr + h · Wn + b).
-/
import proofs.«430438_j75239237091885_2_alg».proof.Proof.Gen.KernelIdeal.Launch
import proofs.«430438_j75239237091885_2_alg».proof.Proof.Gen.KernelIdeal.Skeleton
import proofs.«430438_j75239237091885_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gc2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at tile `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The one store of the body covers the whole output tile. -/
abbrev r2_0 : Rect S10000x64 := Rect.unit (s := S10000x64) ![0, 0] S10000x64.size inb_S10000x64_S10000x64_0_0

/-- What the body leaves in the output tile's buffer, from the five input blocks. -/
def out2_5 (x0 : Vec F S10000x64 .f32) (x1 : Vec F S10000x64 .bf16) (x2 : Vec F S64x64 .f32) (x3 : Vec F S1x64 .f32) (x4 : Vec F S64x64 .f32) : Vec F S10000x64 .bf16 :=
  View.canon [⟨r2_0, k2_pay1 x0 x1 x2 x4 x3⟩]

/-- The proof data of pipeline 0 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

/-! ## What the body finds in the input buffers -/

/-- Input window 0 holds its block at every tile, fetched there or not: unfetched, its block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 holds its block at every tile, fetched there or not: unfetched, its block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 holds its block at every tile, fetched there or not: unfetched, its block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3 holds its block at every tile, fetched there or not: unfetched, its block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4 holds its block at every tile, fetched there or not: unfetched, its block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- What the body leaves in each input buffer: the block it found. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]

/-- Each input's current staging buffer holds its block at every tile. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## Whole-buffer accesses -/

/-- The zero offsets of a whole-buffer access, however spelt. -/
theorem off_zero : (![0, 0] : Fin 2 → ℕ) = fun _ => 0 := by funext a; fin_cases a <;> rfl

/-- A load of a whole row-tile buffer reads its contents. -/
theorem readAt_tile {κ : Kind} {sp : Space} {e : EltTy} (v : View sig κ sp S10000x64 e) (f : v.ty.Contents (Elt F)) :
    View.readAt (Elt F) v (Rect.unit (s := S10000x64) ![0, 0] S10000x64.size inb_S10000x64_S10000x64_0_0).toLoadRect f
      = View.read (Elt F) v f :=
  View.ld_unit_zero off_zero inb_S10000x64_S10000x64_0_0 (View.read (Elt F) v f)

/-- A load of a whole weight buffer reads its contents. -/
theorem readAt_weight {κ : Kind} {sp : Space} (v : View sig κ sp S64x64 .f32) (f : v.ty.Contents (Elt F)) :
    View.readAt (Elt F) v (Rect.unit (s := S64x64) ![0, 0] S64x64.size inb_S64x64_S64x64_0_0).toLoadRect f
      = View.read (Elt F) v f :=
  View.ld_unit_zero off_zero inb_S64x64_S64x64_0_0 (View.read (Elt F) v f)

/-- A load of the whole bias buffer reads its contents. -/
theorem readAt_bias {κ : Kind} {sp : Space} (v : View sig κ sp S1x64 .f32) (f : v.ty.Contents (Elt F)) :
    View.readAt (Elt F) v (Rect.unit (s := S1x64) ![0, 0] S1x64.size inb_S1x64_S1x64_0_0).toLoadRect f
      = View.read (Elt F) v f :=
  View.ld_unit_zero off_zero inb_S1x64_S1x64_0_0 (View.read (Elt F) v f)

/-- The one store covers the output tile: its rectangle is the whole shape. -/
theorem cover2_5 (p0 : Vec F S10000x64 .bf16) (y : S10000x64.Idx) :
    ∃ pc ∈ ([⟨r2_0, p0⟩] : List (View.Piece (Elt F) S10000x64 .bf16)), y ∈ pc.1.set :=
  ⟨_, List.mem_singleton_self _, View.mem_set_unit_zero off_zero inb_S10000x64_S10000x64_0_0 y⟩

/-! ## The body's triple -/

set_option maxHeartbeats 1000000 in
/-- The body on whole staging buffers, the five inputs' at read contents `x0 … x4` and the output's at anything,
    runs to a continuation holding the inputs' as they were and the output's at `out2_5` of them: five whole loads,
    a load of the output buffer whose value is unused, and one covering store. -/
theorem sound_kernel2 (c : Dev nD) (E : Set ℕ) (i : grid2.Coords)
    (arg1 : Memref sig .tc .vmem S10000x64 .f32) (harg1 : arg1.IsWhole)
    (arg2 : Memref sig .tc .vmem S10000x64 .bf16) (harg2 : arg2.IsWhole)
    (arg3 : Memref sig .tc .vmem S64x64 .f32) (harg3 : arg3.IsWhole)
    (arg4 : Memref sig .tc .vmem S1x64 .f32) (harg4 : arg4.IsWhole)
    (arg5 : Memref sig .tc .vmem S64x64 .f32) (harg5 : arg5.IsWhole)
    (arg6 : Memref sig .tc .vmem S10000x64 .bf16) (harg6 : arg6.IsWhole)
    (x0 : Vec F S10000x64 .f32) (x1 : Vec F S10000x64 .bf16) (x2 : Vec F S64x64 .f32) (x3 : Vec F S1x64 .f32) (x4 : Vec F S64x64 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E
          (cc2__graphconv_kernel i arg1 harg1 arg2 harg2 arg3 harg3 arg4 harg4 arg5 harg5 arg6 harg6) K := by
  simp only [cc2__graphconv_kernel_eq_skeleton]; unfold cc2__graphconv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover2_5 _), readAt_tile, readAt_tile, readAt_weight, readAt_weight, readAt_bias]
  rfl

/-! ## The body obligation, at a generic tile -/

/-- What the body is called with at tile `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any tile: the five input buffers hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _
    (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every tile. -/
theorem body_obligation2 (c : Dev nD) : BodyObligation (dat2 (F := F) V c) (defs₀ (F := F)) Variants.none () Set.univ := fun t => by
  rw [bigSep_W2, bigSep_W2]
  exact sound_body2 V c t

end Cert.KernelIdeal.Gc2

end
-- ==== Proof.KI.PoolRuns.lean ====
/-
  The pooling call (pipeline 3): the body's runs.

  Over a grid of ten row tiles the body keeps a 64×64 accumulator beside its windows. At the first tile it is
  reset to zero; at every tile the tile's contribution — the one-hot matrix of the tile's graph indices, contracted
  over the tile's rows with the tile's features — is added to it; at the last tile the sums are scaled by the
  inverse node counts, multiplied by the transposed linear weight, shifted by the bias, and stored into the
  output block. So three control cases: the first tile (reset and update), a middle tile (update), the last tile
  (update and finish). This module decides the two conditions over the grid, records where the output window is
  idle, splits the call's invariant at the accumulator, and runs the body in each case on arbitrary whole memrefs:
  what each buffer is left with, as the list of pieces written (last first), is the witness each run finds.
-/
import proofs.«430438_j75239237091885_2_alg».proof.Proof.Gen.KernelIdeal.Launch
import proofs.«430438_j75239237091885_2_alg».proof.Proof.Gen.KernelIdeal.Skeleton
import proofs.«430438_j75239237091885_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional of the pooling body: the grid coordinate is 0. -/
abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val = 0 :=
  (by decide +kernel : ∀ t : Fin grid3.N, cond3_0 (grid3.coords t) ↔ t.val = 0)

/-- The second conditional: the grid coordinate is 9. -/
abbrev cond3_1 (i : grid3.Coords) : Prop := k3_cond2 i = 1#1
theorem hcond3_1 : ∀ t : Fin cfg3.N, cond3_1 (grid3.coords t) ↔ t.val = 9 :=
  (by decide +kernel : ∀ t : Fin grid3.N, cond3_1 (grid3.coords t) ↔ t.val = 9)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
theorem idleAt3_5 : ∀ t : Fin cfg3.N, ¬cond3_1 (grid3.coords t) → cfg3.idle 5 (grid3.coords t) = true := by decide +kernel
theorem noFlush3_5 : ∀ t : Fin cfg3.N, ¬cond3_1 (grid3.coords t) → (cfg3.win 5).flush t = false := by decide +kernel
theorem liveAt3_5 : ∀ t : Fin cfg3.N, cond3_1 (grid3.coords t) → cfg3.idle 5 (grid3.coords t) = false := by decide +kernel

abbrev scM3 : Memref sig .tc .vmem S64x64 .f32 := Memref.whole cc3_scratch0

theorem PhiA3_eq (c : Dev nD) :
    (Pipeline.ΦA spec3 c : sProp 𝕄)
      = iprop(iprop(iprop(∃ d, owns (c : Thread nD τ) scM3 fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

/-! ## The body's run, case by case -/

set_option maxHeartbeats 1000000 in
/-- AT THE FIRST POINT (the reset taken, the finish not): on whole memrefs, the five inputs at their blocks, the
    output's buffer at anything (handed back untouched), the accumulator at anything, the body runs to the
    continuation with the inputs as they were and the accumulator with the pieces `LS0` written — the reset to
    zero, then the update. The pieces are the witness the run finds. -/
noncomputable def kernelRun3_A (c : Dev nD) (i : grid3.Coords) (arg1 : Memref sig .tc .vmem S10000x64 .bf16) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x1 .f32) (harg5 : arg5.IsWhole) (arg6 : Memref sig .tc .vmem S64x64 .f32) (harg6 : arg6.IsWhole) (arg7 : Memref sig .tc .vmem S64x64 .f32) (harg7 : arg7.IsWhole) (hc0 : cond3_0 i) (hc1 : ¬cond3_1 i)
    (x0 : Vec F S10000x64 .bf16) (x1 : Vec F S10000x1 .i32) (x2 : Vec F S64x64 .f32) (x3 : Vec F S1x64 .f32) (x4 : Vec F S64x1 .f32) :
    { LS0 : List (View.Piece (Elt F) S64x64 .f32) //
      ∀ (xi5 : Vec F S64x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc3__pool_kernel i arg1 harg1 arg2 harg2 arg3 harg3 arg4 harg4 arg5 harg5 arg6 harg6 arg7 harg7) K } := by
  refine ⟨?_, fun xi5 E K => ?run⟩
  case run =>
    simp only [cc3__pool_kernel_eq_skeleton]; unfold cc3__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

set_option maxHeartbeats 1000000 in
/-- AT A MIDDLE POINT (neither conditional taken): the same, the accumulator at what the point before left
    (`xs0`); one piece, the update. -/
noncomputable def kernelRun3_B (c : Dev nD) (i : grid3.Coords) (arg1 : Memref sig .tc .vmem S10000x64 .bf16) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x1 .f32) (harg5 : arg5.IsWhole) (arg6 : Memref sig .tc .vmem S64x64 .f32) (harg6 : arg6.IsWhole) (arg7 : Memref sig .tc .vmem S64x64 .f32) (harg7 : arg7.IsWhole) (hc0 : ¬cond3_0 i) (hc1 : ¬cond3_1 i)
    (x0 : Vec F S10000x64 .bf16) (x1 : Vec F S10000x1 .i32) (x2 : Vec F S64x64 .f32) (x3 : Vec F S1x64 .f32) (x4 : Vec F S64x1 .f32) (xs0 : Vec F S64x64 .f32) :
    { LS0 : List (View.Piece (Elt F) S64x64 .f32) //
      ∀ (xi5 : Vec F S64x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc3__pool_kernel i arg1 harg1 arg2 harg2 arg3 harg3 arg4 harg4 arg5 harg5 arg6 harg6 arg7 harg7) K } := by
  refine ⟨?_, fun xi5 E K => ?run⟩
  case run =>
    simp only [cc3__pool_kernel_eq_skeleton]; unfold cc3__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

set_option maxHeartbeats 1000000 in
/-- AT THE LAST POINT (the finish taken, the reset not): the accumulator at what the point before left, the
    output's buffer at anything; the body leaves the accumulator with the update written (`LS0`) and the output's
    buffer with the finished block written (`L5`). -/
noncomputable def kernelRun3_C (c : Dev nD) (i : grid3.Coords) (arg1 : Memref sig .tc .vmem S10000x64 .bf16) (harg1 : arg1.IsWhole) (arg2 : Memref sig .tc .vmem S10000x1 .i32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x1 .f32) (harg5 : arg5.IsWhole) (arg6 : Memref sig .tc .vmem S64x64 .f32) (harg6 : arg6.IsWhole) (arg7 : Memref sig .tc .vmem S64x64 .f32) (harg7 : arg7.IsWhole) (hc0 : ¬cond3_0 i) (hc1 : cond3_1 i)
    (x0 : Vec F S10000x64 .bf16) (x1 : Vec F S10000x1 .i32) (x2 : Vec F S64x64 .f32) (x3 : Vec F S1x64 .f32) (x4 : Vec F S64x1 .f32) (xs0 : Vec F S64x64 .f32) :
    Σ' (L5 : List (View.Piece (Elt F) S64x64 .f32)), { LS0 : List (View.Piece (Elt F) S64x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc3__pool_kernel i arg1 harg1 arg2 harg2 arg3 harg3 arg4 harg4 arg5 harg5 arg6 harg6 arg7 harg7) K } := by
  refine ⟨?_, ?_, fun E K => ?run⟩
  case run =>
    simp only [cc3__pool_kernel_eq_skeleton]; unfold cc3__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4
    obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

end Cert.KernelIdeal.Pool

end
-- ==== Proof.KI.Pool.lean ====
/-
  The pooling call (pipeline 3) as the pipeline sees it, at any contents `V` of the core's buffers when the call
  is entered. Over a grid of ten row tiles, tile `t` reads rows [10000 t, 10000 (t+1)) of the node features and of
  the graph indices, and the transposed linear weight, the bias and the inverse node counts whole. A 64×64
  accumulator is carried from tile to tile: zero before the first, then each tile adds its per-graph feature sums.
  The output block — the sums scaled by the inverse counts, times the weight, plus the bias — is written at the
  last tile only, so the output window is idle at every other tile. This module names what the accumulator and
  the output block hold after each tile (by recursion on the tile: `outsAt3`), states the invariant that carries
  the accumulator between tiles, gives the proof data, and proves the body obligation by the three cases of the
  tile's number; it closes with the case equations read as the body's payloads.
-/
import proofs.«430438_j75239237091885_2_alg».proof.Proof.KI.PoolRuns
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The call at the contents it is entered with -/

variable (V : (c : Dev nD) → (b : Ref sig .tc) → Buf (Elt F) ((c : Thread nD τ).loc b))

/-- Window `w`'s block at tile `t`, read off its array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Each window's current staging memref at tile `t`, and its wholeness. -/
abbrev ms3_0 (t : Fin cfg3.N) : Memref sig .tc .vmem S10000x64 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S10000x1 .i32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S64x64 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x64 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S64x1 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S64x64 .f32 := win3_5.stage (cfg3.slots t 5)
abbrev hs3_5 (t : Fin cfg3.N) : (ms3_5 t).IsWhole := hstage3_5 ((cfg3.slots t 5).cast nbuf3_5)

/-- The first tile's run, at the pipeline's memrefs and the blocks read there. -/
abbrev runA (c : Dev nD) (t : Fin cfg3.N) (h0 : t.val = 0) :=
  kernelRun3_A c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _) ((hcond3_0 t).mpr h0) (fun h => absurd ((hcond3_1 t).mp h) (by omega)) (iblk3 V c 0 t) (iblk3 V c 1 t) (iblk3 V c 2 t) (iblk3 V c 3 t) (iblk3 V c 4 t)
/-- A middle tile's run, over what the accumulator held (`xs`). -/
abbrev runB (c : Dev nD) (t : Fin cfg3.N) (h0 : ¬t.val = 0) (h9 : ¬t.val = 9) (xs : Vec F S64x64 .f32) :=
  kernelRun3_B c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _) (fun h => h0 ((hcond3_0 t).mp h)) (fun h => h9 ((hcond3_1 t).mp h)) (iblk3 V c 0 t) (iblk3 V c 1 t) (iblk3 V c 2 t) (iblk3 V c 3 t) (iblk3 V c 4 t) xs
/-- The last tile's run, over what the accumulator held (`xs`). -/
abbrev runC (c : Dev nD) (t : Fin cfg3.N) (h0 : ¬t.val = 0) (h9 : t.val = 9) (xs : Vec F S64x64 .f32) :=
  kernelRun3_C c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _) (fun h => h0 ((hcond3_0 t).mp h)) ((hcond3_1 t).mpr h9) (iblk3 V c 0 t) (iblk3 V c 1 t) (iblk3 V c 2 t) (iblk3 V c 3 t) (iblk3 V c 4 t) xs

/-- Each case's pieces for the accumulator cover it (every store is of the whole 64×64 buffer), -/
theorem scoverA (c : Dev nD) (t : Fin cfg3.N) (h0 : t.val = 0) (y : S64x64.Idx) : ∃ pc ∈ (runA V c t h0).1, y ∈ pc.1.set :=
  View.cover_of_tiledL (runA V c t h0).1 S64x64.size (by sl_kernel_rfl) y
theorem scoverB (c : Dev nD) (t : Fin cfg3.N) (h0 : ¬t.val = 0) (h9 : ¬t.val = 9) (xs : Vec F S64x64 .f32) (y : S64x64.Idx) :
    ∃ pc ∈ (runB V c t h0 h9 xs).1, y ∈ pc.1.set :=
  View.cover_of_tiledL (runB V c t h0 h9 xs).1 S64x64.size (by sl_kernel_rfl) y
theorem scoverC (c : Dev nD) (t : Fin cfg3.N) (h0 : ¬t.val = 0) (h9 : t.val = 9) (xs : Vec F S64x64 .f32) (y : S64x64.Idx) :
    ∃ pc ∈ (runC V c t h0 h9 xs).2.1, y ∈ pc.1.set :=
  View.cover_of_tiledL (runC V c t h0 h9 xs).2.1 S64x64.size (by sl_kernel_rfl) y
/-- and the last tile's pieces for the output block cover it. -/
theorem coverC (c : Dev nD) (t : Fin cfg3.N) (h0 : ¬t.val = 0) (h9 : t.val = 9) (xs : Vec F S64x64 .f32) (y : S64x64.Idx) :
    ∃ pc ∈ (runC V c t h0 h9 xs).1, y ∈ pc.1.set :=
  View.cover_of_tiledL (runC V c t h0 h9 xs).1 S64x64.size (by sl_kernel_rfl) y

/-! ## What the accumulator and the output block hold after each tile -/

/-- After the body at tile `n`: (the output window's staging buffer, the accumulator). The accumulator is the
    canonical contents of the case's pieces, over what tile `n - 1` left in it; the output block is written at the
    last tile only — before that the component is a placeholder nothing reads (the window is idle and not written
    back there). -/
def outsAt3 (c : Dev nD) : (n : ℕ) → n < cfg3.N → Vec F S64x64 .f32 × Vec F S64x64 .f32
  | 0, hn => (View.canon [], View.canon (runA V c ⟨0, hn⟩ rfl).1)
  | n + 1, hn =>
    if h9 : n + 1 = 9 then
      (View.canon (runC V c ⟨n + 1, hn⟩ (Nat.succ_ne_zero n) h9 (outsAt3 c n (Nat.lt_of_succ_lt hn)).2).1,
       View.canon (runC V c ⟨n + 1, hn⟩ (Nat.succ_ne_zero n) h9 (outsAt3 c n (Nat.lt_of_succ_lt hn)).2).2.1)
    else
      (View.canon [], View.canon (runB V c ⟨n + 1, hn⟩ (Nat.succ_ne_zero n) h9 (outsAt3 c n (Nat.lt_of_succ_lt hn)).2).1)

theorem outsAt3_A (c : Dev nD) (t : Fin cfg3.N) (h0 : t.val = 0) :
    outsAt3 V c t.val t.isLt = (View.canon [], View.canon (runA V c t h0).1) := by
  obtain ⟨n, hn⟩ := t
  cases n with
  | zero => exact rfl
  | succ n => exact absurd h0 (Nat.succ_ne_zero n)

theorem outsAt3_B (c : Dev nD) (t : Fin cfg3.N) (h0 : ¬t.val = 0) (h9 : ¬t.val = 9) :
    outsAt3 V c t.val t.isLt = (View.canon [], View.canon (runB V c t h0 h9 (outsAt3 V c (t.val - 1) (Nat.lt_of_le_of_lt (Nat.sub_le _ _) t.isLt)).2).1) := by
  obtain ⟨n, hn⟩ := t
  cases n with
  | zero => exact absurd rfl h0
  | succ n => exact (dif_neg h9).trans rfl

theorem outsAt3_C (c : Dev nD) (t : Fin cfg3.N) (h0 : ¬t.val = 0) (h9 : t.val = 9) :
    outsAt3 V c t.val t.isLt = (View.canon (runC V c t h0 h9 (outsAt3 V c (t.val - 1) (Nat.lt_of_le_of_lt (Nat.sub_le _ _) t.isLt)).2).1,
      View.canon (runC V c t h0 h9 (outsAt3 V c (t.val - 1) (Nat.lt_of_le_of_lt (Nat.sub_le _ _) t.isLt)).2).2.1) := by
  obtain ⟨n, hn⟩ := t
  cases n with
  | zero => exact absurd rfl h0
  | succ n => exact (dif_pos h9).trans rfl

/-! ## The invariant and the proof data -/

/-- The invariant before tile `n`: before the first, the call's own (every scoped buffer that is no staging buffer
    at anything, the generator register at some state); afterwards the same with the accumulator at what tile
    `n - 1` left in it. -/
def PhiS (c : Dev nD) : (n : ℕ) → n ≤ cfg3.N → sProp 𝕄
  | 0, _ => Pipeline.ΦA spec3 c
  | n + 1, hn => iprop(iprop(owns (c : Thread nD τ) scM3 fullShare ((outsAt3 V c n hn).2) ∗ Pipeline.scopedRestBut (Ix := Unit) (Name := ℕ) (U := UR sig nD τ) (Lvl := ℕ) (Val := Elt F) spec3 c [cc3_scratch0]) ∗ (∃ r, prngReg c r))

theorem PhiS_zero (c : Dev nD) (n : ℕ) (h : n ≤ cfg3.N) (hz : n = 0) : PhiS V c n h = Pipeline.ΦA spec3 c := by
  subst hz; rfl

theorem PhiS_succ (c : Dev nD) (n : ℕ) (hn : n < cfg3.N) :
    PhiS V c (n + 1) hn = iprop(iprop(owns (c : Thread nD τ) scM3 fullShare ((outsAt3 V c n hn).2) ∗ Pipeline.scopedRestBut (Ix := Unit) (Name := ℕ) (U := UR sig nD τ) (Lvl := ℕ) (Val := Elt F) spec3 c [cc3_scratch0]) ∗ (∃ r, prngReg c r)) := rfl

theorem PhiS_pos (c : Dev nD) (n : ℕ) (h : n ≤ cfg3.N) (hz : n ≠ 0) :
    PhiS V c n h = iprop(iprop(owns (c : Thread nD τ) scM3 fullShare ((outsAt3 V c (n - 1) (by omega)).2) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-- The proof data of the pooling call on core `c`: the arrays as the call finds them; after the body at tile `t`
    each input's buffer at its block and the output's at `outsAt3`'s first component; the invariant `PhiS`; full
    shares; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => (outsAt3 V c t.val t.isLt).1
  Φ t := PhiS V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = (outsAt3 V c t.val t.isLt).1 := by dsimp only [dat3]

theorem PhiS_castSucc (c : Dev nD) (t : Fin cfg3.N) :
    (dat3 V c).Φ t.castSucc = PhiS V c t.val (Nat.le_of_lt t.isLt) := by
  dsimp only [dat3]; simp only [Fin.coe_castSucc]

/-- Each input's current staging buffer holds its block at every tile, fetched there or not. -/
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl) (fun t => by rw [after3_4]; unfold Dat.blockOf iblk3; rw [A_eq3]; try rfl) t d).trans
    (by unfold Dat.fetched Dat.blockOf iblk3; rw [A_eq3]; try rfl)

/-! ## The body obligation, at a generic tile -/

/-- What the body is called with at tile `t`, the windows one by one, -/
def bodyPre (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))

/-- and what it returns. -/
def bodyPost (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t)

set_option maxHeartbeats 4800000 in
/-- The body at any tile. The inputs' buffers hold their blocks; which case the tile is in is read off its number.
    At the first tile the invariant is the call's own, split at the accumulator, which the body takes at anything;
    later it hands the accumulator at what the tile before left. In every case the accumulator comes back at the
    canonical contents of the case's pieces (they cover it), which is `outsAt3`'s second component there. The
    output's buffer is handed back untouched where the window is idle (every tile but the last) and comes back at
    the canonical contents of the finishing store at the last. Nothing is owed throughout. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before3_0, before3_1, before3_2, before3_3, before3_4]
  rw [show (dat3 V c).owesAt () t.succ = (dat3 V c).owesAt () t.castSucc from rfl]
  rw [show (dat3 V c).Φ t.succ = PhiS V c (t.val + 1) t.isLt from rfl, PhiS_succ]
  have hN : t.val < 10 := lt_of_lt_of_eq t.isLt (show cfg3.N = 10 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  rw [show (dat3 V c).leavesExact 4 t = owns (c : Thread nD τ) (ms3_4 t) fullShare ((dat3 V c).after 4 t) from by
    unfold Dat.leavesExact; rw [liveAt3_4 t], after3_4]
  by_cases h0 : t.val = 0
  · have hn1 : ¬cond3_1 (grid3.coords t) := fun h => absurd ((hcond3_1 t).mp h) (by omega)
    rw [Dat.leavesExact_idle (dat3 V c) 5 t (idleAt3_5 t hn1) (noFlush3_5 t hn1)]
    rw [outsAt3_A V c t h0]; (try dsimp only)
    rw [PhiS_castSucc V c t, PhiS_zero V c _ _ h0, PhiA3_eq]
    iintro ⟨⟨⟨HS0, Hr⟩, Hg⟩, Ho, ⟨%d0, H0⟩, ⟨%d1, H1⟩, ⟨%d2, H2⟩, ⟨%d3, H3⟩, ⟨%d4, H4⟩, ⟨%d5, H5⟩⟩
    iapply ((runA V c t h0).2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    iintro ⟨H0, H1, H2, H3, H4, H5, ⟨%es0, HS0⟩⟩
    isplitl [HS0 Hr Hg]
    · isplitl [HS0 Hr]
      · isplitl [HS0]
        · unfold owns; iexists _; isplitr
          swap; · iexact HS0
          ipureintro; exact View.read_writes_eq_canon _ _ _ (scoverA V c t h0)
        iexact Hr
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · by_cases h9 : t.val = 9
    · rw [show (dat3 V c).leavesExact 5 t = owns (c : Thread nD τ) (ms3_5 t) fullShare ((dat3 V c).after 5 t) from by
        unfold Dat.leavesExact; rw [liveAt3_5 t ((hcond3_1 t).mpr h9)], after3_5]
      rw [outsAt3_C V c t h0 h9]; (try dsimp only)
      rw [PhiS_castSucc V c t, PhiS_pos V c _ _ h0]
      iintro ⟨⟨⟨HS0, Hr⟩, Hg⟩, Ho, ⟨%d0, H0⟩, ⟨%d1, H1⟩, ⟨%d2, H2⟩, ⟨%d3, H3⟩, ⟨%d4, H4⟩, ⟨%d5, H5⟩⟩
      iapply ((runC V c t h0 h9 _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hr Hg]
      · isplitl [HS0 Hr]
        · isplitl [HS0]
          · unfold owns; iexists _; isplitr
            swap; · iexact HS0
            ipureintro; exact View.read_writes_eq_canon _ _ _ (scoverC V c t h0 h9 _)
          iexact Hr
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_eq_canon _ _ _ (coverC V c t h0 h9 _)
    · have hn1 : ¬cond3_1 (grid3.coords t) := fun h => h9 ((hcond3_1 t).mp h)
      rw [Dat.leavesExact_idle (dat3 V c) 5 t (idleAt3_5 t hn1) (noFlush3_5 t hn1)]
      rw [outsAt3_B V c t h0 h9]; (try dsimp only)
      rw [PhiS_castSucc V c t, PhiS_pos V c _ _ h0]
      iintro ⟨⟨⟨HS0, Hr⟩, Hg⟩, Ho, ⟨%d0, H0⟩, ⟨%d1, H1⟩, ⟨%d2, H2⟩, ⟨%d3, H3⟩, ⟨%d4, H4⟩, ⟨%d5, H5⟩⟩
      iapply ((runB V c t h0 h9 _).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hr Hg]
      · isplitl [HS0 Hr]
        · isplitl [HS0]
          · unfold owns; iexists _; isplitr
            swap; · iexact HS0
            ipureintro; exact View.read_writes_eq_canon _ _ _ (scoverB V c t h0 h9 _)
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every tile. -/
theorem body_obligation3 (c : Dev nD) : BodyObligation (dat3 (F := F) V c) (defs₀ (F := F)) Variants.none () Set.univ := fun t => by
  rw [bigSep_W3, bigSep_W3]
  exact sound_body V c t

/-- Before the first tile the invariant is the call's own. -/
theorem Phi3_zero (c : Dev nD) : (dat3 V c).Φ 0 = Pipeline.ΦA spec3 c := by
  rw [show (dat3 V c).Φ 0 = PhiS V c 0 (Nat.zero_le _) from rfl, PhiS_zero V c 0 _ rfl]

/-- After any tile but the first the invariant gives the call's own back: what the accumulator holds is forgotten. -/
theorem Phi3_out (c : Dev nD) (t : Fin (cfg3.N + 1)) (ht : t.val ≠ 0) : (dat3 V c).Φ t ⊢ Pipeline.ΦA spec3 c := by
  rw [show (dat3 V c).Φ t = PhiS V c t.val (Nat.le_of_lt_succ t.isLt) from rfl, PhiS_pos V c _ _ ht, PhiA3_eq]
  iintro ⟨⟨HS0, Hr⟩, Hg⟩
  isplitl [HS0 Hr]
  · isplitl [HS0]
    · iexists _; iexact HS0
    iexact Hr
  iexact Hg

/-- The same after the last tile. -/
theorem Phi3_last (c : Dev nD) : (dat3 V c).Φ (Fin.last cfg3.N) ⊢ Pipeline.ΦA spec3 c :=
  Phi3_out V c _ (by rw [Fin.val_last]; have : cfg3.N = 10 := N_3; omega)

/-! ## The case equations as the body's payloads -/

theorem hz : (![0, 0] : Fin 2 → Nat) = fun _ => 0 := funext fun a => by fin_cases a <;> rfl

/-- The first tile leaves in the accumulator the update of the zero block: the reset is read back whole. -/
theorem accA_eq (c : Dev nD) (t : Fin cfg3.N) (h0 : t.val = 0) :
    View.canon (runA V c t h0).1 = k3_pay2 (iblk3 V c 0 t) (iblk3 V c 1 t) (k3_pay1 (F := F)) := by
  unfold runA kernelRun3_A
  dsimp only
  sl_unfold_words
  rw [View.canon_cons_unit_zero (S := S64x64) hz, View.readCov_unit_zero (S := S64x64) _ hz]
  simp only [View.readAt_eq_ld, (hs3_0 t).read_unread, (hs3_1 t).read_unread,
    View.ld_unit_zero (S := S10000x64) hz, View.ld_unit_zero (S := S10000x1) hz]

/-- A middle tile leaves the update of what the accumulator held. -/
theorem accB_eq (c : Dev nD) (t : Fin cfg3.N) (h0 : ¬t.val = 0) (h9 : ¬t.val = 9) (xs : Vec F S64x64 .f32) :
    View.canon (runB V c t h0 h9 xs).1 = k3_pay2 (iblk3 V c 0 t) (iblk3 V c 1 t) xs := by
  unfold runB kernelRun3_B
  dsimp only
  try sl_unfold_words
  rw [View.canon_unit_zero (S := S64x64) hz]
  simp only [View.readAt_eq_ld, (hs3_0 t).read_unread, (hs3_1 t).read_unread, (Memref.isWhole_whole cc3_scratch0).read_unread,
    View.ld_unit_zero (S := S10000x64) hz, View.ld_unit_zero (S := S10000x1) hz, View.ld_unit_zero (S := S64x64) hz]

/-- So does the last tile; -/
theorem accC_eq (c : Dev nD) (t : Fin cfg3.N) (h0 : ¬t.val = 0) (h9 : t.val = 9) (xs : Vec F S64x64 .f32) :
    View.canon (runC V c t h0 h9 xs).2.1 = k3_pay2 (iblk3 V c 0 t) (iblk3 V c 1 t) xs := by
  unfold runC kernelRun3_C
  dsimp only
  try sl_unfold_words
  rw [View.canon_unit_zero (S := S64x64) hz]
  simp only [View.readAt_eq_ld, (hs3_0 t).read_unread, (hs3_1 t).read_unread, (Memref.isWhole_whole cc3_scratch0).read_unread,
    View.ld_unit_zero (S := S10000x64) hz, View.ld_unit_zero (S := S10000x1) hz, View.ld_unit_zero (S := S64x64) hz]

/-- and it finishes the output block from the accumulator as just updated, read back whole. -/
theorem outC_eq (c : Dev nD) (t : Fin cfg3.N) (h0 : ¬t.val = 0) (h9 : t.val = 9) (xs : Vec F S64x64 .f32) :
    View.canon (runC V c t h0 h9 xs).1
      = k3_pay3 (k3_pay2 (iblk3 V c 0 t) (iblk3 V c 1 t) xs) (iblk3 V c 4 t) (iblk3 V c 2 t) (iblk3 V c 3 t) := by
  unfold runC kernelRun3_C
  dsimp only
  sl_unfold_words
  rw [View.canon_unit_zero (S := S64x64) hz, View.readCov_unit_zero (S := S64x64) _ hz]
  simp only [View.readAt_eq_ld, (hs3_0 t).read_unread, (hs3_1 t).read_unread, (hs3_2 t).read_unread, (hs3_3 t).read_unread,
    (hs3_4 t).read_unread, (Memref.isWhole_whole cc3_scratch0).read_unread,
    View.ld_unit_zero (S := S10000x64) hz, View.ld_unit_zero (S := S10000x1) hz, View.ld_unit_zero (S := S64x64) hz,
    View.ld_unit_zero (S := S1x64) hz, View.ld_unit_zero (S := S64x1) hz]

/-- After the first tile the accumulator is the first tile's update of zero. -/
theorem scratch3_first (c : Dev nD) (h0 : 0 < cfg3.N) :
    (outsAt3 V c 0 h0).2 = k3_pay2 (iblk3 V c 0 ⟨0, h0⟩) (iblk3 V c 1 ⟨0, h0⟩) (k3_pay1 (F := F)) :=
  accA_eq V c ⟨0, h0⟩ rfl

/-- After every later tile it is that tile's update of what the tile before left. -/
theorem scratch3_succ (c : Dev nD) (n : ℕ) (hn : n + 1 < cfg3.N) :
    (outsAt3 V c (n + 1) hn).2 = k3_pay2 (iblk3 V c 0 ⟨n + 1, hn⟩) (iblk3 V c 1 ⟨n + 1, hn⟩) (outsAt3 V c n (Nat.lt_of_succ_lt hn)).2 := by
  by_cases h9 : n + 1 = 9
  · exact (congrArg Prod.snd (outsAt3_C V c ⟨n + 1, hn⟩ (Nat.succ_ne_zero n) h9)).trans (accC_eq V c ⟨n + 1, hn⟩ (Nat.succ_ne_zero n) h9 _)
  · exact (congrArg Prod.snd (outsAt3_B V c ⟨n + 1, hn⟩ (Nat.succ_ne_zero n) h9)).trans (accB_eq V c ⟨n + 1, hn⟩ (Nat.succ_ne_zero n) h9 _)

/-- After the last tile the output block is finished from the accumulator as that tile leaves it. -/
theorem out3_last (c : Dev nD) (h9 : 9 < cfg3.N) :
    (outsAt3 V c 9 h9).1 = k3_pay3 (outsAt3 V c 9 h9).2 (iblk3 V c 4 ⟨9, h9⟩) (iblk3 V c 2 ⟨9, h9⟩) (iblk3 V c 3 ⟨9, h9⟩) := by
  have e := outsAt3_C V c ⟨9, h9⟩ (Nat.succ_ne_zero 8) rfl
  rw [show outsAt3 V c 9 h9 = _ from e]
  dsimp only
  rw [outC_eq, accC_eq]

end Cert.KernelIdeal.Pool

end
-- ==== Proof.KI.Run.lean ====
/-
  The run of @main: four kernel calls among four stretches of host operations. Between two items each core holds
  every unscoped buffer whole at a named valuation: the launch contents, then what each host stretch computes
  (`StableHlo.after`), then, after a call, the same valuation with the call's arrays at what its pipeline leaves
  (`Dat.arrAt … N`). Each call's entry contents are defined from the earlier calls' results, stage by stage, so the
  run ends with the result array at a named value and every argument array as launched.
-/
import proofs.«430438_j75239237091885_2_alg».proof.Proof.Gen.KernelIdeal.Launch
import proofs.«430438_j75239237091885_2_alg».proof.Proof.Gen.KernelIdeal.Skeleton
import proofs.«430438_j75239237091885_2_alg».proof.Proof.Gen.KernelIdeal.Points
import proofs.«430438_j75239237091885_2_alg».proof.Proof.Gen.KernelIdeal.Regions
import proofs.«430438_j75239237091885_2_alg».proof.Proof.KI.Gc0
import proofs.«430438_j75239237091885_2_alg».proof.Proof.KI.Gc1
import proofs.«430438_j75239237091885_2_alg».proof.Proof.KI.Gc2
import proofs.«430438_j75239237091885_2_alg».proof.Proof.KI.Pool
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The run, given the calls' records -/

set_option backward.isDefEq.respectTransparency.types false in
/-- THE CONDITIONAL RUN. For any user algebra, level assignment, launch dues and ghost resources, any rest states `E`
    the launch makes on every core at once (`hE0`) and that end owing nothing (`hE4`), any contents the calls leave
    (`outs`) and any proof data: GIVEN, per call K, a segment record entered from the thread state before it and left at
    the one after it, every weakly fair execution of @main from memory `m` with zero counters terminates, and every final
    memory holds the result array `main_v62` at the last valuation's contents there and each argument as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c)) :
    θ_run defs (onTc (τ := τ) (main (F := F))) ⟨m, fun _ => 0, ρ⟩ (fun r => ∀ c : Dev nD,
      r.2.mem ((c.tc : Thread nD τ).loc main_v62) = V8 m outs c main_v62
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) := by
  refine Pipeline.θ_run_regions_kit_dev (pcfgs (F := F)) adm pdats ι cellOf_inj EP defs₀ 𝒱₀ L lv m ρ main
    (segs m outs 𝒱₀ L lv E ι pdats R0 R1 R2 R3)
    (fun c Q => by
      rewrite [main_chain c, Seg.run_eq_chain,
        show (segs m outs 𝒱₀ L lv E ι pdats R0 R1 R2 R3 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V8 m outs c))
    (hch := fun c => ⟨.rfl, hpre0 c, hpost0 c, hpre1 c, hpost1 c, hpre2 c, hpost2 c, hpre3 c, (hpost3 c).trans (sep_mono .rfl (hE4 c))⟩)
    (hinit := ?_) (QY := fun c s => s.mem ((c.tc : Thread nD τ).loc main_v62) = V8 m outs c main_v62 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V8 m outs c) s') $$ [Hh HSI]
    · isplitl [Hh] <;> iassumption
    icases Hr with ⟨%h, HSI⟩
    imodintro
    isplitr
    · ipureintro
      exact ⟨h (Proc.devRef .tc main_v62) (Finset.mem_filter.mpr ⟨StableHlo.devRef_mem_tcRefs main_v62, by decide⟩),
        (h (Proc.devRef .tc main_arg0) (Finset.mem_filter.mpr ⟨StableHlo.devRef_mem_tcRefs main_arg0, by decide⟩)).trans (V8_main_arg0 m outs c),
        (h (Proc.devRef .tc main_arg1) (Finset.mem_filter.mpr ⟨StableHlo.devRef_mem_tcRefs main_arg1, by decide⟩)).trans (V8_main_arg1 m outs c),
        (h (Proc.devRef .tc main_arg2) (Finset.mem_filter.mpr ⟨StableHlo.devRef_mem_tcRefs main_arg2, by decide⟩)).trans (V8_main_arg2 m outs c),
        (h (Proc.devRef .tc main_arg3) (Finset.mem_filter.mpr ⟨StableHlo.devRef_mem_tcRefs main_arg3, by decide⟩)).trans (V8_main_arg3 m outs c),
        (h (Proc.devRef .tc main_arg4) (Finset.mem_filter.mpr ⟨StableHlo.devRef_mem_tcRefs main_arg4, by decide⟩)).trans (V8_main_arg4 m outs c),
        (h (Proc.devRef .tc main_arg5) (Finset.mem_filter.mpr ⟨StableHlo.devRef_mem_tcRefs main_arg5, by decide⟩)).trans (V8_main_arg5 m outs c),
        (h (Proc.devRef .tc main_arg6) (Finset.mem_filter.mpr ⟨StableHlo.devRef_mem_tcRefs main_arg6, by decide⟩)).trans (V8_main_arg6 m outs c),
        (h (Proc.devRef .tc main_arg7) (Finset.mem_filter.mpr ⟨StableHlo.devRef_mem_tcRefs main_arg7, by decide⟩)).trans (V8_main_arg7 m outs c),
        (h (Proc.devRef .tc main_arg8) (Finset.mem_filter.mpr ⟨StableHlo.devRef_mem_tcRefs main_arg8, by decide⟩)).trans (V8_main_arg8 m outs c),
        (h (Proc.devRef .tc main_arg9) (Finset.mem_filter.mpr ⟨StableHlo.devRef_mem_tcRefs main_arg9, by decide⟩)).trans (V8_main_arg9 m outs c),
        (h (Proc.devRef .tc main_arg10) (Finset.mem_filter.mpr ⟨StableHlo.devRef_mem_tcRefs main_arg10, by decide⟩)).trans (V8_main_arg10 m outs c),
        (h (Proc.devRef .tc main_arg11) (Finset.mem_filter.mpr ⟨StableHlo.devRef_mem_tcRefs main_arg11, by decide⟩)).trans (V8_main_arg11 m outs c),
        (h (Proc.devRef .tc main_arg12) (Finset.mem_filter.mpr ⟨StableHlo.devRef_mem_tcRefs main_arg12, by decide⟩)).trans (V8_main_arg12 m outs c),
        (h (Proc.devRef .tc main_arg13) (Finset.mem_filter.mpr ⟨StableHlo.devRef_mem_tcRefs main_arg13, by decide⟩)).trans (V8_main_arg13 m outs c)⟩
    · iexact HSI

/-! ## The buffers' contents, call by call

Each call's entry contents are what the launch memory, the host stretches and the EARLIER calls' results make them, so
they are defined in order: `E1` (entry of the first call), `X2` (its exit), `E3`, `X4`, `E5`, `X6`, `E7`, `X8`. A
call's exit contents are its entry contents with its arrays at what the pipeline leaves after the last point: an input
array as entered, the output array with every tile's write-back folded in. -/

/-- Core `c`'s unscoped buffers when the first call is entered: the launch contents after the first host stretch. -/
abbrev E1 (c : Dev nD) : Valuation τ sig (Elt F) := V1 m c
/-- Core `c`'s unscoped buffers when the first call returns: its arrays at what its pipeline leaves. -/
def X2 (c : Dev nD) : Valuation τ sig (Elt F) :=
  Pipeline.withArrays spec0 c (E1 m c) fun w => (Gc0.dat0 (fun c b => E1 m c b) c).arrAt w cfg0.N
/-- Core `c`'s unscoped buffers when the second call is entered: the first call's result in `main_v28`, then the
    second host stretch. -/
abbrev E3 (c : Dev nD) : Valuation τ sig (Elt F) :=
  StableHlo.after hostOps1 (Function.update (E1 m c) main_v28 (X2 m c main_v28))
/-- Core `c`'s unscoped buffers when the second call returns. -/
def X4 (c : Dev nD) : Valuation τ sig (Elt F) :=
  Pipeline.withArrays spec1 c (E3 m c) fun w => (Gc1.dat1 (fun c b => E3 m c b) c).arrAt w cfg1.N
/-- Core `c`'s unscoped buffers when the third call is entered: the second call's result in `main_v40`, then the
    third host stretch. -/
abbrev E5 (c : Dev nD) : Valuation τ sig (Elt F) :=
  StableHlo.after hostOps2 (Function.update (E3 m c) main_v40 (X4 m c main_v40))
/-- Core `c`'s unscoped buffers when the third call returns. -/
def X6 (c : Dev nD) : Valuation τ sig (Elt F) :=
  Pipeline.withArrays spec2 c (E5 m c) fun w => (Gc2.dat2 (fun c b => E5 m c b) c).arrAt w cfg2.N
/-- Core `c`'s unscoped buffers when the pooling call is entered: the third call's result in `main_v52`, then the
    fourth host stretch. -/
abbrev E7 (c : Dev nD) : Valuation τ sig (Elt F) :=
  StableHlo.after hostOps3 (Function.update (E5 m c) main_v52 (X6 m c main_v52))
/-- Core `c`'s unscoped buffers when the pooling call returns. -/
def X8 (c : Dev nD) : Valuation τ sig (Elt F) :=
  Pipeline.withArrays spec3 c (E7 m c) fun w => (Pool.dat3 (fun c b => E7 m c b) c).arrAt w cfg3.N

/-- What the calls leave in the buffers they may change: each call's exit contents, read at its output array. -/
def outs : Outs (F := F) := fun n r c =>
  match n with
  | 2 => X2 m c r
  | 4 => X4 m c r
  | 6 => X6 m c r
  | 8 => X8 m c r
  | _ => m ((c : Thread nD τ).loc r)

/-- With these results the valuations between items are the staged contents. -/
theorem V3_eq (c : Dev nD) : V3 m (outs m) c = E3 m c := rfl
theorem V5_eq (c : Dev nD) : V5 m (outs m) c = E5 m c := rfl
theorem V7_eq (c : Dev nD) : V7 m (outs m) c = E7 m c := rfl

/-! ## Each call's exit contents, array by array -/

/-- The first call's result: its output array after the last tile's write-back. -/
theorem h1_eq (c : Dev nD) : X2 m c main_v28 = (Gc0.dat0 (fun c b => E1 m c b) c).arrAt 5 cfg0.N := by
  unfold X2; exact Pipeline.withArrays_arr spec0 launch0.win.arr_inj c _ _ 5

/-- An input window's array leaves the first call as it entered. -/
theorem hF0_in (c : Dev nD) (w : Fin cfg0.W) (hin : (cfg0.win w).isOut = false)
    (hne : Pipeline.arrRef spec0 w ∉ ([main_v28] : List (Ref sig .tc))) :
    (Gc0.dat0 (fun c b => E1 m c b) c).arrAt w cfg0.N = V2 m (outs m) c (Pipeline.arrRef spec0 w) := by
  rw [Pipeline.Dat.arrAt_in _ w hin, Gc0.A_eq0]
  exact (V2_of m (outs m) c _ hne).symm

/-- At the first call's exit each of its arrays holds what the pipeline leaves: the five inputs as entered, the output
    array the call's result. -/
theorem hF0 (c : Dev nD) : ∀ w : Fin cfg0.W,
    (Gc0.dat0 (fun c b => E1 m c b) c).arrAt w cfg0.N = V2 m (outs m) c (Pipeline.arrRef spec0 w)
  | ⟨0, _⟩ => hF0_in m c 0 rfl (by decide)
  | ⟨1, _⟩ => hF0_in m c 1 rfl (by decide)
  | ⟨2, _⟩ => hF0_in m c 2 rfl (by decide)
  | ⟨3, _⟩ => hF0_in m c 3 rfl (by decide)
  | ⟨4, _⟩ => hF0_in m c 4 rfl (by decide)
  | ⟨5, _⟩ => by
    show _ = Function.update (V1 m c) main_v28 (X2 m c main_v28) main_v28
    rw [Function.update_self]
    exact (h1_eq m c).symm

/-- and every other buffer holds what it held at entry. -/
theorem hrest0 (c : Dev nD) (b : Ref sig .tc) (hb : b ∉ Finset.univ.image (Pipeline.arrRef spec0)) :
    V2 m (outs m) c b = E1 m c b :=
  V2_of m (outs m) c b fun h => hb (Finset.mem_image.mpr ⟨5, Finset.mem_univ _, (List.mem_singleton.mp h).symm⟩)

/-- The second call's result: its output array after the last tile's write-back. -/
theorem h2_eq (c : Dev nD) : X4 m c main_v40 = (Gc1.dat1 (fun c b => E3 m c b) c).arrAt 5 cfg1.N := by
  unfold X4; exact Pipeline.withArrays_arr spec1 launch1.win.arr_inj c _ _ 5

/-- An input window's array leaves the second call as it entered. -/
theorem hF1_in (c : Dev nD) (w : Fin cfg1.W) (hin : (cfg1.win w).isOut = false)
    (hne : Pipeline.arrRef spec1 w ∉ ([main_v40] : List (Ref sig .tc))) :
    (Gc1.dat1 (fun c b => E3 m c b) c).arrAt w cfg1.N = V4 m (outs m) c (Pipeline.arrRef spec1 w) := by
  rw [Pipeline.Dat.arrAt_in _ w hin, Gc1.A_eq1]
  exact ((V4_of m (outs m) c _ hne).trans (congrFun (V3_eq m c) _)).symm

/-- At the second call's exit each of its arrays holds what the pipeline leaves: the five inputs as entered, the output
    array the call's result. -/
theorem hF1 (c : Dev nD) : ∀ w : Fin cfg1.W,
    (Gc1.dat1 (fun c b => E3 m c b) c).arrAt w cfg1.N = V4 m (outs m) c (Pipeline.arrRef spec1 w)
  | ⟨0, _⟩ => hF1_in m c 0 rfl (by decide)
  | ⟨1, _⟩ => hF1_in m c 1 rfl (by decide)
  | ⟨2, _⟩ => hF1_in m c 2 rfl (by decide)
  | ⟨3, _⟩ => hF1_in m c 3 rfl (by decide)
  | ⟨4, _⟩ => hF1_in m c 4 rfl (by decide)
  | ⟨5, _⟩ => by
    show _ = Function.update (V3 m (outs m) c) main_v40 (X4 m c main_v40) main_v40
    rw [Function.update_self]
    exact (h2_eq m c).symm

/-- and every other buffer holds what it held at entry. -/
theorem hrest1 (c : Dev nD) (b : Ref sig .tc) (hb : b ∉ Finset.univ.image (Pipeline.arrRef spec1)) :
    V4 m (outs m) c b = E3 m c b :=
  (V4_of m (outs m) c b fun h => hb (Finset.mem_image.mpr ⟨5, Finset.mem_univ _, (List.mem_singleton.mp h).symm⟩)).trans (congrFun (V3_eq m c) _)

/-- The third call's result: its output array after the last tile's write-back. -/
theorem h3_eq (c : Dev nD) : X6 m c main_v52 = (Gc2.dat2 (fun c b => E5 m c b) c).arrAt 5 cfg2.N := by
  unfold X6; exact Pipeline.withArrays_arr spec2 launch2.win.arr_inj c _ _ 5

/-- An input window's array leaves the third call as it entered. -/
theorem hF2_in (c : Dev nD) (w : Fin cfg2.W) (hin : (cfg2.win w).isOut = false)
    (hne : Pipeline.arrRef spec2 w ∉ ([main_v52] : List (Ref sig .tc))) :
    (Gc2.dat2 (fun c b => E5 m c b) c).arrAt w cfg2.N = V6 m (outs m) c (Pipeline.arrRef spec2 w) := by
  rw [Pipeline.Dat.arrAt_in _ w hin, Gc2.A_eq2]
  exact ((V6_of m (outs m) c _ hne).trans (congrFun (V5_eq m c) _)).symm

/-- At the third call's exit each of its arrays holds what the pipeline leaves: the five inputs as entered, the output
    array the call's result. -/
theorem hF2 (c : Dev nD) : ∀ w : Fin cfg2.W,
    (Gc2.dat2 (fun c b => E5 m c b) c).arrAt w cfg2.N = V6 m (outs m) c (Pipeline.arrRef spec2 w)
  | ⟨0, _⟩ => hF2_in m c 0 rfl (by decide)
  | ⟨1, _⟩ => hF2_in m c 1 rfl (by decide)
  | ⟨2, _⟩ => hF2_in m c 2 rfl (by decide)
  | ⟨3, _⟩ => hF2_in m c 3 rfl (by decide)
  | ⟨4, _⟩ => hF2_in m c 4 rfl (by decide)
  | ⟨5, _⟩ => by
    show _ = Function.update (V5 m (outs m) c) main_v52 (X6 m c main_v52) main_v52
    rw [Function.update_self]
    exact (h3_eq m c).symm

/-- and every other buffer holds what it held at entry. -/
theorem hrest2 (c : Dev nD) (b : Ref sig .tc) (hb : b ∉ Finset.univ.image (Pipeline.arrRef spec2)) :
    V6 m (outs m) c b = E5 m c b :=
  (V6_of m (outs m) c b fun h => hb (Finset.mem_image.mpr ⟨5, Finset.mem_univ _, (List.mem_singleton.mp h).symm⟩)).trans (congrFun (V5_eq m c) _)

/-- The pooling call's result: its output array after the last tile's write-back. -/
theorem h4_eq (c : Dev nD) : X8 m c main_v62 = (Pool.dat3 (fun c b => E7 m c b) c).arrAt 5 cfg3.N := by
  unfold X8; exact Pipeline.withArrays_arr spec3 launch3.win.arr_inj c _ _ 5

/-- An input window's array leaves the pooling call as it entered. -/
theorem hF3_in (c : Dev nD) (w : Fin cfg3.W) (hin : (cfg3.win w).isOut = false)
    (hne : Pipeline.arrRef spec3 w ∉ ([main_v62] : List (Ref sig .tc))) :
    (Pool.dat3 (fun c b => E7 m c b) c).arrAt w cfg3.N = V8 m (outs m) c (Pipeline.arrRef spec3 w) := by
  rw [Pipeline.Dat.arrAt_in _ w hin, Pool.A_eq3]
  exact ((V8_of m (outs m) c _ hne).trans (congrFun (V7_eq m c) _)).symm

/-- At the pooling call's exit each of its arrays holds what the pipeline leaves: the five inputs as entered, the output
    array the call's result. -/
theorem hF3 (c : Dev nD) : ∀ w : Fin cfg3.W,
    (Pool.dat3 (fun c b => E7 m c b) c).arrAt w cfg3.N = V8 m (outs m) c (Pipeline.arrRef spec3 w)
  | ⟨0, _⟩ => hF3_in m c 0 rfl (by decide)
  | ⟨1, _⟩ => hF3_in m c 1 rfl (by decide)
  | ⟨2, _⟩ => hF3_in m c 2 rfl (by decide)
  | ⟨3, _⟩ => hF3_in m c 3 rfl (by decide)
  | ⟨4, _⟩ => hF3_in m c 4 rfl (by decide)
  | ⟨5, _⟩ => by
    show _ = Function.update (V7 m (outs m) c) main_v62 (X8 m c main_v62) main_v62
    rw [Function.update_self]
    exact (h4_eq m c).symm

/-- and every other buffer holds what it held at entry. -/
theorem hrest3 (c : Dev nD) (b : Ref sig .tc) (hb : b ∉ Finset.univ.image (Pipeline.arrRef spec3)) :
    V8 m (outs m) c b = E7 m c b :=
  (V8_of m (outs m) c b fun h => hb (Finset.mem_image.mpr ⟨5, Finset.mem_univ _, (List.mem_singleton.mp h).symm⟩)).trans (congrFun (V7_eq m c) _)

/-! ## The proof data family and the thread state -/

/-- Every pipeline's proof data, each at its call's entry contents. -/
def pdats : (p : Fin 4) → (c : Dev nD) → Dat τ (Elt F) Unit ℕ (UR sig nD τ) ℕ (cfgs p) c
  | ⟨0, _⟩ => fun c => Gc0.dat0 (fun c b => E1 m c b) c
  | ⟨1, _⟩ => fun c => Gc1.dat1 (fun c b => E3 m c b) c
  | ⟨2, _⟩ => fun c => Gc2.dat2 (fun c b => E5 m c b) c
  | ⟨3, _⟩ => fun c => Pool.dat3 (fun c b => E7 m c b) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a call's
    invariant takes it in and gives it back) and the core owing nothing. -/
abbrev R (c : Dev nD) : sProp 𝕄 := iprop((∃ r, prngReg c r) ∗ ∃ W, owes (c : Thread nD τ) (0 : CellTallies nD τ sig Unit) W)
/-- The rest state between any two items. -/
abbrev E : Fin 5 → Dev nD → sProp 𝕄 := fun _ c => R (F := F) c

/-! ## The calls as segments -/

-- the pinned configuration `pin pcfgs adm p` is the printed `cfgs p` only up to unfolding plain definitions in a type
set_option backward.isDefEq.respectTransparency.types false in
/-- THE FIRST CALL over the thread state: entered from every unscoped buffer at `E1`, left at `V2`. Its arrays are split
    out of the unscoped buffers and put back at the exit contents; the generator register goes into the call's invariant
    and comes out; nothing is owed; the kernel has no semaphore of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Gc0.body_obligation0 (fun c b => E1 m c b) c).loose
  hwaits := Pipeline.hwaits_of_owed_zero _ _ _ _ L lv 0 fun _ _ => rfl
  pre c := iprop(StableHlo.held (c : Thread nD τ) (Pipeline.ucRefs τ sig) (E1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (fun b => E1 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => E1 m c b) fun w => Gc0.A_eq0 (fun c b => E1 m c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => E1 m c b) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the pinned configuration `pin pcfgs adm p` is the printed `cfgs p` only up to unfolding plain definitions in a type
set_option backward.isDefEq.respectTransparency.types false in
/-- THE SECOND CALL over the thread state: entered from every unscoped buffer at `E3`, left at `V4`; as the first. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Gc1.body_obligation1 (fun c b => E3 m c b) c).loose
  hwaits := Pipeline.hwaits_of_owed_zero _ _ _ _ L lv 1 fun _ _ => rfl
  pre c := iprop(StableHlo.held (c : Thread nD τ) (Pipeline.ucRefs τ sig) (E3 m c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => E3 m c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => E3 m c b) fun w => Gc1.A_eq1 (fun c b => E3 m c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => E3 m c b) (fun b => V4 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the pinned configuration `pin pcfgs adm p` is the printed `cfgs p` only up to unfolding plain definitions in a type
set_option backward.isDefEq.respectTransparency.types false in
/-- THE THIRD CALL over the thread state: entered from every unscoped buffer at `E5`, left at `V6`; as the first. -/
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Gc2.body_obligation2 (fun c b => E5 m c b) c).loose
  hwaits := Pipeline.hwaits_of_owed_zero _ _ _ _ L lv 2 fun _ _ => rfl
  pre c := iprop(StableHlo.held (c : Thread nD τ) (Pipeline.ucRefs τ sig) (E5 m c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec2 c (fun b => E5 m c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b => E5 m c b) fun w => Gc2.A_eq2 (fun c b => E5 m c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => E5 m c b) (fun b => V6 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the pinned configuration `pin pcfgs adm p` is the printed `cfgs p` only up to unfolding plain definitions in a type
set_option backward.isDefEq.respectTransparency.types false in
/-- THE POOLING CALL over the thread state: entered from every unscoped buffer at `E7`, left at `V8` (what the run reads at
    the end). Its invariant carries the call's scratch buffer between tiles; at the first tile and after the last it is
    the plain one (the scoped buffers at some contents, the generator register at some state). -/
def reg3 : RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (Pool.body_obligation3 (fun c b => E7 m c b) c).loose
  hwaits := Pipeline.hwaits_of_owed_zero _ _ _ _ L lv 3 fun _ _ => rfl
  pre c := iprop(StableHlo.held (c : Thread nD τ) (Pipeline.ucRefs τ sig) (E7 m c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec3 c (fun b => E7 m c b)
  hentry c := by
    rw [Pipeline.ownSems0_none]
    have hsplit := Pipeline.arrays_of_unscopedBufs (p := 3) (pcfgs (F := F)) adm (pdats m) launch3.win launch3.arr_whole c
      ((pdats m 3 c).share_full fun _ => rfl) (fun b => E7 m c b) fun w => Pool.A_eq3 (fun c b => E7 m c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from Pool.Phi3_zero (fun c b => E7 m c b) c]; unfold Pipeline.ΦA
    iintro ⟨Hp, -, Hr⟩
    isplitl [Hr]; · iexact Hr
    iexact Hp
  hout c := by
    rw [Pipeline.ownSems0_none]
    refine (show (pdats m 3 c).Φ (Fin.last _) ⊢ Pipeline.ΦA spec3 c from Pool.Phi3_last (fun c b => E7 m c b) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (fun b => E7 m c b) (fun b => V8 m (outs m) c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The result, named -/

/-- The run's last valuation at the result array is what the pooling call's pipeline leaves there. -/
theorem res_eq (c : Dev nD) : V8 m (outs m) c main_v62 = (Pool.dat3 (fun c b => E7 m c b) c).arrAt 5 cfg3.N := by
  show Function.update (V7 m (outs m) c) main_v62 (X8 m c main_v62) main_v62 = _
  rw [Function.update_self]
  exact h4_eq m c

/-! ## The run -/

variable (ρ : Dev nD → PrngReg)

/-- THE RUN. At the compiled mesh, from any memory with zero counters, every weakly fair execution of @main
    terminates, and every final memory holds the result array at the last valuation's contents and every argument
    array as launched: the conditional run at the four calls' records, the staged contents for what the calls leave,
    nothing owed at launch, no ghost resource beside the pipelines' cells. -/
theorem run : θ_run defs (onTc (τ := τ) (main (F := F))) ⟨m, fun _ => 0, ρ⟩ (fun r => ∀ c : Dev nD,
      r.2.mem ((c.tc : Thread nD τ).loc main_v62) = V8 m (outs m) c main_v62
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  run_cond m (EP := emb₁) (ι := ()) (𝒱₀ := 𝒱₀) (L := L) (lv := lv) (hL := fun _ _ => rfl) (ρ := ρ) (outs := outs m)
    (pdats := pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := E)
    (hE0 := Pipeline.initEach L lv fun c => by
      iintro ⟨⟨-, HO, -, Hp, -⟩, -⟩
      imodintro
      isplitl [Hp]; · iexists _; iexact Hp
      iexists ∅; iexact HO)
    (hE4 := fun c => by iintro ⟨-, H⟩; iexact H)
    (R0 := reg0 m) (hpre0 := fun c => .rfl) (hpost0 := fun c => .rfl)
    (R1 := reg1 m) (hpre1 := fun c => by rw [V3_eq m c]; exact .rfl) (hpost1 := fun c => .rfl)
    (R2 := reg2 m) (hpre2 := fun c => by rw [V5_eq m c]; exact .rfl) (hpost2 := fun c => .rfl)
    (R3 := reg3 m) (hpre3 := fun c => by rw [V7_eq m c]; exact .rfl) (hpost3 := fun c => .rfl)

end Cert.KernelIdeal.Run

end
-- ==== Proof.Val.Spec.lean ====
/-
  The mathematics both programs compute, as functions of whole arrays over the extended reals.
  One graph-convolution layer: row r, feature d of  aggr · Wr^T + h · Wn^T + b  (then max with 0 in the first two layers).
  The pool: S(g, d) = sum over the nodes r of [batch r = g] · h(r, d), accumulated tile by tile (ten tiles of 10000
  rows, the first added to zero); the result is (S(g, ·) · inv(g)) · Wl^T + bl.
-/
import Idealize.ShloMosaic.PureOps.Ideal
import Idealize.ShloMosaic.Lib.ValueIdx

noncomputable section

namespace Cert.Spec

open Idealize.ShloMosaic Idealize.ShloMosaic.ValueIdx

/-- nodes × features, a 64 × 64 matrix, a 1 × 64 row, node ids as a column, a 64 × 1 column -/
abbrev SN : Shape := ⟨2, ![100000, 64]⟩
abbrev SW : Shape := ⟨2, ![64, 64]⟩
abbrev SB : Shape := ⟨2, ![1, 64]⟩
abbrev SI : Shape := ⟨2, ![100000, 1]⟩
abbrev SC : Shape := ⟨2, ![64, 1]⟩

/-- One layer before the activation: (aggr · WrT + h · WnT) + b at row `i 0`, feature `i 1`. -/
def gcLin (A h : SN.Idx → EReal) (WrT : SW.Idx → EReal) (b : SB.Idx → EReal) (WnT : SW.Idx → EReal) : SN.Idx → EReal :=
  fun i => ((∑ k : Fin 64, A (ix2 (i 0) k) * WrT (ix2 k (i 1))) + (∑ k : Fin 64, h (ix2 (i 0) k) * WnT (ix2 k (i 1))))
    + b (ix2 (0 : Fin 1) (i 1))

/-- One layer with the activation max(·, 0). -/
def gcRelu (A h : SN.Idx → EReal) (WrT : SW.Idx → EReal) (b : SB.Idx → EReal) (WnT : SW.Idx → EReal) : SN.Idx → EReal :=
  fun i => max (gcLin A h WrT b WnT i) 0

/-- [node r belongs to graph g]: the graph id read as a signed word. -/
def onehot (batch : SI.Idx → BitVec 32) (r : Fin 100000) (g : Fin 64) : EReal :=
  if (batch (ix2 r (0 : Fin 1))).toInt = (g.val : ℤ) then 1 else 0

/-- Row p of tile t as a node number (tiles of 10000 rows; total in t by reducing modulo the node count). -/
def rowOf (t : ℕ) (p : Fin 10000) : Fin 100000 := ⟨(10000 * t + p.val) % 100000, Nat.mod_lt _ (by norm_num)⟩

/-- What tile t adds to S(g, d): the sum over the tile's rows of [batch = g] · h. -/
def tileSum (h : SN.Idx → EReal) (batch : SI.Idx → BitVec 32) (t : ℕ) : SW.Idx → EReal :=
  fun j => ∑ p : Fin 10000, onehot batch (rowOf t p) (j 0) * h (ix2 (rowOf t p) (j 1))

/-- The accumulator after tiles 0 … n: tile 0 added to zero, each later tile added to what was there. -/
def poolAcc (h : SN.Idx → EReal) (batch : SI.Idx → BitVec 32) : ℕ → SW.Idx → EReal
  | 0 => fun j => 0 + tileSum h batch 0 j
  | n + 1 => fun j => poolAcc h batch n j + tileSum h batch (n + 1) j

/-- The pooled and projected result: ((S(g, ·) · inv g) · WlT)(d) + bl d, S the accumulator after all ten tiles. -/
def poolOut (h : SN.Idx → EReal) (batch : SI.Idx → BitVec 32) (WlT : SW.Idx → EReal) (bl : SB.Idx → EReal) (inv : SC.Idx → EReal) :
    SW.Idx → EReal :=
  fun j => (∑ k : Fin 64, (poolAcc h batch 9 (ix2 (j 0) k) * inv (ix2 (j 0) (0 : Fin 1))) * WlT (ix2 k (j 1)))
    + bl (ix2 (0 : Fin 1) (j 1))

/-! ## Re-layouts of the arguments, as both programs make them on the host -/

abbrev S64 : Shape := ⟨1, ![64]⟩
abbrev S100000 : Shape := ⟨1, ![100000]⟩

/-- A weight matrix transposed. -/
def trW (W : SW.Idx → EReal) : SW.Idx → EReal := fun j => W (ix2 (j 1) (j 0))
/-- A bias vector as a 1 × 64 row. -/
def rowB (b : S64.Idx → EReal) : SB.Idx → EReal := fun j => b (ix1 (j 1))
/-- The graph ids as a column. -/
def colI (batch : S100000.Idx → BitVec 32) : SI.Idx → BitVec 32 := fun j => batch (ix1 (j 0))

/-- The nodes of graph g. -/
def members (batch : SI.Idx → BitVec 32) (g : Fin 64) : Finset (Fin 100000) :=
  Finset.univ.filter fun r : Fin 100000 => (batch (ix2 r (0 : Fin 1))).toInt = (g.val : ℤ)

/-- The number of nodes of graph g, as both programs count it: one added per member to zero. -/
def countOf (batch : SI.Idx → BitVec 32) (g : Fin 64) : EReal := 0 + ∑ _r ∈ members batch g, (1 : EReal)

/-- The reciprocal of max(count, 1), as a 64 × 1 column. -/
def invCol (batch : SI.Idx → BitVec 32) : SC.Idx → EReal := fun j => Ideal.div 1 (max (countOf batch (j 0)) 1)

/-- The reference's pool: (sum over the members of graph g of h(r, ·)) / max(count g, 1), times WlT, plus bl. -/
def poolRef (h : SN.Idx → EReal) (batch : SI.Idx → BitVec 32) (WlT : SW.Idx → EReal) (bl : SB.Idx → EReal) : SW.Idx → EReal :=
  fun j => (∑ k : Fin 64, Ideal.div (0 + ∑ r ∈ members batch (j 0), h (ix2 r k)) (max (countOf batch (j 0)) 1) * WlT (ix2 k (j 1)))
    + bl (ix2 (0 : Fin 1) (j 1))

end Cert.Spec

end
-- ==== Proof.Val.SpecLaws.lean ====
/-
  Laws of the pooled sum over the extended reals.
  The accumulator after all ten tiles is the sum over all nodes; a sum against the indicator of a graph is the sum over
  that graph's nodes; a count of nodes is a real number; dividing by a nonzero real is multiplying by its reciprocal.
  Only the commutative-monoid laws of + and * are used: nothing is distributed or cancelled.
-/
import proofs.«430438_j75239237091885_2_alg».proof.Proof.Val.Spec
import Idealize.ShloMosaic.PureOps.Ideal
import Idealize.ShloMosaic.Lib.ValueIdx
import Mathlib.Algebra.BigOperators.Fin
import Mathlib.Data.Fintype.BigOperators
import Mathlib.Logic.Equiv.Fin.Basic
import Mathlib.Data.EReal.Basic

noncomputable section

namespace Cert.Spec

open Idealize.ShloMosaic Idealize.ShloMosaic.ValueIdx

/-- x · (1 / r) = x / r for a nonzero real r, at every extended real x: both sides are x · r⁻¹. -/
theorem mul_recip_eq_div (x : EReal) (r : ℝ) (hr : r ≠ 0) :
    x * Ideal.div 1 ((r : ℝ) : EReal) = Ideal.div x ((r : ℝ) : EReal) := by
  rw [Ideal.div_coe hr, Ideal.div_coe hr, one_mul]

/-- Adding 1 once for each element of s, starting from 0, gives the number of elements of s. -/
theorem count_real (s : Finset (Fin 100000)) : (0 : EReal) + ∑ _r ∈ s, (1 : EReal) = ((s.card : ℝ) : EReal) := by
  rw [zero_add, Finset.sum_const, ← EReal.coe_one, ← EReal.coe_nsmul, nsmul_one]

/-- The larger of a count and 1 is a real number. -/
theorem max_count_one (n : ℕ) : max (((n : ℝ) : EReal)) (1 : EReal) = (((max (n : ℝ) 1) : ℝ) : EReal) := by
  rw [← EReal.coe_one]
  exact (EReal.coe_strictMono.monotone.map_max).symm

/-- … and it is at least 1, so it is not zero. -/
theorem max_count_one_ne_zero (n : ℕ) : max (n : ℝ) 1 ≠ 0 :=
  ne_of_gt (lt_of_lt_of_le one_pos (le_max_right _ _))

/-- Summing [batch r = g] · h(r, d) over the nodes is summing h(r, d) over the nodes of graph g. -/
theorem onehot_sum (h : SN.Idx → EReal) (batch : SI.Idx → BitVec 32) (g : Fin 64) (d : Fin 64) :
    (∑ r : Fin 100000, onehot batch r g * h (ix2 r d)) = ∑ r ∈ members batch g, h (ix2 r d) := by
  unfold members
  rw [Finset.sum_filter]
  refine Finset.sum_congr rfl fun r _ => ?_
  unfold onehot
  rw [ite_mul, one_mul, zero_mul]

theorem add_right_comm' (a b c : EReal) : (a + c) + b = (a + b) + c := add_right_comm a c b

/-- The accumulator after tiles 0 … n is the sum of what tiles 0 … n add (the first added to zero). -/
theorem poolAcc_eq_range (h : SN.Idx → EReal) (batch : SI.Idx → BitVec 32) (n : ℕ) (j : SW.Idx) :
    poolAcc h batch n j = ∑ t ∈ Finset.range (n + 1), tileSum h batch t j := by
  induction n with
  | zero => rw [Finset.sum_range_one]; exact zero_add _
  | succ n ih => rw [Finset.sum_range_succ, ← ih]; rfl

/-- Tile t, row p ↦ node 10000 t + p: the ten tiles of 10000 rows number the 100000 nodes, each once. -/
def tileRow : Fin 10 × Fin 10000 ≃ Fin 100000 :=
  finProdFinEquiv.trans (finCongr (by norm_num))

theorem rowOf_eq (x : Fin 10 × Fin 10000) : rowOf x.1.val x.2 = tileRow x := by
  apply Fin.ext
  have h1 := x.1.isLt
  have h2 := x.2.isLt
  simp only [rowOf, tileRow, Equiv.trans_apply, finCongr_apply_coe, finProdFinEquiv_apply_val]
  omega

/-- After all ten tiles the accumulator is the sum over all nodes: the sum over tiles of the sums over a tile's rows
    is one sum over pairs (tile, row), and the pairs are the nodes. -/
theorem poolAcc_eq_sum (h : SN.Idx → EReal) (batch : SI.Idx → BitVec 32) (j : SW.Idx) :
    poolAcc h batch 9 j = ∑ r : Fin 100000, onehot batch r (j 0) * h (ix2 r (j 1)) := by
  rw [poolAcc_eq_range, Finset.sum_range]
  unfold tileSum
  rw [← Fintype.sum_prod_type'
    (f := fun (t : Fin 10) (p : Fin 10000) => onehot batch (rowOf t.val p) (j 0) * h (ix2 (rowOf t.val p) (j 1)))]
  exact Fintype.sum_equiv tileRow _ _ (fun x => by rw [rowOf_eq])

/-- max(count g, 1) is the real number max(|members g|, 1). -/
theorem countOf_max (batch : SI.Idx → BitVec 32) (g : Fin 64) :
    max (countOf batch g) 1 = (((max ((members batch g).card : ℝ) 1) : ℝ) : EReal) := by
  rw [countOf, count_real, max_count_one]

/-- One entry of the pooled mean: the accumulated sum is the sum over the members of the graph (added to zero), and
    multiplying it by the reciprocal of the nonzero real max(count, 1) is dividing it by that real. -/
theorem pool_term (h : SN.Idx → EReal) (batch : SI.Idx → BitVec 32) (g k : Fin 64) :
    poolAcc h batch 9 (ix2 g k) * invCol batch (ix2 g (0 : Fin 1))
      = Ideal.div (0 + ∑ r ∈ members batch g, h (ix2 r k)) (max (countOf batch g) 1) := by
  have hS : poolAcc h batch 9 (ix2 g k) = 0 + ∑ r ∈ members batch g, h (ix2 r k) := by
    rw [zero_add, poolAcc_eq_sum]
    exact onehot_sum h batch g k
  have hI : invCol batch (ix2 g (0 : Fin 1)) = Ideal.div 1 (max (countOf batch g) 1) := rfl
  rw [hS, hI, countOf_max, mul_recip_eq_div _ _ (max_count_one_ne_zero _)]

/-- The two pools agree: entry by entry the pooled means are equal, so the products with WlT, their sums over k and
    the sums with the bias are the same. -/
theorem pool_bridge (h : SN.Idx → EReal) (batch : SI.Idx → BitVec 32) (WlT : SW.Idx → EReal) (bl : SB.Idx → EReal) :
    poolOut h batch WlT bl (invCol batch) = poolRef h batch WlT bl := by
  funext j
  obtain ⟨g, d, rfl⟩ : ∃ g d, j = ix2 g d := ⟨j 0, j 1, eq_ix2 j⟩
  unfold poolOut poolRef
  refine congrArg (· + bl (ix2 (0 : Fin 1) d)) (Finset.sum_congr rfl fun k _ => ?_)
  exact congrArg (· * WlT (ix2 k d)) (pool_term h batch g k)

end Cert.Spec

end
-- ==== Proof.Val.ScatterRead.lean ====
/-
  The host's accumulating scatter read at one index, over the extended reals, for the two scatters of the pool:
  rows of a 100000 × 64 array added into a 64 × 64 array at the row their graph id names, and a vector of 100000
  entries added into a vector of 64 the same way. An update whose graph id (read signed) is outside [0, 64) is dropped.
-/
import proofs.«430438_j75239237091885_2_alg».proof.ReferenceIdeal
import proofs.«430438_j75239237091885_2_alg».proof.Proof.Val.Spec
import Idealize.ShloMosaic.PureOps.Ideal
import Idealize.ShloMosaic.Lib.ValueIdx

noncomputable section

open scoped BigOperators

namespace Cert.ScatterRead

open Idealize.ShloMosaic Idealize.ShloMosaic.ValueIdx
open Cert.ReferenceIdeal

variable [Cert.ReferenceIdeal.Facts₀]

/-- The scatter of rows. -/
local notation "dR" => scatter_S64x64_S100000x1_S100000x64_1_0_0_1
/-- The scatter of a vector. -/
local notation "dC" => scatter_S64_S100000x1_S100000_n_0_0_1

/-! ## The scatter of rows: where update (r, k) lands -/

theorem rows_ivd : (dR).indexVectorDim = 1 := rfl
theorem rows_sdto : (dR).scatterDimsToOperandDims = [0] := rfl
theorem rows_sKept : (dR).sKept = [1] := rfl

/-- The one component of the start index of update `j` is read at row `j 0` of the index column. -/
theorem rows_siIdx (j : S100000x64.Idx) (c : Fin (dR).scatterDimsToOperandDims.length) :
    (dR).siIdx j c = ix2 (j 0) (0 : Fin 1) := by
  funext b
  match b with
  | ⟨0, _⟩ =>
    unfold ScatterDims.siIdx
    rw [dif_neg (by simp [rows_ivd])]
    rfl
  | ⟨1, _⟩ =>
    unfold ScatterDims.siIdx
    rw [dif_pos (by simp [rows_ivd])]
    apply Fin.ext
    have := c.isLt
    show c.val = 0
    have h : (dR).scatterDimsToOperandDims.length = 1 := rfl
    omega

/-- On the row axis the window starts at the graph id, read signed. -/
theorem rows_start0 (j : S100000x64.Idx) (idx : IVec S100000x1 32) (a : Fin S64x64.rank) (ha : a.val = 0) :
    (dR).start j idx a = (idx (ix2 (j 0) (0 : Fin 1))).toInt := by
  obtain rfl : a = 0 := Fin.ext ha
  unfold ScatterDims.start
  rw [dif_pos (by simp [rows_sdto]), rows_siIdx]
  rfl

/-- On the feature axis the window starts at 0. -/
theorem rows_start1 (j : S100000x64.Idx) (idx : IVec S100000x1 32) (a : Fin S64x64.rank) (ha : a.val = 1) :
    (dR).start j idx a = 0 := by
  obtain rfl : a = 1 := Fin.ext ha
  unfold ScatterDims.start
  rw [dif_neg (by simp [rows_sdto])]

/-- The row axis is inserted: window coordinate 0. -/
theorem rows_window0 (j : S100000x64.Idx) (a : Fin S64x64.rank) (ha : a.val = 0) : (dR).window j a = 0 := by
  obtain rfl : a = 0 := Fin.ext ha
  unfold ScatterDims.window
  rw [dif_neg (by simp [rows_sKept])]

/-- The feature axis carries the update's feature coordinate. -/
theorem rows_window1 (j : S100000x64.Idx) (a : Fin S64x64.rank) (ha : a.val = 1) : (dR).window j a = (j 1).val := by
  obtain rfl : a = 1 := Fin.ext ha
  unfold ScatterDims.window
  rw [dif_pos (by simp [rows_sKept])]
  rfl

/-- Update `j` lands at (g, d) exactly when its graph id, read signed, is g and its feature is d. -/
theorem rows_resultIdx_iff (j : S100000x64.Idx) (idx : IVec S100000x1 32) (g d : Fin 64) :
    (dR).resultIdx? j idx = some (ix2 g d) ↔ (idx (ix2 (j 0) (0 : Fin 1))).toInt = (g.val : ℤ) ∧ j 1 = d := by
  have hg := g.isLt
  have hd := d.isLt
  have hj1 := idx2_lt1 j
  unfold ScatterDims.resultIdx?
  split
  · rename_i h
    rw [Option.some.injEq]
    constructor
    · intro e
      have e0 := congrArg Fin.val (congrFun e (0 : Fin 2))
      have e1 := congrArg Fin.val (congrFun e (1 : Fin 2))
      have h0 := h (0 : Fin 2)
      change ((dR).start j idx 0 + ((dR).window j 0 : ℤ)).toNat = g.val at e0
      change ((dR).start j idx 1 + ((dR).window j 1 : ℤ)).toNat = d.val at e1
      rw [rows_start0 j idx _ rfl, rows_window0 j _ rfl] at e0 h0
      rw [rows_start1 j idx _ rfl, rows_window1 j _ rfl] at e1
      refine ⟨?_, Fin.ext ?_⟩
      · omega
      · omega
    · rintro ⟨h1, h2⟩
      refine (eq_ix2 _).trans ?_
      congr 1 <;> apply Fin.ext
      · show ((dR).start j idx 0 + ((dR).window j 0 : ℤ)).toNat = g.val
        rw [rows_start0 j idx _ rfl, rows_window0 j _ rfl, h1]
        omega
      · show ((dR).start j idx 1 + ((dR).window j 1 : ℤ)).toNat = d.val
        rw [rows_start1 j idx _ rfl, rows_window1 j _ rfl, ← h2]
        omega
  · rename_i h
    constructor
    · intro e; cases e
    · rintro ⟨h1, h2⟩
      exfalso
      apply h
      intro a
      match a with
      | ⟨0, _⟩ =>
        rw [rows_start0 j idx _ rfl, rows_window0 j _ rfl, h1]
        show (0 : ℤ) ≤ _ ∧ _ < ((64 : ℕ) : ℤ)
        omega
      | ⟨1, _⟩ =>
        rw [rows_start1 j idx _ rfl, rows_window1 j _ rfl]
        show (0 : ℤ) ≤ _ ∧ _ < ((64 : ℕ) : ℤ)
        omega

/-- The scatter of rows read at (g, d): what was there plus the sum, over the nodes of graph g, of their feature d. -/
theorem rows_scatter_apply (x : S64x64.Idx → EReal) (idx : IVec S100000x1 32) (upd : S100000x64.Idx → EReal)
    (g d : Fin 64) :
    Ideal.hostScatterAdd (dR) x idx upd (ix2 g d) = x (ix2 g d) + ∑ r ∈ Spec.members idx g, upd (ix2 r d) := by
  simp only [Ideal.hostScatterAdd]
  refine congrArg (fun t => x (ix2 g d) + t) (Eq.symm ?_)
  apply Finset.sum_bij (fun r _ => ix2 r d)
  · intro r hr
    rw [Finset.mem_filter, rows_resultIdx_iff]
    exact ⟨Finset.mem_univ _, (Finset.mem_filter.1 hr).2, rfl⟩
  · intro r1 _ r2 _ h
    exact congrFun h 0
  · intro j hj
    rw [Finset.mem_filter, rows_resultIdx_iff] at hj
    refine ⟨j 0, ?_, ?_⟩
    · exact Finset.mem_filter.2 ⟨Finset.mem_univ _, hj.2.1⟩
    · rw [← hj.2.2]
      exact (eq_ix2 j).symm
  · intro r _
    rfl

/-! ## The scatter of a vector: where update r lands -/

theorem count_ivd : (dC).indexVectorDim = 1 := rfl
theorem count_sdto : (dC).scatterDimsToOperandDims = [0] := rfl
theorem count_sKept : (dC).sKept = [] := rfl

/-- The one component of the start index of update `j` is read at row `j 0` of the index column. -/
theorem count_siIdx (j : S100000.Idx) (c : Fin (dC).scatterDimsToOperandDims.length) :
    (dC).siIdx j c = ix2 (j 0) (0 : Fin 1) := by
  funext b
  match b with
  | ⟨0, _⟩ =>
    unfold ScatterDims.siIdx
    rw [dif_neg (by simp [count_ivd])]
    rfl
  | ⟨1, _⟩ =>
    unfold ScatterDims.siIdx
    rw [dif_pos (by simp [count_ivd])]
    apply Fin.ext
    have := c.isLt
    show c.val = 0
    have h : (dC).scatterDimsToOperandDims.length = 1 := rfl
    omega

/-- The window starts at the graph id, read signed. -/
theorem count_start (j : S100000.Idx) (idx : IVec S100000x1 32) (a : Fin S64.rank) :
    (dC).start j idx a = (idx (ix2 (j 0) (0 : Fin 1))).toInt := by
  obtain rfl : a = 0 := Fin.ext (show a.val = 0 by have := a.isLt; change a.val < 1 at this; omega)
  unfold ScatterDims.start
  rw [dif_pos (by simp [count_sdto]), count_siIdx]
  rfl

/-- The one axis is inserted: window coordinate 0. -/
theorem count_window (j : S100000.Idx) (a : Fin S64.rank) : (dC).window j a = 0 := by
  unfold ScatterDims.window
  rw [dif_neg (by simp [count_sKept])]

/-- Update `j` lands at g exactly when its graph id, read signed, is g. -/
theorem count_resultIdx_iff (j : S100000.Idx) (idx : IVec S100000x1 32) (g : Fin 64) :
    (dC).resultIdx? j idx = some (ix1 g) ↔ (idx (ix2 (j 0) (0 : Fin 1))).toInt = (g.val : ℤ) := by
  have hg := g.isLt
  unfold ScatterDims.resultIdx?
  split
  · rename_i h
    rw [Option.some.injEq]
    constructor
    · intro e
      have e0 := congrArg Fin.val (congrFun e (0 : Fin 1))
      have h0 := h (0 : Fin 1)
      change ((dC).start j idx 0 + ((dC).window j 0 : ℤ)).toNat = g.val at e0
      rw [count_start, count_window] at e0 h0
      omega
    · intro h1
      refine (eq_ix1 _).trans ?_
      congr 1
      apply Fin.ext
      show ((dC).start j idx 0 + ((dC).window j 0 : ℤ)).toNat = g.val
      rw [count_start, count_window, h1]
      omega
  · rename_i h
    constructor
    · intro e; cases e
    · intro h1
      exfalso
      apply h
      intro a
      rw [count_start, count_window, h1]
      obtain rfl : a = 0 := Fin.ext (show a.val = 0 by have := a.isLt; change a.val < 1 at this; omega)
      show (0 : ℤ) ≤ _ ∧ _ < ((64 : ℕ) : ℤ)
      omega

/-- The scatter of a vector read at g: what was there plus the sum of the updates of the nodes of graph g. -/
theorem count_scatter_apply (x : S64.Idx → EReal) (idx : IVec S100000x1 32) (upd : S100000.Idx → EReal) (g : Fin 64) :
    Ideal.hostScatterAdd (dC) x idx upd (ix1 g) = x (ix1 g) + ∑ r ∈ Spec.members idx g, upd (ix1 r) := by
  simp only [Ideal.hostScatterAdd]
  refine congrArg (fun t => x (ix1 g) + t) (Eq.symm ?_)
  apply Finset.sum_bij (fun r _ => ix1 r)
  · intro r hr
    rw [Finset.mem_filter, count_resultIdx_iff]
    exact ⟨Finset.mem_univ _, (Finset.mem_filter.1 hr).2⟩
  · intro r1 _ r2 _ h
    exact congrFun h 0
  · intro j hj
    rw [Finset.mem_filter, count_resultIdx_iff] at hj
    refine ⟨j 0, ?_, ?_⟩
    · exact Finset.mem_filter.2 ⟨Finset.mem_univ _, hj.2⟩
    · exact (eq_ix1 j).symm
  · intro r _
    rfl

end Cert.ScatterRead

end
-- ==== Proof.Val.RefLayers.lean ====
/-
  The reference's value in the specification's vocabulary, over the extended reals.
  Each layer of the reference is  [max(·, 0)] ((aggr · Wr^T + b) + h · Wn^T),  aggr the scatter-add of the gathered rows;
  moving the bias past the second product (commutativity and associativity of + only) gives the specification's layer.
  The pool: per graph, the sum of the member rows divided by max(count, 1), times Wl^T, plus bl.
-/
import proofs.«430438_j75239237091885_2_alg».proof.Proof.Gen.ReferenceIdeal.Read
import proofs.«430438_j75239237091885_2_alg».proof.Proof.Val.Spec
import proofs.«430438_j75239237091885_2_alg».proof.Proof.Val.SpecLaws
import proofs.«430438_j75239237091885_2_alg».proof.Proof.Val.ScatterRead
import Idealize.ShloMosaic.Lib.ValueIdx
import Idealize.ShloMosaic.Lib.Pipeline.Value
import Idealize.ShloMosaic.PureOps.Ideal.Laws

noncomputable section

namespace Cert.RefLayers

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.ScatterRead

/-- A node-feature array, a weight matrix, a bias vector, the edge list, the graph ids: the reference's argument types. -/
abbrev TN : Type := (⟨S100000x64, .f32⟩ : BufTy).Contents (Elt Ideal)
abbrev TW : Type := (⟨S64x64, .f32⟩ : BufTy).Contents (Elt Ideal)
abbrev TB : Type := (⟨S64, .f32⟩ : BufTy).Contents (Elt Ideal)
abbrev TE : Type := (⟨S2x1600000, .i32⟩ : BufTy).Contents (Elt Ideal)
abbrev TG : Type := (⟨S100000, .i32⟩ : BufTy).Contents (Elt Ideal)

/-- The aggregation: the rows h[src] gathered along the edges and added, edge by edge, into row dst of a zero array. -/
def aggR (h : (⟨S100000x64, .f32⟩ : BufTy).Contents (Elt Ideal)) (x1 : (⟨S2x1600000, .i32⟩ : BufTy).Contents (Elt Ideal)) :
    (⟨S100000x64, .f32⟩ : BufTy).Contents (Elt Ideal) :=
  Host.scatterAdd (F := Ideal) (φ := .f32) scatter_S100000x64_S1600000x1_S1600000x64_1_0_0_1 (val_main_v11 (F := Ideal)) (val_main_v12 (F := Ideal) x1)
    (Host.gather gather_S100000x64_S1600000x1_S1600000x64_1_0_n_n_0_1_164 h (val_main_v9 (F := Ideal) x1))

/-- Layer 1 aggregates the input features. -/
theorem agg1 (x0 : TN) (x1 : TE) : val_main_v13 (F := Ideal) x0 x1 = aggR x0 x1 := rfl

/-- Layer 2 aggregates layer 1's result: its index and zero operands are the same terms under other names. -/
theorem agg2 (x0 : TN) (x1 : TE) (x3 : TW) (x4 : TB) (x5 : TW) :
    val_main_v32 (F := Ideal) x0 x1 x3 x4 x5 = aggR (val_main_v22 (F := Ideal) x0 x1 x3 x4 x5) x1 := rfl

/-- Layer 3 aggregates layer 2's result. -/
theorem agg3 (x0 : TN) (x1 : TE) (x3 : TW) (x4 : TB) (x5 x6 : TW) (x7 : TB) (x8 : TW) :
    val_main_v51 (F := Ideal) x0 x1 x3 x4 x5 x6 x7 x8 = aggR (val_main_v41 (F := Ideal) x0 x1 x3 x4 x5 x6 x7 x8) x1 := rfl

/-! ## The index functions of the layer's operations, as coordinates -/

theorem lidx_eq (i : S100000x64.Idx) (k : Fin 64) : lidx_main_v20 i k = ix2 (n0 := 100000) (n1 := 64) (i 0) k :=
  funext fun a => Fin.ext (by match a with | ⟨0, _⟩ => rfl | ⟨1, _⟩ => rfl)

theorem ridx_eq (i : S100000x64.Idx) (k : Fin 64) : ridx_main_v20 i k = ix2 (n0 := 64) (n1 := 64) k (i 1) :=
  funext fun a => Fin.ext (by match a with | ⟨0, _⟩ => rfl | ⟨1, _⟩ => rfl)

theorem tr_eq (j : S64x64.Idx) : idx_main_v19 j = ix2 (n0 := 64) (n1 := 64) (j 1) (j 0) :=
  funext fun a => Fin.ext (by match a with | ⟨0, _⟩ => rfl | ⟨1, _⟩ => rfl)

theorem bias_eq (i : S100000x64.Idx) : idx_main_v16 (idx_main_v17 i) = ix1 (n := 64) (i 1) :=
  funext fun a => Fin.ext (by match a with | ⟨0, _⟩ => rfl)

/-! ## One layer over any operands -/

/-- h · W^T at row i 0, feature i 1: the sum over k of h(i 0, k) · W(i 1, k). -/
theorem prod_apply (h : TN) (W : TW) (i : S100000x64.Idx) :
    val_main_v20 (F := Ideal) h W i
      = ∑ k : Fin 64, h (ix2 (n0 := 100000) (n1 := 64) (i 0) k) * Spec.trW W (ix2 (n0 := 64) (n1 := 64) k (i 1)) := by
  rw [val_main_v20_apply]
  refine Finset.sum_congr rfl fun k _ => ?_
  rw [val_main_v19_apply, lidx_eq, ridx_eq, tr_eq]
  rfl

/-- The bias broadcast over the rows, at row i 0, feature i 1: b(i 1). -/
theorem bias_apply (b : TB) (i : S100000x64.Idx) :
    val_main_v17 (F := Ideal) b i = Spec.rowB b (ix2 (n0 := 1) (n1 := 64) (0 : Fin 1) (i 1)) := by
  rw [val_main_v17_apply, val_main_v16_apply, bias_eq]
  rfl

/-- (A · W1^T + b) + h · W2^T is the specification's (A · W1^T + h · W2^T) + b: the bias moved past the second product. -/
theorem layer_apply (A h : TN) (W1 : TW) (b : TB) (W2 : TW) (i : S100000x64.Idx) :
    FloatOps.addf (F := Ideal) (φ := .f32)
        (FloatOps.addf (F := Ideal) (φ := .f32) (val_main_v20 (F := Ideal) A W1 i) (val_main_v17 (F := Ideal) b i))
        (val_main_v20 (F := Ideal) h W2 i)
      = Spec.gcLin A h (Spec.trW W1) (Spec.rowB b) (Spec.trW W2) i := by
  rw [prod_apply, prod_apply, bias_apply, Ideal.addf_def, Ideal.addf_def, Spec.add_right_comm']
  rfl

/-! ## The three layers -/

/-- Layer 1: max((aggr(x) · W3^T + b4) + x · W5^T, 0). -/
theorem ref_h1 (x0 : TN) (x1 : TE) (x3 : TW) (x4 : TB) (x5 : TW) :
    val_main_v22 (F := Ideal) x0 x1 x3 x4 x5
      = Spec.gcRelu (aggR x0 x1) x0 (Spec.trW x3) (Spec.rowB x4) (Spec.trW x5) := by
  funext i
  rw [val_main_v22_apply, val_main_v21_apply, val_main_v18_apply, val_main_call0_v0_apply, val_main_call0_cst_apply]
  rw [show val_main_v15 (F := Ideal) x0 x1 x3 = val_main_v20 (F := Ideal) (aggR x0 x1) x3 from rfl, layer_apply,
    Ideal.maximumf_def, Ideal.ofBits_def, Ideal.ofBits_zero_f32]
  rfl

/-- Layer 2: the same over layer 1's result. -/
theorem ref_h2 (x0 : TN) (x1 : TE) (x3 : TW) (x4 : TB) (x5 x6 : TW) (x7 : TB) (x8 : TW) :
    val_main_v41 (F := Ideal) x0 x1 x3 x4 x5 x6 x7 x8
      = Spec.gcRelu (aggR (val_main_v22 (F := Ideal) x0 x1 x3 x4 x5) x1) (val_main_v22 (F := Ideal) x0 x1 x3 x4 x5)
          (Spec.trW x6) (Spec.rowB x7) (Spec.trW x8) := by
  funext i
  rw [val_main_v41_apply, val_main_v40_apply, val_main_v37_apply, val_main_call1_v0_apply, val_main_call1_cst_apply]
  rw [show val_main_v34 (F := Ideal) x0 x1 x3 x4 x5 x6
        = val_main_v20 (F := Ideal) (aggR (val_main_v22 (F := Ideal) x0 x1 x3 x4 x5) x1) x6 from rfl,
    show val_main_v36 (F := Ideal) x7 = val_main_v17 (F := Ideal) x7 from rfl,
    show val_main_v39 (F := Ideal) x0 x1 x3 x4 x5 x8
        = val_main_v20 (F := Ideal) (val_main_v22 (F := Ideal) x0 x1 x3 x4 x5) x8 from rfl,
    layer_apply, Ideal.maximumf_def, Ideal.ofBits_def, Ideal.ofBits_zero_f32]
  rfl

/-- Layer 3: the same over layer 2's result, without the maximum. -/
theorem ref_h3 (x0 : TN) (x1 : TE) (x3 : TW) (x4 : TB) (x5 x6 : TW) (x7 : TB) (x8 x9 : TW) (x10 : TB) (x11 : TW) :
    val_main_v59 (F := Ideal) x0 x1 x3 x4 x5 x6 x7 x8 x9 x10 x11
      = Spec.gcLin (aggR (val_main_v41 (F := Ideal) x0 x1 x3 x4 x5 x6 x7 x8) x1)
          (val_main_v41 (F := Ideal) x0 x1 x3 x4 x5 x6 x7 x8) (Spec.trW x9) (Spec.rowB x10) (Spec.trW x11) := by
  funext i
  rw [val_main_v59_apply, val_main_v56_apply]
  rw [show val_main_v53 (F := Ideal) x0 x1 x3 x4 x5 x6 x7 x8 x9
        = val_main_v20 (F := Ideal) (aggR (val_main_v41 (F := Ideal) x0 x1 x3 x4 x5 x6 x7 x8) x1) x9 from rfl,
    show val_main_v55 (F := Ideal) x10 = val_main_v17 (F := Ideal) x10 from rfl,
    show val_main_v58 (F := Ideal) x0 x1 x3 x4 x5 x6 x7 x8 x11
        = val_main_v20 (F := Ideal) (val_main_v41 (F := Ideal) x0 x1 x3 x4 x5 x6 x7 x8) x11 from rfl,
    layer_apply]

/-! ## The pool -/

/-- The word 0x3F800000 is the number 1. -/
theorem ofBits_one_f32 : Ideal.ofBits .f32 0x3F800000#32 = 1 := by
  simp [Ideal.ofBits, Ideal.ieee, -EReal.coe_mul]; norm_num

/-- The graph ids broadcast to a column are the specification's column. -/
theorem col_eq (x2 : TG) : val_main_v61 (F := Ideal) x2 = Spec.colI x2 := by
  funext j
  rw [val_main_v61_apply]
  exact congrArg x2 (funext fun a => Fin.ext (by match a with | ⟨0, _⟩ => rfl))

/-- Rows added into a 64 × 64 array by graph id, over any operands: entry (g, d) gains the (·, d) entries of the
    rows whose id is g. -/
theorem rows_read (x : S64x64.Idx → EReal) (idx : IVec S100000x1 32) (upd : S100000x64.Idx → EReal) (g d : Fin 64) :
    Host.scatterAdd (F := Ideal) (φ := .f32) scatter_S64x64_S100000x1_S100000x64_1_0_0_1 x idx upd (ix2 g d)
      = x (ix2 g d) + ∑ r ∈ Spec.members idx g, upd (ix2 r d) :=
  rows_scatter_apply x idx upd g d

/-- Numbers added into a vector of 64 by graph id, over any operands: entry g gains the entries whose id is g. -/
theorem count_read (x : S64.Idx → EReal) (idx : IVec S100000x1 32) (upd : S100000.Idx → EReal) (g : Fin 64) :
    Host.scatterAdd (F := Ideal) (φ := .f32) scatter_S64_S100000x1_S100000_n_0_0_1 x idx upd (ix1 g)
      = x (ix1 g) + ∑ r ∈ Spec.members idx g, upd (ix1 r) :=
  count_scatter_apply x idx upd g

/-- The per-graph sums of any node-feature array at (g, d): zero plus the sum over the graph's members. -/
theorem sums_at (h : TN) (x2 : TG) (g d : Fin 64) :
    Host.scatterAdd (F := Ideal) (φ := .f32) scatter_S64x64_S100000x1_S100000x64_1_0_0_1 (val_main_v60 (F := Ideal))
        (val_main_v61 (F := Ideal) x2) h (ix2 g d)
      = 0 + ∑ r ∈ Spec.members (Spec.colI x2) g, h (ix2 (n0 := 100000) (n1 := 64) r d) := by
  rw [rows_read, val_main_v60_apply, val_main_cst_7_apply, Ideal.ofBits_def, Ideal.ofBits_zero_f32, col_eq]

/-- The same at any index. -/
theorem sums_apply (h : TN) (x2 : TG) (j : S64x64.Idx) :
    Host.scatterAdd (F := Ideal) (φ := .f32) scatter_S64x64_S100000x1_S100000x64_1_0_0_1 (val_main_v60 (F := Ideal))
        (val_main_v61 (F := Ideal) x2) h j
      = 0 + ∑ r ∈ Spec.members (Spec.colI x2) (j 0), h (ix2 (n0 := 100000) (n1 := 64) r (j 1)) := by
  obtain ⟨g, d, rfl⟩ : ∃ (g : Fin 64) (d : Fin 64), j = ix2 g d := ⟨j 0, j 1, eq_ix2 j⟩
  exact sums_at h x2 g d

/-- The per-graph counts at g: zero plus one for each member. -/
theorem count_at (x2 : TG) (g : Fin 64) :
    val_main_v66 (F := Ideal) x2 (ix1 g) = Spec.countOf (Spec.colI x2) g := by
  unfold val_main_v66
  rw [count_read, val_main_v64_apply, val_main_cst_9_apply, Ideal.ofBits_def, Ideal.ofBits_zero_f32,
    show val_main_v65 (F := Ideal) x2 = Spec.colI x2 from col_eq x2]
  unfold Spec.countOf
  refine congrArg (0 + ·) (Finset.sum_congr rfl fun r _ => ?_)
  rw [val_main_v63_apply, val_main_cst_8_apply, Ideal.ofBits_def, ofBits_one_f32]

/-- The same at any index. -/
theorem count_apply (x2 : TG) (j : S64.Idx) :
    val_main_v66 (F := Ideal) x2 j = Spec.countOf (Spec.colI x2) (j 0) := by
  obtain ⟨g, rfl⟩ : ∃ g : Fin 64, j = ix1 g := ⟨j 0, eq_ix1 j⟩
  exact count_at x2 g

/-- The divisor at (g, ·): max(count g, 1). -/
theorem denom_apply (x2 : TG) (j : S64x64.Idx) :
    val_main_v70 (F := Ideal) x2 j = max (Spec.countOf (Spec.colI x2) (j 0)) 1 := by
  rw [val_main_v70_apply, val_main_v69_apply, val_main_v68_apply, val_main_v67_apply, val_main_cst_10_apply,
    Ideal.maximumf_def, Ideal.ofBits_def, ofBits_one_f32]
  exact congrArg (fun c : EReal => max c 1) (count_apply x2 _)

/-- The result: per graph, the member rows' sum over max(count, 1), times W12^T, plus b13. -/
theorem ref_out (x0 : TN) (x1 : TE) (x2 : TG) (x3 : TW) (x4 : TB) (x5 x6 : TW) (x7 : TB) (x8 x9 : TW) (x10 : TB)
    (x11 x12 : TW) (x13 : TB) :
    val_main_v76 (F := Ideal) x0 x1 x2 x3 x4 x5 x6 x7 x8 x9 x10 x11 x12 x13
      = Spec.poolRef (val_main_v59 (F := Ideal) x0 x1 x3 x4 x5 x6 x7 x8 x9 x10 x11) (Spec.colI x2) (Spec.trW x12)
          (Spec.rowB x13) := by
  funext j
  rw [val_main_v76_apply, val_main_v73_apply, val_main_v75_apply, val_main_v74_apply, Ideal.addf_def]
  unfold Spec.poolRef
  refine congrArg₂ (· + ·) (Finset.sum_congr rfl fun k _ => ?_) ?_
  · rw [val_main_v71_apply, val_main_v72_apply, denom_apply, Ideal.hostDivf_def]
    have hs := sums_apply (val_main_v59 (F := Ideal) x0 x1 x3 x4 x5 x6 x7 x8 x9 x10 x11) x2 (lidx_main_v73 j k)
    have hw : x12 (idx_main_v72 (ridx_main_v73 j k)) = Spec.trW x12 (ix2 (n0 := 64) (n1 := 64) k (j 1)) :=
      congrArg x12 (funext fun a => Fin.ext (by match a with | ⟨0, _⟩ => rfl | ⟨1, _⟩ => rfl))
    exact congrArg₂ (fun a b : EReal => a * b) (congrArg₂ Ideal.div hs rfl) hw
  · exact congrArg x13 (funext fun a => Fin.ext (by match a with | ⟨0, _⟩ => rfl))

end Cert.RefLayers

end
-- ==== Proof.Val.GcValue0.lean ====
/-
  The first graph-convolution call (pipeline 0): the value of its output array after the call, at the ideal values.
  The call runs over ten row tiles. Tile t holds rows [10000 t, 10000 (t+1)) of the aggregated messages A, of the
  node features h and of the result, and the two transposed weight matrices WrT, WnT and the bias row b whole.
  On a tile the body computes, at row p and feature d,
      max( sum_k A(p,k) WrT(k,d) + sum_k h(p,k) WnT(k,d) + b(0,d), 0 ):
  both products go into a zero accumulator, and the changes of float format and the same-shape casts around them are
  the identity on extended reals. Reading each input tile back as rows of its array (row p of tile t is node
  10000 t + p), tile t of the result is tile t of ONE function of the five whole arrays; the ten tiles cover the
  100000 rows (node r lies in tile r / 10000), so after the call the output array is that function.
-/
import proofs.«430438_j75239237091885_2_alg».proof.Proof.KI.Gc0
import proofs.«430438_j75239237091885_2_alg».proof.Proof.Val.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.GcValue0

open Cert.KernelIdeal Cert.KernelIdeal.Gen Idealize.ShloMosaic Idealize.ShloMosaic.TcCoe Idealize.SL.Sem
open Idealize.ShloMosaic.ValueIdx
open Idealize.ShloMosaic.Pipeline (Dat)

/-! ## One matrix product of the body, read at an entry -/

/-- The left operand is read at the output's row … -/
theorem lhs_row (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- … and at the contraction index as its column; -/
theorem lhs_col (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- the right operand at the contraction index as its row … -/
theorem rhs_row (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- … and at the output's column. -/
theorem rhs_col (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A [10000,64] by [64,64] product into the zero accumulator: entry (p, d) is the sum over j of l(p, j) r(j, d). -/
theorem matmul_at {φ₁ φ₂ : FTy} (l : FVec Ideal S10000x64 φ₁) (r : FVec Ideal S64x64 φ₂) (p : Fin 10000) (d : Fin 64) :
    matmul dot_S10000x64_S64x64_S10000x64_1_0_0_1_n_n none l r (constant (F := Ideal) S10000x64 .f32 0x00000000#32) (ix2 p d)
      = ∑ k : Fin 64, l (ix2 p k) * r (ix2 k d) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have hl : dot_S10000x64_S64x64_S10000x64_1_0_0_1_n_n.lhsIdx (ix2 p d) ((contrEquiv1 dot_S10000x64_S64x64_S10000x64_1_0_0_1_n_n 64 rfl rfl).symm k) = ix2 p k := funext fun a => Fin.ext (by
    match a with
    | ⟨0, _⟩ => exact lhs_row _ _
    | ⟨1, _⟩ => exact (lhs_col _ _).trans hk)
  have hr : dot_S10000x64_S64x64_S10000x64_1_0_0_1_n_n.rhsIdx (ix2 p d) ((contrEquiv1 dot_S10000x64_S64x64_S10000x64_1_0_0_1_n_n 64 rfl rfl).symm k) = ix2 k d := funext fun a => Fin.ext (by
    match a with
    | ⟨0, _⟩ => exact (rhs_row _ _).trans hk
    | ⟨1, _⟩ => exact rhs_col _ _)
  rw [hl, hr]

/-! ## The body's result at an entry -/

/-- Entry (p, d) of what the body stores, from the five blocks it loads; the format changes and the same-shape casts
    are the identity on extended reals. -/
theorem pay_at (x0 : Vec Ideal S10000x64 .f32) (x1 : Vec Ideal S10000x64 .f32) (x2 : Vec Ideal S64x64 .f32) (x4 : Vec Ideal S64x64 .f32)
    (x3 : Vec Ideal S1x64 .f32) (p : Fin 10000) (d : Fin 64) :
    k0_pay1 (F := Ideal) x0 x1 x2 x4 x3 (ix2 p d)
      = max (((∑ k : Fin 64, x0 (ix2 p k) * x2 (ix2 k d)) + (∑ k : Fin 64, x1 (ix2 p k) * x4 (ix2 k d))) + x3 (ix2 (0 : Fin 1) d)) 0 := by
  unfold k0_pay1
  simp only [shapeCast_self]
  rw [truncf_apply, maximumf_apply, addf_apply, addf_apply, broadcast_apply, matmul_at, matmul_at, broadcastTo_1b_ab_apply]
  simp only [truncf_apply]
  rw [show (FloatOps.ofBits (F := Ideal) FTy.f32 0x00000000#32) = (0 : EReal) from Ideal.ofBits_zero_f32]

/-! ## From the tiles to the array -/

variable (V : (c : Dev nD) → (b : Ref sig .tc) → Buf (Elt Ideal) ((c : Thread nD τ).loc b))

theorem hz : (![0, 0] : Fin 2 → Nat) = fun _ => 0 := funext fun a => by fin_cases a <;> rfl

/-- The index maps over the ten tiles: the row-tiled windows 0, 1, 5 sit at block (t, 0), the whole windows 2, 3, 4 at (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem tile_lt (t : Fin cfg0.N) : t.val < 10 := lt_of_lt_of_eq t.isLt N_0

/-- Row p of tile t is node 10000 t + p. -/
def node (t : Fin cfg0.N) (p : Fin 10000) : Fin 100000 := ⟨10000 * t.val + p.val, by have := tile_lt t; omega⟩

/-- Tile t of the aggregated messages at (p, j) is the array at (10000 t + p, j). -/
theorem aggr_at (c : Dev nD) (t : Fin cfg0.N) (p : Fin 10000) (j : Fin 64) :
    Gc0.iblk0 V c 0 t (ix2 p j) = V c (Pipeline.arrRef spec0 0) (ix2 (node t p) j) := by
  have er : win0_0.index t (0 : Fin 2) = t.val := (idx_facts t).1
  have ec : win0_0.index t (1 : Fin 2) = 0 := (idx_facts t).2.1
  show V c (Pipeline.arrRef spec0 0) (((cfg0.win 0).blk t).view.emb (ix2 p j)) = _
  refine congrArg _ (funext fun a => Fin.ext ?_)
  match a with
  | ⟨0, _⟩ => show win0_0.index t (0 : Fin 2) * 10000 + 1 * p.val = 10000 * t.val + p.val; rw [er]; omega
  | ⟨1, _⟩ => show win0_0.index t (1 : Fin 2) * 64 + 1 * j.val = j.val; rw [ec]; omega

/-- Tile t of the node features at (p, j) is the array at (10000 t + p, j). -/
theorem feat_at (c : Dev nD) (t : Fin cfg0.N) (p : Fin 10000) (j : Fin 64) :
    Gc0.iblk0 V c 1 t (ix2 p j) = V c (Pipeline.arrRef spec0 1) (ix2 (node t p) j) := by
  have er : win0_1.index t (0 : Fin 2) = t.val := (idx_facts t).2.2.1
  have ec : win0_1.index t (1 : Fin 2) = 0 := (idx_facts t).2.2.2.1
  show V c (Pipeline.arrRef spec0 1) (((cfg0.win 1).blk t).view.emb (ix2 p j)) = _
  refine congrArg _ (funext fun a => Fin.ext ?_)
  match a with
  | ⟨0, _⟩ => show win0_1.index t (0 : Fin 2) * 10000 + 1 * p.val = 10000 * t.val + p.val; rw [er]; omega
  | ⟨1, _⟩ => show win0_1.index t (1 : Fin 2) * 64 + 1 * j.val = j.val; rw [ec]; omega

/-- The first weight matrix is staged whole at every tile. -/
theorem wr_at (c : Dev nD) (t : Fin cfg0.N) (i : Fin 64) (d : Fin 64) :
    Gc0.iblk0 V c 2 t (ix2 i d) = V c (Pipeline.arrRef spec0 2) (ix2 i d) := by
  have er : win0_2.index t (0 : Fin 2) = 0 := (idx_facts t).2.2.2.2.1
  have ec : win0_2.index t (1 : Fin 2) = 0 := (idx_facts t).2.2.2.2.2.1
  show V c (Pipeline.arrRef spec0 2) (((cfg0.win 2).blk t).view.emb (ix2 i d)) = _
  refine congrArg _ (funext fun a => Fin.ext ?_)
  match a with
  | ⟨0, _⟩ => show win0_2.index t (0 : Fin 2) * 64 + 1 * i.val = i.val; rw [er]; omega
  | ⟨1, _⟩ => show win0_2.index t (1 : Fin 2) * 64 + 1 * d.val = d.val; rw [ec]; omega

/-- So is the bias row. -/
theorem bias_at (c : Dev nD) (t : Fin cfg0.N) (d : Fin 64) :
    Gc0.iblk0 V c 3 t (ix2 (0 : Fin 1) d) = V c (Pipeline.arrRef spec0 3) (ix2 (0 : Fin 1) d) := by
  have er : win0_3.index t (0 : Fin 2) = 0 := (idx_facts t).2.2.2.2.2.2.1
  have ec : win0_3.index t (1 : Fin 2) = 0 := (idx_facts t).2.2.2.2.2.2.2.1
  show V c (Pipeline.arrRef spec0 3) (((cfg0.win 3).blk t).view.emb (ix2 (0 : Fin 1) d)) = _
  refine congrArg _ (funext fun a => Fin.ext ?_)
  match a with
  | ⟨0, _⟩ => show win0_3.index t (0 : Fin 2) * 1 + 1 * (0 : Fin 1).val = (0 : Fin 1).val; rw [er]; rfl
  | ⟨1, _⟩ => show win0_3.index t (1 : Fin 2) * 64 + 1 * d.val = d.val; rw [ec]; omega

/-- And the second weight matrix. -/
theorem wn_at (c : Dev nD) (t : Fin cfg0.N) (i : Fin 64) (d : Fin 64) :
    Gc0.iblk0 V c 4 t (ix2 i d) = V c (Pipeline.arrRef spec0 4) (ix2 i d) := by
  have er : win0_4.index t (0 : Fin 2) = 0 := (idx_facts t).2.2.2.2.2.2.2.2.1
  have ec : win0_4.index t (1 : Fin 2) = 0 := (idx_facts t).2.2.2.2.2.2.2.2.2.1
  show V c (Pipeline.arrRef spec0 4) (((cfg0.win 4).blk t).view.emb (ix2 i d)) = _
  refine congrArg _ (funext fun a => Fin.ext ?_)
  match a with
  | ⟨0, _⟩ => show win0_4.index t (0 : Fin 2) * 64 + 1 * i.val = i.val; rw [er]; omega
  | ⟨1, _⟩ => show win0_4.index t (1 : Fin 2) * 64 + 1 * d.val = d.val; rw [ec]; omega

/-- Entry (p, d) of the output's tile t sits in the array at (10000 t + p, d). -/
theorem out_emb (t : Fin cfg0.N) (p : Fin 10000) (d : Fin 64) :
    ((cfg0.win 5).blk t).view.emb (ix2 p d) = (ix2 (node t p) d : S100000x64.Idx) := by
  have er : win0_5.index t (0 : Fin 2) = t.val := (idx_facts t).2.2.2.2.2.2.2.2.2.2.1
  have ec : win0_5.index t (1 : Fin 2) = 0 := (idx_facts t).2.2.2.2.2.2.2.2.2.2.2
  refine funext fun a => Fin.ext ?_
  match a with
  | ⟨0, _⟩ => show win0_5.index t (0 : Fin 2) * 10000 + 1 * p.val = 10000 * t.val + p.val; rw [er]; omega
  | ⟨1, _⟩ => show win0_5.index t (1 : Fin 2) * 64 + 1 * d.val = d.val; rw [ec]; omega

/-- The layer at a node and a feature, written out. -/
theorem layer_at (A h : Spec.SN.Idx → EReal) (WrT : Spec.SW.Idx → EReal) (b : Spec.SB.Idx → EReal) (WnT : Spec.SW.Idx → EReal)
    (r : Fin 100000) (d : Fin 64) :
    Spec.gcRelu A h WrT b WnT (ix2 r d)
      = max (((∑ k : Fin 64, A (ix2 r k) * WrT (ix2 k d)) + (∑ k : Fin 64, h (ix2 r k) * WnT (ix2 k d))) + b (ix2 (0 : Fin 1) d)) 0 := rfl

/-- What tile t writes back is tile t of the layer applied to the five whole arrays. -/
theorem flushed_eq (c : Dev nD) (t : Fin cfg0.N) :
    (Gc0.dat0 (F := Ideal) V c).flushed 5 t = ((cfg0.win 5).blk t).view.read (Elt Ideal)
      (Spec.gcRelu (V c (Pipeline.arrRef spec0 0)) (V c (Pipeline.arrRef spec0 1)) (V c (Pipeline.arrRef spec0 2)) (V c (Pipeline.arrRef spec0 3)) (V c (Pipeline.arrRef spec0 4))) := by
  show (cfg0.win 5).cut (grid0.coords t) ((Gc0.dat0 V c).after 5 t) = _
  rw [Gc0.after0_5]
  unfold Gc0.out0_5
  rw [View.canon_unit_zero hz]
  funext y
  obtain ⟨p, d, rfl⟩ : ∃ (p : Fin 10000) (d : Fin 64), y = ix2 p d := ⟨y 0, y 1, eq_ix2 y⟩
  show k0_pay1 (F := Ideal) (Gc0.iblk0 V c 0 t) (Gc0.iblk0 V c 1 t) (Gc0.iblk0 V c 2 t) (Gc0.iblk0 V c 4 t) (Gc0.iblk0 V c 3 t) (ix2 p d)
    = Spec.gcRelu (V c (Pipeline.arrRef spec0 0)) (V c (Pipeline.arrRef spec0 1)) (V c (Pipeline.arrRef spec0 2)) (V c (Pipeline.arrRef spec0 3)) (V c (Pipeline.arrRef spec0 4))
        (((cfg0.win 5).blk t).view.emb (ix2 p d))
  refine (pay_at (Gc0.iblk0 V c 0 t) (Gc0.iblk0 V c 1 t) (Gc0.iblk0 V c 2 t) (Gc0.iblk0 V c 4 t) (Gc0.iblk0 V c 3 t) p d).trans ?_
  rw [out_emb, layer_at, bias_at]
  simp only [aggr_at, feat_at, wr_at, wn_at]

/-- An index of the array is in tile t's block iff each coordinate is in the block's range on its axis. -/
theorem mem_blk (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole (Pipeline.arrRef spec0 5)).slice (win0_5.rect t)).set ↔ _
  rw [View.set_slice_whole, Rect.mem_set_unit]
  exact Iff.rfl

/-- The ten tiles cover the array: node r lies in tile r / 10000. -/
theorem cover (i : S100000x64.Idx) : ∃ t : Fin cfg0.N, (cfg0.win 5).flush t = true ∧ i ∈ ((cfg0.win 5).blk t).view.set := by
  have hr : (i 0).val < 100000 := (i 0).isLt
  have hc : (i 1).val < 64 := (i 1).isLt
  have hN : cfg0.N = 10 := N_0
  refine ⟨⟨(i 0).val / 10000, by rw [hN]; omega⟩, flush0_5 _, ?_⟩
  rw [mem_blk]
  have er := (idx_facts ⟨(i 0).val / 10000, by rw [hN]; omega⟩).2.2.2.2.2.2.2.2.2.2.1
  have ec := (idx_facts ⟨(i 0).val / 10000, by rw [hN]; omega⟩).2.2.2.2.2.2.2.2.2.2.2
  intro a
  match a with
  | ⟨0, _⟩ =>
    show win0_5.index _ (0 : Fin 2) * 10000 ≤ (i 0).val ∧ (i 0).val < win0_5.index _ (0 : Fin 2) * 10000 + 10000
    rw [er]; show (i 0).val / 10000 * 10000 ≤ (i 0).val ∧ (i 0).val < (i 0).val / 10000 * 10000 + 10000; omega
  | ⟨1, _⟩ =>
    show win0_5.index _ (1 : Fin 2) * 64 ≤ (i 1).val ∧ (i 1).val < win0_5.index _ (1 : Fin 2) * 64 + 64
    rw [ec]; omega

/-- After the call the output array is the layer applied to the call's five input arrays, entry by entry. -/
theorem final0 (c : Dev nD) :
    (Gc0.dat0 (F := Ideal) V c).arrAt 5 cfg0.N
      = Spec.gcRelu (V c (Pipeline.arrRef spec0 0)) (V c (Pipeline.arrRef spec0 1)) (V c (Pipeline.arrRef spec0 2)) (V c (Pipeline.arrRef spec0 3)) (V c (Pipeline.arrRef spec0 4)) :=
  (Gc0.dat0 (F := Ideal) V c).arrAt_eq_of_cover 5 _ (fun t _ => flushed_eq V c t) cover

end Cert.KernelIdeal.GcValue0

end
-- ==== Proof.Val.GcValue1.lean ====
/-
  The graph-convolution call of pipeline 1: the value of its output array after the call, at the ideal values.
  The call runs over ten row tiles. Tile t holds rows [10000 t, 10000 (t+1)) of the aggregated messages A, of the
  node features h and of the result, and the two transposed weight matrices WrT, WnT and the bias row b whole.
  On a tile the body computes, at row p and feature d,
      max( sum_k A(p,k) WrT(k,d) + sum_k h(p,k) WnT(k,d) + b(0,d), 0 ):
  both products go into a zero accumulator, and the changes of float format and the same-shape casts around them are
  the identity on extended reals. Reading each input tile back as rows of its array (row p of tile t is node
  10000 t + p), tile t of the result is tile t of ONE function of the five whole arrays; the ten tiles cover the
  100000 rows (node r lies in tile r / 10000), so after the call the output array is that function.
-/
import proofs.«430438_j75239237091885_2_alg».proof.Proof.KI.Gc1
import proofs.«430438_j75239237091885_2_alg».proof.Proof.Val.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.GcValue1

open Cert.KernelIdeal Cert.KernelIdeal.Gen Idealize.ShloMosaic Idealize.ShloMosaic.TcCoe Idealize.SL.Sem
open Idealize.ShloMosaic.ValueIdx
open Idealize.ShloMosaic.Pipeline (Dat)

/-! ## One matrix product of the body, read at an entry -/

/-- The left operand is read at the output's row … -/
theorem lhs_row (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- … and at the contraction index as its column; -/
theorem lhs_col (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- the right operand at the contraction index as its row … -/
theorem rhs_row (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- … and at the output's column. -/
theorem rhs_col (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A [10000,64] by [64,64] product into the zero accumulator: entry (p, d) is the sum over j of l(p, j) r(j, d). -/
theorem matmul_at {φ₁ φ₂ : FTy} (l : FVec Ideal S10000x64 φ₁) (r : FVec Ideal S64x64 φ₂) (p : Fin 10000) (d : Fin 64) :
    matmul dot_S10000x64_S64x64_S10000x64_1_0_0_1_n_n none l r (constant (F := Ideal) S10000x64 .f32 0x00000000#32) (ix2 p d)
      = ∑ k : Fin 64, l (ix2 p k) * r (ix2 k d) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have hl : dot_S10000x64_S64x64_S10000x64_1_0_0_1_n_n.lhsIdx (ix2 p d) ((contrEquiv1 dot_S10000x64_S64x64_S10000x64_1_0_0_1_n_n 64 rfl rfl).symm k) = ix2 p k := funext fun a => Fin.ext (by
    match a with
    | ⟨0, _⟩ => exact lhs_row _ _
    | ⟨1, _⟩ => exact (lhs_col _ _).trans hk)
  have hr : dot_S10000x64_S64x64_S10000x64_1_0_0_1_n_n.rhsIdx (ix2 p d) ((contrEquiv1 dot_S10000x64_S64x64_S10000x64_1_0_0_1_n_n 64 rfl rfl).symm k) = ix2 k d := funext fun a => Fin.ext (by
    match a with
    | ⟨0, _⟩ => exact (rhs_row _ _).trans hk
    | ⟨1, _⟩ => exact rhs_col _ _)
  rw [hl, hr]

/-! ## The body's result at an entry -/

/-- Entry (p, d) of what the body stores, from the five blocks it loads; the format changes and the same-shape casts
    are the identity on extended reals. -/
theorem pay_at (x0 : Vec Ideal S10000x64 .f32) (x1 : Vec Ideal S10000x64 .bf16) (x2 : Vec Ideal S64x64 .f32) (x4 : Vec Ideal S64x64 .f32)
    (x3 : Vec Ideal S1x64 .f32) (p : Fin 10000) (d : Fin 64) :
    k1_pay1 (F := Ideal) x0 x1 x2 x4 x3 (ix2 p d)
      = max (((∑ k : Fin 64, x0 (ix2 p k) * x2 (ix2 k d)) + (∑ k : Fin 64, x1 (ix2 p k) * x4 (ix2 k d))) + x3 (ix2 (0 : Fin 1) d)) 0 := by
  unfold k1_pay1
  simp only [shapeCast_self]
  rw [truncf_apply, maximumf_apply, addf_apply, addf_apply, broadcast_apply, matmul_at, matmul_at, broadcastTo_1b_ab_apply]
  simp only [truncf_apply]
  rw [show (FloatOps.ofBits (F := Ideal) FTy.f32 0x00000000#32) = (0 : EReal) from Ideal.ofBits_zero_f32]

/-! ## From the tiles to the array -/

variable (V : (c : Dev nD) → (b : Ref sig .tc) → Buf (Elt Ideal) ((c : Thread nD τ).loc b))

theorem hz : (![0, 0] : Fin 2 → Nat) = fun _ => 0 := funext fun a => by fin_cases a <;> rfl

/-- The index maps over the ten tiles: the row-tiled windows 0, 1, 5 sit at block (t, 0), the whole windows 2, 3, 4 at (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem tile_lt (t : Fin cfg1.N) : t.val < 10 := lt_of_lt_of_eq t.isLt N_1

/-- Row p of tile t is node 10000 t + p. -/
def node (t : Fin cfg1.N) (p : Fin 10000) : Fin 100000 := ⟨10000 * t.val + p.val, by have := tile_lt t; omega⟩

/-- Tile t of the aggregated messages at (p, j) is the array at (10000 t + p, j). -/
theorem aggr_at (c : Dev nD) (t : Fin cfg1.N) (p : Fin 10000) (j : Fin 64) :
    Gc1.iblk1 V c 0 t (ix2 p j) = V c (Pipeline.arrRef spec1 0) (ix2 (node t p) j) := by
  have er : win1_0.index t (0 : Fin 2) = t.val := (idx_facts t).1
  have ec : win1_0.index t (1 : Fin 2) = 0 := (idx_facts t).2.1
  show V c (Pipeline.arrRef spec1 0) (((cfg1.win 0).blk t).view.emb (ix2 p j)) = _
  refine congrArg _ (funext fun a => Fin.ext ?_)
  match a with
  | ⟨0, _⟩ => show win1_0.index t (0 : Fin 2) * 10000 + 1 * p.val = 10000 * t.val + p.val; rw [er]; omega
  | ⟨1, _⟩ => show win1_0.index t (1 : Fin 2) * 64 + 1 * j.val = j.val; rw [ec]; omega

/-- Tile t of the node features at (p, j) is the array at (10000 t + p, j). -/
theorem feat_at (c : Dev nD) (t : Fin cfg1.N) (p : Fin 10000) (j : Fin 64) :
    Gc1.iblk1 V c 1 t (ix2 p j) = V c (Pipeline.arrRef spec1 1) (ix2 (node t p) j) := by
  have er : win1_1.index t (0 : Fin 2) = t.val := (idx_facts t).2.2.1
  have ec : win1_1.index t (1 : Fin 2) = 0 := (idx_facts t).2.2.2.1
  show V c (Pipeline.arrRef spec1 1) (((cfg1.win 1).blk t).view.emb (ix2 p j)) = _
  refine congrArg _ (funext fun a => Fin.ext ?_)
  match a with
  | ⟨0, _⟩ => show win1_1.index t (0 : Fin 2) * 10000 + 1 * p.val = 10000 * t.val + p.val; rw [er]; omega
  | ⟨1, _⟩ => show win1_1.index t (1 : Fin 2) * 64 + 1 * j.val = j.val; rw [ec]; omega

/-- The first weight matrix is staged whole at every tile. -/
theorem wr_at (c : Dev nD) (t : Fin cfg1.N) (i : Fin 64) (d : Fin 64) :
    Gc1.iblk1 V c 2 t (ix2 i d) = V c (Pipeline.arrRef spec1 2) (ix2 i d) := by
  have er : win1_2.index t (0 : Fin 2) = 0 := (idx_facts t).2.2.2.2.1
  have ec : win1_2.index t (1 : Fin 2) = 0 := (idx_facts t).2.2.2.2.2.1
  show V c (Pipeline.arrRef spec1 2) (((cfg1.win 2).blk t).view.emb (ix2 i d)) = _
  refine congrArg _ (funext fun a => Fin.ext ?_)
  match a with
  | ⟨0, _⟩ => show win1_2.index t (0 : Fin 2) * 64 + 1 * i.val = i.val; rw [er]; omega
  | ⟨1, _⟩ => show win1_2.index t (1 : Fin 2) * 64 + 1 * d.val = d.val; rw [ec]; omega

/-- So is the bias row. -/
theorem bias_at (c : Dev nD) (t : Fin cfg1.N) (d : Fin 64) :
    Gc1.iblk1 V c 3 t (ix2 (0 : Fin 1) d) = V c (Pipeline.arrRef spec1 3) (ix2 (0 : Fin 1) d) := by
  have er : win1_3.index t (0 : Fin 2) = 0 := (idx_facts t).2.2.2.2.2.2.1
  have ec : win1_3.index t (1 : Fin 2) = 0 := (idx_facts t).2.2.2.2.2.2.2.1
  show V c (Pipeline.arrRef spec1 3) (((cfg1.win 3).blk t).view.emb (ix2 (0 : Fin 1) d)) = _
  refine congrArg _ (funext fun a => Fin.ext ?_)
  match a with
  | ⟨0, _⟩ => show win1_3.index t (0 : Fin 2) * 1 + 1 * (0 : Fin 1).val = (0 : Fin 1).val; rw [er]; rfl
  | ⟨1, _⟩ => show win1_3.index t (1 : Fin 2) * 64 + 1 * d.val = d.val; rw [ec]; omega

/-- And the second weight matrix. -/
theorem wn_at (c : Dev nD) (t : Fin cfg1.N) (i : Fin 64) (d : Fin 64) :
    Gc1.iblk1 V c 4 t (ix2 i d) = V c (Pipeline.arrRef spec1 4) (ix2 i d) := by
  have er : win1_4.index t (0 : Fin 2) = 0 := (idx_facts t).2.2.2.2.2.2.2.2.1
  have ec : win1_4.index t (1 : Fin 2) = 0 := (idx_facts t).2.2.2.2.2.2.2.2.2.1
  show V c (Pipeline.arrRef spec1 4) (((cfg1.win 4).blk t).view.emb (ix2 i d)) = _
  refine congrArg _ (funext fun a => Fin.ext ?_)
  match a with
  | ⟨0, _⟩ => show win1_4.index t (0 : Fin 2) * 64 + 1 * i.val = i.val; rw [er]; omega
  | ⟨1, _⟩ => show win1_4.index t (1 : Fin 2) * 64 + 1 * d.val = d.val; rw [ec]; omega

/-- Entry (p, d) of the output's tile t sits in the array at (10000 t + p, d). -/
theorem out_emb (t : Fin cfg1.N) (p : Fin 10000) (d : Fin 64) :
    ((cfg1.win 5).blk t).view.emb (ix2 p d) = (ix2 (node t p) d : S100000x64.Idx) := by
  have er : win1_5.index t (0 : Fin 2) = t.val := (idx_facts t).2.2.2.2.2.2.2.2.2.2.1
  have ec : win1_5.index t (1 : Fin 2) = 0 := (idx_facts t).2.2.2.2.2.2.2.2.2.2.2
  refine funext fun a => Fin.ext ?_
  match a with
  | ⟨0, _⟩ => show win1_5.index t (0 : Fin 2) * 10000 + 1 * p.val = 10000 * t.val + p.val; rw [er]; omega
  | ⟨1, _⟩ => show win1_5.index t (1 : Fin 2) * 64 + 1 * d.val = d.val; rw [ec]; omega

/-- The layer at a node and a feature, written out. -/
theorem layer_at (A h : Spec.SN.Idx → EReal) (WrT : Spec.SW.Idx → EReal) (b : Spec.SB.Idx → EReal) (WnT : Spec.SW.Idx → EReal)
    (r : Fin 100000) (d : Fin 64) :
    Spec.gcRelu A h WrT b WnT (ix2 r d)
      = max (((∑ k : Fin 64, A (ix2 r k) * WrT (ix2 k d)) + (∑ k : Fin 64, h (ix2 r k) * WnT (ix2 k d))) + b (ix2 (0 : Fin 1) d)) 0 := rfl

/-- What tile t writes back is tile t of the layer applied to the five whole arrays. -/
theorem flushed_eq (c : Dev nD) (t : Fin cfg1.N) :
    (Gc1.dat1 (F := Ideal) V c).flushed 5 t = ((cfg1.win 5).blk t).view.read (Elt Ideal)
      (Spec.gcRelu (V c (Pipeline.arrRef spec1 0)) (V c (Pipeline.arrRef spec1 1)) (V c (Pipeline.arrRef spec1 2)) (V c (Pipeline.arrRef spec1 3)) (V c (Pipeline.arrRef spec1 4))) := by
  show (cfg1.win 5).cut (grid1.coords t) ((Gc1.dat1 V c).after 5 t) = _
  rw [Gc1.after1_5]
  unfold Gc1.out1_5
  rw [View.canon_unit_zero hz]
  funext y
  obtain ⟨p, d, rfl⟩ : ∃ (p : Fin 10000) (d : Fin 64), y = ix2 p d := ⟨y 0, y 1, eq_ix2 y⟩
  show k1_pay1 (F := Ideal) (Gc1.iblk1 V c 0 t) (Gc1.iblk1 V c 1 t) (Gc1.iblk1 V c 2 t) (Gc1.iblk1 V c 4 t) (Gc1.iblk1 V c 3 t) (ix2 p d)
    = Spec.gcRelu (V c (Pipeline.arrRef spec1 0)) (V c (Pipeline.arrRef spec1 1)) (V c (Pipeline.arrRef spec1 2)) (V c (Pipeline.arrRef spec1 3)) (V c (Pipeline.arrRef spec1 4))
        (((cfg1.win 5).blk t).view.emb (ix2 p d))
  refine (pay_at (Gc1.iblk1 V c 0 t) (Gc1.iblk1 V c 1 t) (Gc1.iblk1 V c 2 t) (Gc1.iblk1 V c 4 t) (Gc1.iblk1 V c 3 t) p d).trans ?_
  rw [out_emb, layer_at, bias_at]
  simp only [aggr_at, feat_at, wr_at, wn_at]

/-- An index of the array is in tile t's block iff each coordinate is in the block's range on its axis. -/
theorem mem_blk (t : Fin cfg1.N) (i : S100000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole (Pipeline.arrRef spec1 5)).slice (win1_5.rect t)).set ↔ _
  rw [View.set_slice_whole, Rect.mem_set_unit]
  exact Iff.rfl

/-- The ten tiles cover the array: node r lies in tile r / 10000. -/
theorem cover (i : S100000x64.Idx) : ∃ t : Fin cfg1.N, (cfg1.win 5).flush t = true ∧ i ∈ ((cfg1.win 5).blk t).view.set := by
  have hr : (i 0).val < 100000 := (i 0).isLt
  have hc : (i 1).val < 64 := (i 1).isLt
  have hN : cfg1.N = 10 := N_1
  refine ⟨⟨(i 0).val / 10000, by rw [hN]; omega⟩, flush1_5 _, ?_⟩
  rw [mem_blk]
  have er := (idx_facts ⟨(i 0).val / 10000, by rw [hN]; omega⟩).2.2.2.2.2.2.2.2.2.2.1
  have ec := (idx_facts ⟨(i 0).val / 10000, by rw [hN]; omega⟩).2.2.2.2.2.2.2.2.2.2.2
  intro a
  match a with
  | ⟨0, _⟩ =>
    show win1_5.index _ (0 : Fin 2) * 10000 ≤ (i 0).val ∧ (i 0).val < win1_5.index _ (0 : Fin 2) * 10000 + 10000
    rw [er]; show (i 0).val / 10000 * 10000 ≤ (i 0).val ∧ (i 0).val < (i 0).val / 10000 * 10000 + 10000; omega
  | ⟨1, _⟩ =>
    show win1_5.index _ (1 : Fin 2) * 64 ≤ (i 1).val ∧ (i 1).val < win1_5.index _ (1 : Fin 2) * 64 + 64
    rw [ec]; omega

/-- After the call the output array is the layer applied to the call's five input arrays, entry by entry. -/
theorem final1 (c : Dev nD) :
    (Gc1.dat1 (F := Ideal) V c).arrAt 5 cfg1.N
      = Spec.gcRelu (V c (Pipeline.arrRef spec1 0)) (V c (Pipeline.arrRef spec1 1)) (V c (Pipeline.arrRef spec1 2)) (V c (Pipeline.arrRef spec1 3)) (V c (Pipeline.arrRef spec1 4)) :=
  (Gc1.dat1 (F := Ideal) V c).arrAt_eq_of_cover 5 _ (fun t _ => flushed_eq V c t) cover

end Cert.KernelIdeal.GcValue1

end
-- ==== Proof.Val.GcValue2.lean ====
/-
  The graph-convolution call of pipeline 2: the value of its output array after the call, at the ideal values.
  The call runs over ten row tiles. Tile t holds rows [10000 t, 10000 (t+1)) of the aggregated messages A, of the
  node features h and of the result, and the two transposed weight matrices WrT, WnT and the bias row b whole.
  On a tile the body computes, at row p and feature d,
      sum_k A(p,k) WrT(k,d) + sum_k h(p,k) WnT(k,d) + b(0,d):
  both products go into a zero accumulator, and the changes of float format and the same-shape casts around them are
  the identity on extended reals (the features arrive in the narrower float format, which changes nothing on extended reals). Reading each input tile back as rows of its array (row p of tile t is node
  10000 t + p), tile t of the result is tile t of ONE function of the five whole arrays; the ten tiles cover the
  100000 rows (node r lies in tile r / 10000), so after the call the output array is that function.
-/
import proofs.«430438_j75239237091885_2_alg».proof.Proof.KI.Gc2
import proofs.«430438_j75239237091885_2_alg».proof.Proof.Val.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.GcValue2

open Cert.KernelIdeal Cert.KernelIdeal.Gen Idealize.ShloMosaic Idealize.ShloMosaic.TcCoe Idealize.SL.Sem
open Idealize.ShloMosaic.ValueIdx
open Idealize.ShloMosaic.Pipeline (Dat)

/-! ## One matrix product of the body, read at an entry -/

/-- The left operand is read at the output's row … -/
theorem lhs_row (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- … and at the contraction index as its column; -/
theorem lhs_col (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- the right operand at the contraction index as its row … -/
theorem rhs_row (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- … and at the output's column. -/
theorem rhs_col (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A [10000,64] by [64,64] product into the zero accumulator: entry (p, d) is the sum over j of l(p, j) r(j, d). -/
theorem matmul_at {φ₁ φ₂ : FTy} (l : FVec Ideal S10000x64 φ₁) (r : FVec Ideal S64x64 φ₂) (p : Fin 10000) (d : Fin 64) :
    matmul dot_S10000x64_S64x64_S10000x64_1_0_0_1_n_n none l r (constant (F := Ideal) S10000x64 .f32 0x00000000#32) (ix2 p d)
      = ∑ k : Fin 64, l (ix2 p k) * r (ix2 k d) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have hl : dot_S10000x64_S64x64_S10000x64_1_0_0_1_n_n.lhsIdx (ix2 p d) ((contrEquiv1 dot_S10000x64_S64x64_S10000x64_1_0_0_1_n_n 64 rfl rfl).symm k) = ix2 p k := funext fun a => Fin.ext (by
    match a with
    | ⟨0, _⟩ => exact lhs_row _ _
    | ⟨1, _⟩ => exact (lhs_col _ _).trans hk)
  have hr : dot_S10000x64_S64x64_S10000x64_1_0_0_1_n_n.rhsIdx (ix2 p d) ((contrEquiv1 dot_S10000x64_S64x64_S10000x64_1_0_0_1_n_n 64 rfl rfl).symm k) = ix2 k d := funext fun a => Fin.ext (by
    match a with
    | ⟨0, _⟩ => exact (rhs_row _ _).trans hk
    | ⟨1, _⟩ => exact rhs_col _ _)
  rw [hl, hr]

/-! ## The body's result at an entry -/

/-- Entry (p, d) of what the body stores, from the five blocks it loads; the format changes and the same-shape casts
    are the identity on extended reals. -/
theorem pay_at (x0 : Vec Ideal S10000x64 .f32) (x1 : Vec Ideal S10000x64 .bf16) (x2 : Vec Ideal S64x64 .f32) (x4 : Vec Ideal S64x64 .f32)
    (x3 : Vec Ideal S1x64 .f32) (p : Fin 10000) (d : Fin 64) :
    k2_pay1 (F := Ideal) x0 x1 x2 x4 x3 (ix2 p d)
      = ((∑ k : Fin 64, x0 (ix2 p k) * x2 (ix2 k d)) + (∑ k : Fin 64, x1 (ix2 p k) * x4 (ix2 k d))) + x3 (ix2 (0 : Fin 1) d) := by
  unfold k2_pay1
  simp only [shapeCast_self]
  rw [truncf_apply, addf_apply, addf_apply, matmul_at, matmul_at, broadcastTo_1b_ab_apply]
  simp only [truncf_apply]

/-! ## From the tiles to the array -/

variable (V : (c : Dev nD) → (b : Ref sig .tc) → Buf (Elt Ideal) ((c : Thread nD τ).loc b))

theorem hz : (![0, 0] : Fin 2 → Nat) = fun _ => 0 := funext fun a => by fin_cases a <;> rfl

/-- The index maps over the ten tiles: the row-tiled windows 0, 1, 5 sit at block (t, 0), the whole windows 2, 3, 4 at (0, 0). -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem tile_lt (t : Fin cfg2.N) : t.val < 10 := lt_of_lt_of_eq t.isLt N_2

/-- Row p of tile t is node 10000 t + p. -/
def node (t : Fin cfg2.N) (p : Fin 10000) : Fin 100000 := ⟨10000 * t.val + p.val, by have := tile_lt t; omega⟩

/-- Tile t of the aggregated messages at (p, j) is the array at (10000 t + p, j). -/
theorem aggr_at (c : Dev nD) (t : Fin cfg2.N) (p : Fin 10000) (j : Fin 64) :
    Gc2.iblk2 V c 0 t (ix2 p j) = V c (Pipeline.arrRef spec2 0) (ix2 (node t p) j) := by
  have er : win2_0.index t (0 : Fin 2) = t.val := (idx_facts t).1
  have ec : win2_0.index t (1 : Fin 2) = 0 := (idx_facts t).2.1
  show V c (Pipeline.arrRef spec2 0) (((cfg2.win 0).blk t).view.emb (ix2 p j)) = _
  refine congrArg _ (funext fun a => Fin.ext ?_)
  match a with
  | ⟨0, _⟩ => show win2_0.index t (0 : Fin 2) * 10000 + 1 * p.val = 10000 * t.val + p.val; rw [er]; omega
  | ⟨1, _⟩ => show win2_0.index t (1 : Fin 2) * 64 + 1 * j.val = j.val; rw [ec]; omega

/-- Tile t of the node features at (p, j) is the array at (10000 t + p, j). -/
theorem feat_at (c : Dev nD) (t : Fin cfg2.N) (p : Fin 10000) (j : Fin 64) :
    Gc2.iblk2 V c 1 t (ix2 p j) = V c (Pipeline.arrRef spec2 1) (ix2 (node t p) j) := by
  have er : win2_1.index t (0 : Fin 2) = t.val := (idx_facts t).2.2.1
  have ec : win2_1.index t (1 : Fin 2) = 0 := (idx_facts t).2.2.2.1
  show V c (Pipeline.arrRef spec2 1) (((cfg2.win 1).blk t).view.emb (ix2 p j)) = _
  refine congrArg _ (funext fun a => Fin.ext ?_)
  match a with
  | ⟨0, _⟩ => show win2_1.index t (0 : Fin 2) * 10000 + 1 * p.val = 10000 * t.val + p.val; rw [er]; omega
  | ⟨1, _⟩ => show win2_1.index t (1 : Fin 2) * 64 + 1 * j.val = j.val; rw [ec]; omega

/-- The first weight matrix is staged whole at every tile. -/
theorem wr_at (c : Dev nD) (t : Fin cfg2.N) (i : Fin 64) (d : Fin 64) :
    Gc2.iblk2 V c 2 t (ix2 i d) = V c (Pipeline.arrRef spec2 2) (ix2 i d) := by
  have er : win2_2.index t (0 : Fin 2) = 0 := (idx_facts t).2.2.2.2.1
  have ec : win2_2.index t (1 : Fin 2) = 0 := (idx_facts t).2.2.2.2.2.1
  show V c (Pipeline.arrRef spec2 2) (((cfg2.win 2).blk t).view.emb (ix2 i d)) = _
  refine congrArg _ (funext fun a => Fin.ext ?_)
  match a with
  | ⟨0, _⟩ => show win2_2.index t (0 : Fin 2) * 64 + 1 * i.val = i.val; rw [er]; omega
  | ⟨1, _⟩ => show win2_2.index t (1 : Fin 2) * 64 + 1 * d.val = d.val; rw [ec]; omega

/-- So is the bias row. -/
theorem bias_at (c : Dev nD) (t : Fin cfg2.N) (d : Fin 64) :
    Gc2.iblk2 V c 3 t (ix2 (0 : Fin 1) d) = V c (Pipeline.arrRef spec2 3) (ix2 (0 : Fin 1) d) := by
  have er : win2_3.index t (0 : Fin 2) = 0 := (idx_facts t).2.2.2.2.2.2.1
  have ec : win2_3.index t (1 : Fin 2) = 0 := (idx_facts t).2.2.2.2.2.2.2.1
  show V c (Pipeline.arrRef spec2 3) (((cfg2.win 3).blk t).view.emb (ix2 (0 : Fin 1) d)) = _
  refine congrArg _ (funext fun a => Fin.ext ?_)
  match a with
  | ⟨0, _⟩ => show win2_3.index t (0 : Fin 2) * 1 + 1 * (0 : Fin 1).val = (0 : Fin 1).val; rw [er]; rfl
  | ⟨1, _⟩ => show win2_3.index t (1 : Fin 2) * 64 + 1 * d.val = d.val; rw [ec]; omega

/-- And the second weight matrix. -/
theorem wn_at (c : Dev nD) (t : Fin cfg2.N) (i : Fin 64) (d : Fin 64) :
    Gc2.iblk2 V c 4 t (ix2 i d) = V c (Pipeline.arrRef spec2 4) (ix2 i d) := by
  have er : win2_4.index t (0 : Fin 2) = 0 := (idx_facts t).2.2.2.2.2.2.2.2.1
  have ec : win2_4.index t (1 : Fin 2) = 0 := (idx_facts t).2.2.2.2.2.2.2.2.2.1
  show V c (Pipeline.arrRef spec2 4) (((cfg2.win 4).blk t).view.emb (ix2 i d)) = _
  refine congrArg _ (funext fun a => Fin.ext ?_)
  match a with
  | ⟨0, _⟩ => show win2_4.index t (0 : Fin 2) * 64 + 1 * i.val = i.val; rw [er]; omega
  | ⟨1, _⟩ => show win2_4.index t (1 : Fin 2) * 64 + 1 * d.val = d.val; rw [ec]; omega

/-- Entry (p, d) of the output's tile t sits in the array at (10000 t + p, d). -/
theorem out_emb (t : Fin cfg2.N) (p : Fin 10000) (d : Fin 64) :
    ((cfg2.win 5).blk t).view.emb (ix2 p d) = (ix2 (node t p) d : S100000x64.Idx) := by
  have er : win2_5.index t (0 : Fin 2) = t.val := (idx_facts t).2.2.2.2.2.2.2.2.2.2.1
  have ec : win2_5.index t (1 : Fin 2) = 0 := (idx_facts t).2.2.2.2.2.2.2.2.2.2.2
  refine funext fun a => Fin.ext ?_
  match a with
  | ⟨0, _⟩ => show win2_5.index t (0 : Fin 2) * 10000 + 1 * p.val = 10000 * t.val + p.val; rw [er]; omega
  | ⟨1, _⟩ => show win2_5.index t (1 : Fin 2) * 64 + 1 * d.val = d.val; rw [ec]; omega

/-- The layer at a node and a feature, written out. -/
theorem layer_at (A h : Spec.SN.Idx → EReal) (WrT : Spec.SW.Idx → EReal) (b : Spec.SB.Idx → EReal) (WnT : Spec.SW.Idx → EReal)
    (r : Fin 100000) (d : Fin 64) :
    Spec.gcLin A h WrT b WnT (ix2 r d)
      = ((∑ k : Fin 64, A (ix2 r k) * WrT (ix2 k d)) + (∑ k : Fin 64, h (ix2 r k) * WnT (ix2 k d))) + b (ix2 (0 : Fin 1) d) := rfl

/-- What tile t writes back is tile t of the layer applied to the five whole arrays. -/
theorem flushed_eq (c : Dev nD) (t : Fin cfg2.N) :
    (Gc2.dat2 (F := Ideal) V c).flushed 5 t = ((cfg2.win 5).blk t).view.read (Elt Ideal)
      (Spec.gcLin (V c (Pipeline.arrRef spec2 0)) (V c (Pipeline.arrRef spec2 1)) (V c (Pipeline.arrRef spec2 2)) (V c (Pipeline.arrRef spec2 3)) (V c (Pipeline.arrRef spec2 4))) := by
  show (cfg2.win 5).cut (grid2.coords t) ((Gc2.dat2 V c).after 5 t) = _
  rw [Gc2.after2_5]
  unfold Gc2.out2_5
  rw [View.canon_unit_zero hz]
  funext y
  obtain ⟨p, d, rfl⟩ : ∃ (p : Fin 10000) (d : Fin 64), y = ix2 p d := ⟨y 0, y 1, eq_ix2 y⟩
  show k2_pay1 (F := Ideal) (Gc2.iblk2 V c 0 t) (Gc2.iblk2 V c 1 t) (Gc2.iblk2 V c 2 t) (Gc2.iblk2 V c 4 t) (Gc2.iblk2 V c 3 t) (ix2 p d)
    = Spec.gcLin (V c (Pipeline.arrRef spec2 0)) (V c (Pipeline.arrRef spec2 1)) (V c (Pipeline.arrRef spec2 2)) (V c (Pipeline.arrRef spec2 3)) (V c (Pipeline.arrRef spec2 4))
        (((cfg2.win 5).blk t).view.emb (ix2 p d))
  refine (pay_at (Gc2.iblk2 V c 0 t) (Gc2.iblk2 V c 1 t) (Gc2.iblk2 V c 2 t) (Gc2.iblk2 V c 4 t) (Gc2.iblk2 V c 3 t) p d).trans ?_
  rw [out_emb, layer_at, bias_at]
  simp only [aggr_at, feat_at, wr_at, wn_at]

/-- An index of the array is in tile t's block iff each coordinate is in the block's range on its axis. -/
theorem mem_blk (t : Fin cfg2.N) (i : S100000x64.Idx) :
    i ∈ ((cfg2.win 5).blk t).view.set ↔ ∀ a : Fin 2, win2_5.index t a * S10000x64.size a ≤ (i a).val ∧ (i a).val < win2_5.index t a * S10000x64.size a + S10000x64.size a := by
  show i ∈ ((View.whole (Pipeline.arrRef spec2 5)).slice (win2_5.rect t)).set ↔ _
  rw [View.set_slice_whole, Rect.mem_set_unit]
  exact Iff.rfl

/-- The ten tiles cover the array: node r lies in tile r / 10000. -/
theorem cover (i : S100000x64.Idx) : ∃ t : Fin cfg2.N, (cfg2.win 5).flush t = true ∧ i ∈ ((cfg2.win 5).blk t).view.set := by
  have hr : (i 0).val < 100000 := (i 0).isLt
  have hc : (i 1).val < 64 := (i 1).isLt
  have hN : cfg2.N = 10 := N_2
  refine ⟨⟨(i 0).val / 10000, by rw [hN]; omega⟩, flush2_5 _, ?_⟩
  rw [mem_blk]
  have er := (idx_facts ⟨(i 0).val / 10000, by rw [hN]; omega⟩).2.2.2.2.2.2.2.2.2.2.1
  have ec := (idx_facts ⟨(i 0).val / 10000, by rw [hN]; omega⟩).2.2.2.2.2.2.2.2.2.2.2
  intro a
  match a with
  | ⟨0, _⟩ =>
    show win2_5.index _ (0 : Fin 2) * 10000 ≤ (i 0).val ∧ (i 0).val < win2_5.index _ (0 : Fin 2) * 10000 + 10000
    rw [er]; show (i 0).val / 10000 * 10000 ≤ (i 0).val ∧ (i 0).val < (i 0).val / 10000 * 10000 + 10000; omega
  | ⟨1, _⟩ =>
    show win2_5.index _ (1 : Fin 2) * 64 ≤ (i 1).val ∧ (i 1).val < win2_5.index _ (1 : Fin 2) * 64 + 64
    rw [ec]; omega

/-- After the call the output array is the layer applied to the call's five input arrays, entry by entry. -/
theorem final2 (c : Dev nD) :
    (Gc2.dat2 (F := Ideal) V c).arrAt 5 cfg2.N
      = Spec.gcLin (V c (Pipeline.arrRef spec2 0)) (V c (Pipeline.arrRef spec2 1)) (V c (Pipeline.arrRef spec2 2)) (V c (Pipeline.arrRef spec2 3)) (V c (Pipeline.arrRef spec2 4)) :=
  (Gc2.dat2 (F := Ideal) V c).arrAt_eq_of_cover 5 _ (fun t _ => flushed_eq V c t) cover

end Cert.KernelIdeal.GcValue2

end
-- ==== Proof.Val.KChain.lean ====
/-
  The host operations between the kernel program's calls, read over the extended reals: what each of the three
  graph-convolution calls finds in its five input arrays, as terms of the launch memory and of the earlier calls'
  results, and with each call's own value what the three layers leave.

  Before a layer's call the host sums, for every edge k, row src(k) of the current node features into row dst(k) of an
  array of zeros (a negative source id counted from the end); the first layer narrows the features to the storage
  format first, which over the extended reals changes nothing. The weights reach a call transposed and the biases as
  one row. The layers are then
      h1 = max(agg(x) · Wr1^T + x · Wn1^T + b1, 0),  h2 = max(agg(h1) · Wr2^T + h1 · Wn2^T + b2, 0),
      h3 = agg(h2) · Wr3^T + h2 · Wn3^T + b3.
-/
import proofs.«430438_j75239237091885_2_alg».proof.Proof.KI.Run
import proofs.«430438_j75239237091885_2_alg».proof.Proof.Val.GcValue0
import proofs.«430438_j75239237091885_2_alg».proof.Proof.Val.GcValue1
import proofs.«430438_j75239237091885_2_alg».proof.Proof.Val.GcValue2
import proofs.«430438_j75239237091885_2_alg».proof.Proof.Val.Spec
import Idealize.ShloMosaic.Lib.StableHlo.Run
import Idealize.ShloMosaic.Lib.ValueIdx
import Idealize.ShloMosaic.Lib.Pipeline.Value
import Idealize.ShloMosaic.PureOps.Ideal.Laws

noncomputable section

namespace Cert.KernelIdeal.KChain

open Cert.KernelIdeal Cert.KernelIdeal.Gen Cert.KernelIdeal.Run
open Idealize.ShloMosaic Idealize.ShloMosaic.TcCoe Idealize.ShloMosaic.ValueIdx

variable (m : (ℓ : Loc nD τ sig) → Buf (Elt Ideal) ℓ)

/-! ## The aggregation the program prints -/

/-- Row 0 of edge_index (the source node of every edge) as a vector. -/
def srcK (e : S2x1600000.Idx → BitVec 32) : S1600000.Idx → BitVec 32 := fun i =>
  shapeCast main_v1.ty.shape (extractStridedSlice S1x1600000 ![0, 0] e slices_S2x1600000_S1x1600000_0_0)
    shapeCasts_S1x1600000_S1600000 i

/-- Row 1 of edge_index (the target node of every edge) as a vector. -/
def dstK (e : S2x1600000.Idx → BitVec 32) : S1600000.Idx → BitVec 32 := fun i =>
  shapeCast main_v3.ty.shape (extractStridedSlice S1x1600000 ![1, 0] e slices_S2x1600000_S1x1600000_1_0)
    shapeCasts_S1x1600000_S1600000 i

/-- Messages summed at their targets: start from zeros, gather row src(k) of h (a negative id counted from the end),
    add it into row dst(k), for every edge k. -/
def aggCore (s d : S1600000.Idx → BitVec 32) (h : S100000x64.Idx → EReal) : S100000x64.Idx → EReal :=
  Host.scatterAdd (F := Idealize.ShloMosaic.Ideal) scatter_S100000x64_S1600000x1_S1600000x64_1_0_0_1
    (broadcastInDim S100000x64 ![] bcast_S_S100000x64 (constant (F := Idealize.ShloMosaic.Ideal) S_ FTy.f32 0#32))
    (broadcastInDim S1600000x1 ![0] bcast_S1600000_S1600000x1_0 d)
    (extf FTy.f32
      (Host.gather gather_S100000x64_S1600000x1_S1600000x64_1_0_n_n_0_1_164 h
        (broadcastInDim S1600000x1 ![0] bcast_S1600000_S1600000x1_0
          (select
            (cmpi CmpIPredicate.slt s (broadcastInDim S1600000 ![] bcast_S_S1600000 (constantI S_ 32 0#32)))
            (addi s (broadcastInDim S1600000 ![] bcast_S_S1600000 (constantI S_ 32 100000#32)))
            s)))
      bitsLt_bf16_f32)

/-- The aggregation of layers 2 and 3: from the node features as the previous call left them. -/
def aggK (h : S100000x64.Idx → EReal) (e : S2x1600000.Idx → BitVec 32) : S100000x64.Idx → EReal :=
  aggCore (srcK e) (dstK e) h

/-- The aggregation of layer 1: the features are first narrowed to the storage format. -/
def aggK0 (x : S100000x64.Idx → EReal) (e : S2x1600000.Idx → BitVec 32) : S100000x64.Idx → EReal :=
  aggK (truncf (F := Idealize.ShloMosaic.Ideal) FTy.bf16 x bitsLt_bf16_f32) e

/-! ## What the first stretch of host operations leaves -/

/-- A weight matrix transposed on the host reads entry (r, c) at (c, r). -/
theorem transpose64 (W : S64x64.Idx → EReal) :
    (transpose S64x64 [1, 0] W transposes_S64x64_S64x64_1_0 : S64x64.Idx → EReal) = Spec.trW W := by
  funext j
  refine transpose_apply [1, 0] W transposes_S64x64_S64x64_1_0 j (ix2 (j 1) (j 0)) fun b => ?_
  match b with
  | ⟨0, _⟩ => rfl
  | ⟨1, _⟩ => rfl

/-- A bias reshaped to one row reads entry (0, d) at d. -/
theorem reshapeRow (b : S64.Idx → EReal) :
    (fun i => shapeCast S1x64 b shapeCasts_S64_S1x64 i : S1x64.Idx → EReal) = Spec.rowB b := by
  funext j
  refine shapeCast_apply b shapeCasts_S64_S1x64 j (ix1 (j 1)) ?_
  rw [Shape.rowMajor_val_one, Shape.rowMajor_val_two]
  have h0 : (j 0).val < 1 := (j 0).isLt
  show (j 1).val = (j 0).val * 64 + (j 1).val
  omega

section Stretch0

variable (c : Dev nD)

/-- The source ids as the first stretch leaves them. -/
theorem e_src : (V1 m c main_v1 : S1600000.Idx → BitVec 32) = srcK (m ((c : Thread nD τ).loc main_arg1)) := by
  show StableHlo.after hostOps0 _ (Proc.devRef .tc main_v1) = _
  after_results
  rfl

/-- The target ids as the first stretch leaves them. -/
theorem e_dst : (V1 m c main_v3 : S1600000.Idx → BitVec 32) = dstK (m ((c : Thread nD τ).loc main_arg1)) := by
  show StableHlo.after hostOps0 _ (Proc.devRef .tc main_v3) = _
  after_results
  rfl

set_option maxHeartbeats 4000000 in
/-- The first layer's aggregated messages. -/
theorem e27 : (V1 m c main_v27 : S100000x64.Idx → EReal)
    = aggK0 (m ((c : Thread nD τ).loc main_arg0)) (m ((c : Thread nD τ).loc main_arg1)) := by
  show StableHlo.after hostOps0 _ (Proc.devRef .tc main_v27) = _
  after_results_simp
  rfl

/-- The node features are not written by the first stretch. -/
theorem e_x : V1 m c main_arg0 = m ((c : Thread nD τ).loc main_arg0) := V1_of m c main_arg0 (by decide)

theorem e5 : (V1 m c main_v5 : S64x64.Idx → EReal) = Spec.trW (m ((c : Thread nD τ).loc main_arg3)) := by
  show StableHlo.after hostOps0 _ (Proc.devRef .tc main_v5) = _
  after_results
  exact transpose64 _
theorem e6 : (V1 m c main_v6 : S64x64.Idx → EReal) = Spec.trW (m ((c : Thread nD τ).loc main_arg5)) := by
  show StableHlo.after hostOps0 _ (Proc.devRef .tc main_v6) = _
  after_results
  exact transpose64 _
theorem e7 : (V1 m c main_v7 : S64x64.Idx → EReal) = Spec.trW (m ((c : Thread nD τ).loc main_arg6)) := by
  show StableHlo.after hostOps0 _ (Proc.devRef .tc main_v7) = _
  after_results
  exact transpose64 _
theorem e8 : (V1 m c main_v8 : S64x64.Idx → EReal) = Spec.trW (m ((c : Thread nD τ).loc main_arg8)) := by
  show StableHlo.after hostOps0 _ (Proc.devRef .tc main_v8) = _
  after_results
  exact transpose64 _
theorem e9 : (V1 m c main_v9 : S64x64.Idx → EReal) = Spec.trW (m ((c : Thread nD τ).loc main_arg9)) := by
  show StableHlo.after hostOps0 _ (Proc.devRef .tc main_v9) = _
  after_results
  exact transpose64 _
theorem e10 : (V1 m c main_v10 : S64x64.Idx → EReal) = Spec.trW (m ((c : Thread nD τ).loc main_arg11)) := by
  show StableHlo.after hostOps0 _ (Proc.devRef .tc main_v10) = _
  after_results
  exact transpose64 _

theorem e12 : (V1 m c main_v12 : S1x64.Idx → EReal) = Spec.rowB (m ((c : Thread nD τ).loc main_arg4)) := by
  show StableHlo.after hostOps0 _ (Proc.devRef .tc main_v12) = _
  after_results
  exact reshapeRow _
theorem e13 : (V1 m c main_v13 : S1x64.Idx → EReal) = Spec.rowB (m ((c : Thread nD τ).loc main_arg7)) := by
  show StableHlo.after hostOps0 _ (Proc.devRef .tc main_v13) = _
  after_results
  exact reshapeRow _
theorem e14 : (V1 m c main_v14 : S1x64.Idx → EReal) = Spec.rowB (m ((c : Thread nD τ).loc main_arg10)) := by
  show StableHlo.after hostOps0 _ (Proc.devRef .tc main_v14) = _
  after_results
  exact reshapeRow _

end Stretch0

/-! ## The second and third stretches, from any contents -/

section Later

variable (W : Valuation τ sig (Elt Idealize.ShloMosaic.Ideal))

/-- The second stretch aggregates the first call's output. -/
theorem agg1 : (StableHlo.after hostOps1 W (Proc.devRef .tc main_v39) : S100000x64.Idx → EReal)
    = aggCore (W main_v1) (W main_v3) (W main_v28) := by
  after_results_simp
  rfl

/-- The third stretch aggregates the second call's output. -/
theorem agg2 : (StableHlo.after hostOps2 W (Proc.devRef .tc main_v51) : S100000x64.Idx → EReal)
    = aggCore (W main_v1) (W main_v3) (W main_v40) := by
  after_results_simp
  rfl

/-- A buffer the second stretch does not write, other than the first call's output, is as before that call. -/
theorem keep1 (X : (main_v28 : DevRef τ sig).ty.Contents (Elt Idealize.ShloMosaic.Ideal)) (r : Ref sig .tc)
    (h1 : r ∉ hostOps1_W) (h2 : r ≠ main_v28) :
    StableHlo.after hostOps1 (Function.update W main_v28 X) (Proc.devRef .tc r) = W (Proc.devRef .tc r) :=
  (StableHlo.after_of_writes_sub hostOps1 _ hostOps1_writes h1).trans
    (Function.update_of_ne (StableHlo.devRef_ne_of_ne h2) _ _)

/-- The first call's output goes through the second stretch. -/
theorem self1 (X : (main_v28 : DevRef τ sig).ty.Contents (Elt Idealize.ShloMosaic.Ideal)) :
    StableHlo.after hostOps1 (Function.update W main_v28 X) (Proc.devRef .tc main_v28) = X :=
  (StableHlo.after_of_writes_sub hostOps1 _ hostOps1_writes (by decide)).trans (Function.update_self _ _ _)

theorem keep2 (X : (main_v40 : DevRef τ sig).ty.Contents (Elt Idealize.ShloMosaic.Ideal)) (r : Ref sig .tc)
    (h1 : r ∉ hostOps2_W) (h2 : r ≠ main_v40) :
    StableHlo.after hostOps2 (Function.update W main_v40 X) (Proc.devRef .tc r) = W (Proc.devRef .tc r) :=
  (StableHlo.after_of_writes_sub hostOps2 _ hostOps2_writes h1).trans
    (Function.update_of_ne (StableHlo.devRef_ne_of_ne h2) _ _)

theorem self2 (X : (main_v40 : DevRef τ sig).ty.Contents (Elt Idealize.ShloMosaic.Ideal)) :
    StableHlo.after hostOps2 (Function.update W main_v40 X) (Proc.devRef .tc main_v40) = X :=
  (StableHlo.after_of_writes_sub hostOps2 _ hostOps2_writes (by decide)).trans (Function.update_self _ _ _)

end Later

/-! ## The three layers' results -/

section Layers

variable (c : Dev nD)

theorem kh1 :
    X2 m c main_v28
      = Spec.gcRelu (aggK0 (m ((c : Thread nD τ).loc main_arg0)) (m ((c : Thread nD τ).loc main_arg1)))
          (m ((c : Thread nD τ).loc main_arg0)) (Spec.trW (m ((c : Thread nD τ).loc main_arg3)))
          (Spec.rowB (m ((c : Thread nD τ).loc main_arg4))) (Spec.trW (m ((c : Thread nD τ).loc main_arg5))) := by
  rw [h1_eq, GcValue0.final0]
  show Spec.gcRelu (V1 m c main_v27) (V1 m c main_arg0) (V1 m c main_v5) (V1 m c main_v12) (V1 m c main_v6) = _
  rw [e27, e_x, e5, e12, e6]

end Layers

section Layers23

variable (c : Dev nD)

/-- Entering the second call: a buffer of the first stretch that is neither the first call's output nor rewritten by the
    second stretch. -/
theorem E3_of (r : Ref sig .tc) (h1 : r ∉ hostOps1_W) (h2 : r ≠ main_v28) : E3 m c r = V1 m c r :=
  keep1 (V1 m c) (X2 m c main_v28) r h1 h2

theorem E3_out : E3 m c main_v28 = X2 m c main_v28 := self1 (V1 m c) (X2 m c main_v28)

/-- The second layer's aggregated messages: the same aggregation, of the first call's output. -/
theorem E3_agg : (E3 m c main_v39 : S100000x64.Idx → EReal)
    = aggK (X2 m c main_v28) (m ((c : Thread nD τ).loc main_arg1)) := by
  refine (agg1 _).trans ?_
  have hs : (Function.update (V1 m c) main_v28 (X2 m c main_v28) main_v1 : S1600000.Idx → BitVec 32)
      = srcK (m ((c : Thread nD τ).loc main_arg1)) :=
    (Function.update_of_ne (StableHlo.devRef_ne_of_ne (by decide)) _ _).trans (e_src m c)
  have hd : (Function.update (V1 m c) main_v28 (X2 m c main_v28) main_v3 : S1600000.Idx → BitVec 32)
      = dstK (m ((c : Thread nD τ).loc main_arg1)) :=
    (Function.update_of_ne (StableHlo.devRef_ne_of_ne (by decide)) _ _).trans (e_dst m c)
  have hh : Function.update (V1 m c) main_v28 (X2 m c main_v28) main_v28 = X2 m c main_v28 := Function.update_self _ _ _
  rw [hs, hd, hh]
  rfl

theorem kh2 :
    X4 m c main_v40
      = Spec.gcRelu (aggK (X2 m c main_v28) (m ((c : Thread nD τ).loc main_arg1)))
          (X2 m c main_v28) (Spec.trW (m ((c : Thread nD τ).loc main_arg6)))
          (Spec.rowB (m ((c : Thread nD τ).loc main_arg7))) (Spec.trW (m ((c : Thread nD τ).loc main_arg8))) := by
  rw [h2_eq, GcValue1.final1]
  show Spec.gcRelu (E3 m c main_v39) (E3 m c main_v28) (E3 m c main_v7) (E3 m c main_v13) (E3 m c main_v8) = _
  rw [E3_agg, E3_out, E3_of m c main_v7 (by decide) (by decide), E3_of m c main_v13 (by decide) (by decide),
    E3_of m c main_v8 (by decide) (by decide), e7, e13, e8]

/-- Entering the third call. -/
theorem E5_of (r : Ref sig .tc) (h1 : r ∉ hostOps2_W) (h2 : r ≠ main_v40) : E5 m c r = E3 m c r :=
  keep2 (E3 m c) (X4 m c main_v40) r h1 h2

theorem E5_out : E5 m c main_v40 = X4 m c main_v40 := self2 (E3 m c) (X4 m c main_v40)

/-- The third layer's aggregated messages. -/
theorem E5_agg : (E5 m c main_v51 : S100000x64.Idx → EReal)
    = aggK (X4 m c main_v40) (m ((c : Thread nD τ).loc main_arg1)) := by
  refine (agg2 _).trans ?_
  have hs : (Function.update (E3 m c) main_v40 (X4 m c main_v40) main_v1 : S1600000.Idx → BitVec 32)
      = srcK (m ((c : Thread nD τ).loc main_arg1)) :=
    (Function.update_of_ne (StableHlo.devRef_ne_of_ne (by decide)) _ _).trans
      ((E3_of m c main_v1 (by decide) (by decide)).trans (e_src m c))
  have hd : (Function.update (E3 m c) main_v40 (X4 m c main_v40) main_v3 : S1600000.Idx → BitVec 32)
      = dstK (m ((c : Thread nD τ).loc main_arg1)) :=
    (Function.update_of_ne (StableHlo.devRef_ne_of_ne (by decide)) _ _).trans
      ((E3_of m c main_v3 (by decide) (by decide)).trans (e_dst m c))
  have hh : Function.update (E3 m c) main_v40 (X4 m c main_v40) main_v40 = X4 m c main_v40 := Function.update_self _ _ _
  rw [hs, hd, hh]
  rfl

theorem kh3 :
    X6 m c main_v52
      = Spec.gcLin (aggK (X4 m c main_v40) (m ((c : Thread nD τ).loc main_arg1)))
          (X4 m c main_v40) (Spec.trW (m ((c : Thread nD τ).loc main_arg9)))
          (Spec.rowB (m ((c : Thread nD τ).loc main_arg10))) (Spec.trW (m ((c : Thread nD τ).loc main_arg11))) := by
  rw [h3_eq, GcValue2.final2]
  show Spec.gcLin (E5 m c main_v51) (E5 m c main_v40) (E5 m c main_v9) (E5 m c main_v14) (E5 m c main_v10) = _
  rw [E5_agg, E5_out, E5_of m c main_v9 (by decide) (by decide), E5_of m c main_v14 (by decide) (by decide),
    E5_of m c main_v10 (by decide) (by decide), E3_of m c main_v9 (by decide) (by decide),
    E3_of m c main_v14 (by decide) (by decide), E3_of m c main_v10 (by decide) (by decide), e9, e14, e10]

end Layers23

end Cert.KernelIdeal.KChain

end
-- ==== Proof.Val.PoolValue.lean ====
/-
  The value of the pooling call's output array over the extended reals.

  Ten tiles of 10000 nodes each pass over a 64 x 64 accumulator S. Tile t adds to S(g, d) the sum over its rows p of
  [id(10000 t + p) = g] · h(10000 t + p, d): the indicator is the comparison of the broadcast id column with the lane
  index, widened and converted (1 or 0), and the sum is the contraction of the indicator matrix with the tile of h along
  the row axis of both. The first tile adds to the zero matrix. After the last tile the output is
  (S(g, ·) · inv(g)) · Wl^T + bl, one 64 x 64 block that is the whole output array and is written back once, after the
  last tile; so the array ends holding that function of the five input arrays.
-/
import proofs.«430438_j75239237091885_2_alg».proof.Proof.KI.Pool
import proofs.«430438_j75239237091885_2_alg».proof.Proof.Val.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.PoolValue

open Cert.KernelIdeal Cert.KernelIdeal.Gen
open Idealize.ShloMosaic Idealize.ShloMosaic.TcCoe Idealize.ShloMosaic.ValueIdx
open Idealize.SL.Sem
open Idealize.ShloMosaic.Pipeline (Dat)

/-! ## One tile: the scratch gains, at (g, d), the sum over the tile's rows of [id = g] · h -/

/-- The comparison word of the one-hot, widened and converted: 1 where the id, read signed, is g, else 0. -/
theorem onehot_word (w : BitVec 32) (g : Fin 64) :
    (FloatOps.sitofp (F := Ideal) .f32 ((IntOp.cmpi .eq w (BitVec.ofNat 32 g.val)).setWidth 32) : EReal)
      = if w.toInt = (g.val : ℤ) then 1 else 0 := by
  have hg : g.val < 64 := g.isLt
  have hto : (BitVec.ofNat 32 g.val).toInt = (g.val : ℤ) := by
    have hn : (BitVec.ofNat 32 g.val).toNat = g.val := by rw [BitVec.toNat_ofNat]; omega
    rw [BitVec.toInt_eq_toNat_of_lt (by rw [hn]; omega), hn]
  by_cases h : w = BitVec.ofNat 32 g.val
  · subst h
    rw [if_pos hto]
    show (((((BitVec.ofBool (BitVec.ofNat 32 g.val == BitVec.ofNat 32 g.val)).setWidth 32).toInt : ℤ) : ℝ) : EReal) = 1
    rw [beq_self_eq_true, BitVec.ofBool_true, show (BitVec.setWidth 32 (1 : BitVec 1)).toInt = 1 from by decide]
    norm_num
  · have hne : w.toInt ≠ (g.val : ℤ) := fun e => h (by
      rw [← BitVec.ofInt_toInt (x := w), e, BitVec.ofInt_natCast])
    rw [if_neg hne]
    show (((((BitVec.ofBool (w == BitVec.ofNat 32 g.val)).setWidth 32).toInt : ℤ) : ℝ) : EReal) = 0
    rw [beq_eq_false_iff_ne.mpr h, BitVec.ofBool_false, show (BitVec.setWidth 32 (0 : BitVec 1)).toInt = 0 from by decide]
    norm_num

theorem lhs_tile_0 (i : S64x64.Idx) (q : dot_S10000x64_S10000x64_S64x64_0_0_1_1_n_n.contr.Idx) :
    (dot_S10000x64_S10000x64_S64x64_0_0_1_1_n_n.lhsIdx i q 0).val = (q ⟨0, by decide⟩).val :=
  dot_S10000x64_S10000x64_S64x64_0_0_1_1_n_n.lhsIdx_val_of_single rfl i q
theorem lhs_tile_1 (i : S64x64.Idx) (q : dot_S10000x64_S10000x64_S64x64_0_0_1_1_n_n.contr.Idx) :
    (dot_S10000x64_S10000x64_S64x64_0_0_1_1_n_n.lhsIdx i q 1).val = (i 0).val := by
  unfold DotDims.lhsIdx
  rw [dif_neg (show ¬(1 : Fin S10000x64.rank) ∈ dot_S10000x64_S10000x64_S64x64_0_0_1_1_n_n.lhsBatch by decide), dif_pos (show (1 : Fin S10000x64.rank) ∈ dot_S10000x64_S10000x64_S64x64_0_0_1_1_n_n.lhsNonContracting by decide)]
  rfl
theorem rhs_tile_0 (i : S64x64.Idx) (q : dot_S10000x64_S10000x64_S64x64_0_0_1_1_n_n.contr.Idx) :
    (dot_S10000x64_S10000x64_S64x64_0_0_1_1_n_n.rhsIdx i q 0).val = (q ⟨0, by decide⟩).val :=
  dot_S10000x64_S10000x64_S64x64_0_0_1_1_n_n.rhsIdx_val_of_single rfl i q
theorem rhs_tile_1 (i : S64x64.Idx) (q : dot_S10000x64_S10000x64_S64x64_0_0_1_1_n_n.contr.Idx) :
    (dot_S10000x64_S10000x64_S64x64_0_0_1_1_n_n.rhsIdx i q 1).val = (i 1).val := by
  unfold DotDims.rhsIdx
  rw [dif_neg (show ¬(1 : Fin S10000x64.rank) ∈ dot_S10000x64_S10000x64_S64x64_0_0_1_1_n_n.rhsBatch by decide), dif_pos (show (1 : Fin S10000x64.rank) ∈ dot_S10000x64_S10000x64_S64x64_0_0_1_1_n_n.rhsNonContracting by decide)]
  rfl

/-- The tile step at an index: what was there plus the tile's masked column sum. -/
theorem pay2_apply (h : Vec Ideal S10000x64 .bf16) (ids : Vec Ideal S10000x1 .i32) (acc : Vec Ideal S64x64 .f32) (g d : Fin 64) :
    k3_pay2 (F := Ideal) h ids acc (ix2 g d)
      = acc (ix2 g d) + ∑ p : Fin 10000, (if (ids (ix2 p (0 : Fin 1))).toInt = (g.val : ℤ) then (1 : EReal) else 0) * h (ix2 p d) := by
  unfold k3_pay2
  simp only [shapeCast_self]
  rw [addf_apply]
  congr 1
  simp only [matmul]
  rw [Ideal.matmul_constant_zero_apply, ← Equiv.sum_comp (contrEquiv1 dot_S10000x64_S10000x64_S64x64_0_0_1_1_n_n 10000 rfl rfl).symm]
  refine Finset.sum_congr rfl fun p _ => ?_
  have hk := contrEquiv1_symm_val dot_S10000x64_S10000x64_S64x64_0_0_1_1_n_n 10000 rfl rfl p
  have el : dot_S10000x64_S10000x64_S64x64_0_0_1_1_n_n.lhsIdx (ix2 g d) ((contrEquiv1 dot_S10000x64_S10000x64_S64x64_0_0_1_1_n_n 10000 rfl rfl).symm p) = ix2 p g := funext fun a => Fin.ext (by
    match a with
    | ⟨0, _⟩ => exact (lhs_tile_0 _ _).trans hk
    | ⟨1, _⟩ => exact lhs_tile_1 _ _)
  have er : dot_S10000x64_S10000x64_S64x64_0_0_1_1_n_n.rhsIdx (ix2 g d) ((contrEquiv1 dot_S10000x64_S10000x64_S64x64_0_0_1_1_n_n 10000 rfl rfl).symm p) = ix2 p d := funext fun a => Fin.ext (by
    match a with
    | ⟨0, _⟩ => exact (rhs_tile_0 _ _).trans hk
    | ⟨1, _⟩ => exact rhs_tile_1 _ _)
  rw [el, er]
  congr 1
  show FloatOps.sitofp (F := Ideal) .f32 ((IntOp.cmpi .eq (broadcastTo S10000x64 ids broadcasts_S10000x1_S10000x64 (ix2 p g)) (iota .tc S10000x64 32 [1] iota_S10000x64_d1_w32 (ix2 p g))).setWidth 32) = _
  rw [iota_single_apply, broadcastTo_apply ids broadcasts_S10000x1_S10000x64 (ix2 p g) (ix2 p (0 : Fin 1)) (fun a => by
    match a with
    | ⟨0, _⟩ => rfl
    | ⟨1, _⟩ => rfl)]
  exact onehot_word _ g

/-! ## The last tile's output: row g scaled by its reciprocal count, through the linear layer, plus the bias -/

theorem lhs_out_0 (i : S64x64.Idx) (q : dot_S64x64_S64x64_S64x64_1_0_0_1_n_n.contr.Idx) :
    (dot_S64x64_S64x64_S64x64_1_0_0_1_n_n.lhsIdx i q 0).val = (i 0).val := by
  unfold DotDims.lhsIdx
  rw [dif_neg (show ¬(0 : Fin S64x64.rank) ∈ dot_S64x64_S64x64_S64x64_1_0_0_1_n_n.lhsBatch by decide), dif_pos (show (0 : Fin S64x64.rank) ∈ dot_S64x64_S64x64_S64x64_1_0_0_1_n_n.lhsNonContracting by decide)]
  rfl
theorem lhs_out_1 (i : S64x64.Idx) (q : dot_S64x64_S64x64_S64x64_1_0_0_1_n_n.contr.Idx) :
    (dot_S64x64_S64x64_S64x64_1_0_0_1_n_n.lhsIdx i q 1).val = (q ⟨0, by decide⟩).val :=
  dot_S64x64_S64x64_S64x64_1_0_0_1_n_n.lhsIdx_val_of_single rfl i q
theorem rhs_out_0 (i : S64x64.Idx) (q : dot_S64x64_S64x64_S64x64_1_0_0_1_n_n.contr.Idx) :
    (dot_S64x64_S64x64_S64x64_1_0_0_1_n_n.rhsIdx i q 0).val = (q ⟨0, by decide⟩).val :=
  dot_S64x64_S64x64_S64x64_1_0_0_1_n_n.rhsIdx_val_of_single rfl i q
theorem rhs_out_1 (i : S64x64.Idx) (q : dot_S64x64_S64x64_S64x64_1_0_0_1_n_n.contr.Idx) :
    (dot_S64x64_S64x64_S64x64_1_0_0_1_n_n.rhsIdx i q 1).val = (i 1).val := by
  unfold DotDims.rhsIdx
  rw [dif_neg (show ¬(1 : Fin S64x64.rank) ∈ dot_S64x64_S64x64_S64x64_1_0_0_1_n_n.rhsBatch by decide), dif_pos (show (1 : Fin S64x64.rank) ∈ dot_S64x64_S64x64_S64x64_1_0_0_1_n_n.rhsNonContracting by decide)]
  rfl

/-- The output step at an index. -/
theorem pay3_apply (S : Vec Ideal S64x64 .f32) (inv : Vec Ideal S64x1 .f32) (W : Vec Ideal S64x64 .f32) (b : Vec Ideal S1x64 .f32) (g d : Fin 64) :
    k3_pay3 (F := Ideal) S inv W b (ix2 g d)
      = (∑ k : Fin 64, (S (ix2 g k) * inv (ix2 g (0 : Fin 1))) * W (ix2 k d)) + b (ix2 (0 : Fin 1) d) := by
  unfold k3_pay3
  simp only [shapeCast_self]
  rw [addf_apply]
  refine congrArg₂ (· + ·) ?_ ?_
  · simp only [matmul]
    rw [Ideal.matmul_constant_zero_apply, ← Equiv.sum_comp (contrEquiv1 dot_S64x64_S64x64_S64x64_1_0_0_1_n_n 64 rfl rfl).symm]
    refine Finset.sum_congr rfl fun k _ => ?_
    have hk := contrEquiv1_symm_val dot_S64x64_S64x64_S64x64_1_0_0_1_n_n 64 rfl rfl k
    have el : dot_S64x64_S64x64_S64x64_1_0_0_1_n_n.lhsIdx (ix2 g d) ((contrEquiv1 dot_S64x64_S64x64_S64x64_1_0_0_1_n_n 64 rfl rfl).symm k) = ix2 g k := funext fun a => Fin.ext (by
      match a with
      | ⟨0, _⟩ => exact lhs_out_0 _ _
      | ⟨1, _⟩ => exact (lhs_out_1 _ _).trans hk)
    have er : dot_S64x64_S64x64_S64x64_1_0_0_1_n_n.rhsIdx (ix2 g d) ((contrEquiv1 dot_S64x64_S64x64_S64x64_1_0_0_1_n_n 64 rfl rfl).symm k) = ix2 k d := funext fun a => Fin.ext (by
      match a with
      | ⟨0, _⟩ => exact (rhs_out_0 _ _).trans hk
      | ⟨1, _⟩ => exact rhs_out_1 _ _)
    rw [el, er]
    refine congrArg₂ (· * ·) ?_ rfl
    show S (ix2 g k) * broadcastTo S64x64 inv broadcasts_S64x1_S64x64 (ix2 g k) = _
    rw [broadcastTo_apply inv broadcasts_S64x1_S64x64 (ix2 g k) (ix2 g (0 : Fin 1)) (fun a => by
      match a with
      | ⟨0, _⟩ => rfl
      | ⟨1, _⟩ => rfl)]
  · exact broadcastTo_apply b broadcasts_S1x64_S64x64 (ix2 g d) (ix2 (0 : Fin 1) d) (fun a => by
      match a with
      | ⟨0, _⟩ => rfl
      | ⟨1, _⟩ => rfl)

/-- The reset: the zero splat reads 0. -/
theorem pay1_apply (j : S64x64.Idx) : k3_pay1 (F := Ideal) j = 0 := by
  unfold k3_pay1
  simp only [shapeCast_self]
  show Ideal.ofBits .f32 0x00000000#32 = 0
  exact Ideal.ofBits_zero_f32

/-! ## The blocks the windows read, as rows of the whole arrays -/

variable (V : (c : Dev nD) → (b : Ref sig .tc) → Buf (Elt Ideal) ((c : Thread nD τ).loc b))

/-- The whole arrays behind the five input windows, at the spec's index types. -/
abbrev hArr (c : Dev nD) : Spec.SN.Idx → EReal := V c (Pipeline.arrRef spec3 0)
abbrev idArr (c : Dev nD) : Spec.SI.Idx → BitVec 32 := V c (Pipeline.arrRef spec3 1)
abbrev wArr (c : Dev nD) : Spec.SW.Idx → EReal := V c (Pipeline.arrRef spec3 2)
abbrev bArr (c : Dev nD) : Spec.SB.Idx → EReal := V c (Pipeline.arrRef spec3 3)
abbrev invArr (c : Dev nD) : Spec.SC.Idx → EReal := V c (Pipeline.arrRef spec3 4)

theorem idx3_0 : ∀ t : Fin cfg3.N, win3_0.index t 0 = t.val ∧ win3_0.index t 1 = 0 :=
  (by decide +kernel : ∀ t : Fin grid3.N, win3_0.index t 0 = t.val ∧ win3_0.index t 1 = 0)
theorem idx3_1 : ∀ t : Fin cfg3.N, win3_1.index t 0 = t.val ∧ win3_1.index t 1 = 0 :=
  (by decide +kernel : ∀ t : Fin grid3.N, win3_1.index t 0 = t.val ∧ win3_1.index t 1 = 0)
theorem idx3_2 : ∀ t : Fin cfg3.N, win3_2.index t 0 = 0 ∧ win3_2.index t 1 = 0 :=
  (by decide +kernel : ∀ t : Fin grid3.N, win3_2.index t 0 = 0 ∧ win3_2.index t 1 = 0)
theorem idx3_3 : ∀ t : Fin cfg3.N, win3_3.index t 0 = 0 ∧ win3_3.index t 1 = 0 :=
  (by decide +kernel : ∀ t : Fin grid3.N, win3_3.index t 0 = 0 ∧ win3_3.index t 1 = 0)
theorem idx3_4 : ∀ t : Fin cfg3.N, win3_4.index t 0 = 0 ∧ win3_4.index t 1 = 0 :=
  (by decide +kernel : ∀ t : Fin grid3.N, win3_4.index t 0 = 0 ∧ win3_4.index t 1 = 0)

theorem lt_ten (t : Fin cfg3.N) : t.val < 10 := by
  exact lt_of_lt_of_eq t.isLt (show cfg3.N = 10 from N_3)

/-- Row p of tile t of the node features is node 10000 t + p. -/
theorem hblk_apply (c : Dev nD) (t : Fin cfg3.N) (p : Fin 10000) (d : Fin 64) :
    (Pool.iblk3 V c 0 t : Vec Ideal S10000x64 .bf16) (ix2 p d) = hArr V c (ix2 (Spec.rowOf t.val p) d) := by
  have hi := idx3_0 t
  have ht := lt_ten t
  unfold Pool.iblk3
  rw [View.read_apply]
  show V c main_v52 _ = V c main_v52 _
  congr 1
  funext a
  apply Fin.ext
  match a with
  | ⟨0, _⟩ => show win3_0.index t 0 * 10000 + 1 * p.val = (10000 * t.val + p.val) % 100000; rw [hi.1]; omega
  | ⟨1, _⟩ => show win3_0.index t 1 * 64 + 1 * d.val = d.val; rw [hi.2]; omega

/-- Row p of tile t of the graph ids likewise. -/
theorem idblk_apply (c : Dev nD) (t : Fin cfg3.N) (p : Fin 10000) :
    (Pool.iblk3 V c 1 t : Vec Ideal S10000x1 .i32) (ix2 p (0 : Fin 1)) = idArr V c (ix2 (Spec.rowOf t.val p) (0 : Fin 1)) := by
  have hi := idx3_1 t
  have ht := lt_ten t
  unfold Pool.iblk3
  rw [View.read_apply]
  show V c main_v4 _ = V c main_v4 _
  congr 1
  funext a
  apply Fin.ext
  match a with
  | ⟨0, _⟩ => show win3_1.index t 0 * 10000 + 1 * p.val = (10000 * t.val + p.val) % 100000; rw [hi.1]; omega
  | ⟨1, _⟩ => show win3_1.index t 1 * 1 + 1 * 0 = 0; rw [hi.2]

/-- The three whole-array windows read their arrays. -/
theorem wblk_apply (c : Dev nD) (t : Fin cfg3.N) (k d : Fin 64) :
    (Pool.iblk3 V c 2 t : Vec Ideal S64x64 .f32) (ix2 k d) = wArr V c (ix2 k d) := by
  have hi := idx3_2 t
  unfold Pool.iblk3
  rw [View.read_apply]
  show V c main_v11 _ = V c main_v11 _
  congr 1
  funext a
  apply Fin.ext
  match a with
  | ⟨0, _⟩ => show win3_2.index t 0 * 64 + 1 * k.val = k.val; rw [hi.1]; omega
  | ⟨1, _⟩ => show win3_2.index t 1 * 64 + 1 * d.val = d.val; rw [hi.2]; omega

theorem bblk_apply (c : Dev nD) (t : Fin cfg3.N) (d : Fin 64) :
    (Pool.iblk3 V c 3 t : Vec Ideal S1x64 .f32) (ix2 (0 : Fin 1) d) = bArr V c (ix2 (0 : Fin 1) d) := by
  have hi := idx3_3 t
  unfold Pool.iblk3
  rw [View.read_apply]
  show V c main_v15 _ = V c main_v15 _
  congr 1
  funext a
  apply Fin.ext
  match a with
  | ⟨0, _⟩ => show win3_3.index t 0 * 1 + 1 * 0 = 0; rw [hi.1]
  | ⟨1, _⟩ => show win3_3.index t 1 * 64 + 1 * d.val = d.val; rw [hi.2]; omega

theorem invblk_apply (c : Dev nD) (t : Fin cfg3.N) (g : Fin 64) :
    (Pool.iblk3 V c 4 t : Vec Ideal S64x1 .f32) (ix2 g (0 : Fin 1)) = invArr V c (ix2 g (0 : Fin 1)) := by
  have hi := idx3_4 t
  unfold Pool.iblk3
  rw [View.read_apply]
  show V c main_v61 _ = V c main_v61 _
  congr 1
  funext a
  apply Fin.ext
  match a with
  | ⟨0, _⟩ => show win3_4.index t 0 * 64 + 1 * g.val = g.val; rw [hi.1]; omega
  | ⟨1, _⟩ => show win3_4.index t 1 * 1 + 1 * 0 = 0; rw [hi.2]

/-! ## The scratch after tile n is the accumulator of the spec -/

/-- What tile t adds, read through its two blocks, is the spec's tile sum. -/
theorem tile_eq (c : Dev nD) (t : Fin cfg3.N) (g d : Fin 64) :
    (∑ p : Fin 10000, (if ((Pool.iblk3 V c 1 t : Vec Ideal S10000x1 .i32) (ix2 p (0 : Fin 1))).toInt = (g.val : ℤ) then (1 : EReal) else 0)
        * (Pool.iblk3 V c 0 t : Vec Ideal S10000x64 .bf16) (ix2 p d))
      = Spec.tileSum (hArr V c) (idArr V c) t.val (ix2 g d) := by
  unfold Spec.tileSum Spec.onehot
  refine Finset.sum_congr rfl fun p _ => ?_
  rw [hblk_apply, idblk_apply]

theorem scratch_eq (c : Dev nD) : ∀ (n : ℕ) (hn : n < cfg3.N) (g d : Fin 64),
    ((Pool.outsAt3 V c n hn).2 : Vec Ideal S64x64 .f32) (ix2 g d) = Spec.poolAcc (hArr V c) (idArr V c) n (ix2 g d)
  | 0, hn, g, d => by
    rw [Pool.scratch3_first V c hn, pay2_apply, pay1_apply]
    show _ = 0 + Spec.tileSum (hArr V c) (idArr V c) 0 (ix2 g d)
    exact congrArg (0 + ·) (tile_eq V c ⟨0, hn⟩ g d)
  | n + 1, hn, g, d => by
    rw [Pool.scratch3_succ V c n hn, pay2_apply, scratch_eq c n (Nat.lt_of_succ_lt hn) g d]
    show _ = Spec.poolAcc (hArr V c) (idArr V c) n (ix2 g d) + Spec.tileSum (hArr V c) (idArr V c) (n + 1) (ix2 g d)
    exact congrArg (Spec.poolAcc (hArr V c) (idArr V c) n (ix2 g d) + ·) (tile_eq V c ⟨n + 1, hn⟩ g d)

/-! ## The output block after the last tile, and the array it is written back to -/

/-- The pooled and projected result as contents of the output array. -/
abbrev result (c : Dev nD) : Buf (Elt Ideal) ((c : Thread nD τ).loc main_v62) :=
  Spec.poolOut (hArr V c) (idArr V c) (wArr V c) (bArr V c) (invArr V c)

theorem out_last (c : Dev nD) (h9 : 9 < cfg3.N) (j : S64x64.Idx) :
    ((Pool.outsAt3 V c 9 h9).1 : Vec Ideal S64x64 .f32) j = result V c j := by
  obtain ⟨g, d, rfl⟩ : ∃ (g : Fin 64) (d : Fin 64), j = ix2 g d := ⟨j 0, j 1, eq_ix2 j⟩
  rw [Pool.out3_last V c h9, pay3_apply]
  show _ = (∑ k : Fin 64, (Spec.poolAcc (hArr V c) (idArr V c) 9 (ix2 g k) * invArr V c (ix2 g (0 : Fin 1))) * wArr V c (ix2 k d)) + bArr V c (ix2 (0 : Fin 1) d)
  refine congrArg₂ (· + ·) (Finset.sum_congr rfl fun k _ => ?_) (bblk_apply V c ⟨9, h9⟩ d)
  rw [scratch_eq V c 9 h9 g k, invblk_apply, wblk_apply]

/-- The one write-back, after the last tile, writes the result: the output's one block is the whole array. -/
theorem flushed_eq (c : Dev nD) (t : Fin cfg3.N) (hf : (cfg3.win 5).flush t = true) :
    (Pool.dat3 (F := Ideal) V c).flushed 5 t = ((cfg3.win 5).blk t).view.read (Elt Ideal) (result V c) := by
  have hN : cfg3.N = 10 := N_3
  have h9 : t.val = 9 := by have := (flush3_5 t).mp hf; have := t.isLt; omega
  obtain rfl : t = t3_9 := Fin.ext h9
  show (cfg3.win 5).cut (grid3.coords t3_9) ((Pool.dat3 (F := Ideal) V c).after 5 t3_9) = _
  rw [Pool.after3_5]
  have e : (Pool.outsAt3 V c t3_9.val t3_9.isLt).1 = result V c := funext fun j => out_last V c t3_9.isLt j
  rw [e]
  have hz' : (fun a => win3_5.index t3_9 a * main_v62.ty.shape.size a) = fun _ => 0 := funext fun a => by fin_cases a <;> decide
  exact (Memref.read_access_unit_zero (Elt Ideal) main_v62 hz' (fun a => by rw [congrFun hz' a]; simp) (result V c)).symm

/-- So the output array ends holding the result: the last tile's block covers it. -/
theorem final3 (c : Dev nD) :
    (Pool.dat3 (F := Ideal) V c).arrAt 5 cfg3.N
      = Spec.poolOut (V c (Pipeline.arrRef spec3 0)) (V c (Pipeline.arrRef spec3 1)) (V c (Pipeline.arrRef spec3 2)) (V c (Pipeline.arrRef spec3 3)) (V c (Pipeline.arrRef spec3 4)) :=
  (Pool.dat3 (F := Ideal) V c).arrAt_eq_of_cover 5 (result V c) (flushed_eq V c) fun i =>
    ⟨t3_9, (flush3_5 t3_9).mpr rfl, by
      show i ∈ ((View.whole main_v62).slice (win3_5.rect t3_9)).set
      rw [View.set_slice_whole, Rect.mem_set_unit]
      intro a
      have h0 : (i 0 : Nat) < 64 := (i 0).isLt
      have h1 : (i 1 : Nat) < 64 := (i 1).isLt
      match a with
      | ⟨0, _⟩ => show win3_5.index t3_9 0 * win3_5.size 0 ≤ (i 0 : Nat) ∧ (i 0 : Nat) < win3_5.index t3_9 0 * win3_5.size 0 + win3_5.xsize (grid3.coords t3_9) 0
                  rw [show win3_5.index t3_9 0 * win3_5.size 0 = 0 from by decide +kernel, show win3_5.xsize (grid3.coords t3_9) 0 = 64 from by decide +kernel]; omega
      | ⟨1, _⟩ => show win3_5.index t3_9 1 * win3_5.size 1 ≤ (i 1 : Nat) ∧ (i 1 : Nat) < win3_5.index t3_9 1 * win3_5.size 1 + win3_5.xsize (grid3.coords t3_9) 1
                  rw [show win3_5.index t3_9 1 * win3_5.size 1 = 0 from by decide +kernel, show win3_5.xsize (grid3.coords t3_9) 1 = 64 from by decide +kernel]; omega⟩

end Cert.KernelIdeal.PoolValue

end
-- ==== Proof.Val.KPool.lean ====
/-
  The pooling call's result as a function of the program's arguments, over the extended reals.

  The call reads five arrays. The node features are what the third layer left. The other four are re-layouts of
  arguments made on the host: the graph ids as a column, the last weight matrix transposed, the last bias as a row, and
  the column of reciprocals 1 / max(count g, 1), where count g is read off a scatter that adds a one per node into a
  vector of 64 zeros at the node's graph id. No later stretch writes the first three, and the column is what the last
  stretch computes from the graph ids; so the result is the specification's pool of those five.
-/
import proofs.«430438_j75239237091885_2_alg».proof.Proof.KI.Run
import proofs.«430438_j75239237091885_2_alg».proof.Proof.Val.PoolValue
import proofs.«430438_j75239237091885_2_alg».proof.Proof.Val.Spec
import proofs.«430438_j75239237091885_2_alg».proof.Proof.Val.ScatterRead
import proofs.«430438_j75239237091885_2_alg».proof.Proof.Gen.ReferenceIdeal
import Idealize.ShloMosaic.Lib.StableHlo.Run
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

namespace Cert.KernelIdeal.KPool

open Cert.KernelIdeal Cert.KernelIdeal.Gen
open Idealize.ShloMosaic Idealize.ShloMosaic.TcCoe Idealize.ShloMosaic.ValueIdx

variable (m : (ℓ : Loc nD τ sig) → Buf (Elt Ideal) ℓ) (outs : Outs (F := Ideal))

/-! ## The constant one -/

/-- The word 0x3F800000 is the real number 1: exponent field 127, fraction 0, so 2^23 · 2^(127 − 127 − 23). -/
theorem ofBits_one_f32 : Ideal.ofBits .f32 0x3F800000#32 = 1 := by
  simp [Ideal.ofBits, Ideal.ieee]
  rw [← EReal.coe_mul, ← EReal.coe_one]
  exact congrArg _ (by norm_num)

/-! ## What reaches the pooling call unwritten -/

/-- The third layer's output array holds what the third call left: the last host stretch does not write it. -/
theorem V7_v52 (c : Dev nD) : V7 m outs c main_v52 = outs 6 main_v52 c := by
  rw [V7_of m outs c main_v52 (by decide)]
  exact Function.update_self ..

/-- An array that only the first host stretch writes holds, when the pooling call is entered, what that stretch left. -/
theorem V7_back (c : Dev nD) (r : Ref sig .tc) (h3 : r ∉ hostOps3_W) (h52 : r ∉ ([main_v52] : List (Ref sig .tc)))
    (h2 : r ∉ hostOps2_W) (h40 : r ∉ ([main_v40] : List (Ref sig .tc))) (h1 : r ∉ hostOps1_W)
    (h28 : r ∉ ([main_v28] : List (Ref sig .tc))) : V7 m outs c r = V1 m c r :=
  (V7_of m outs c r h3).trans <| (V6_of m outs c r h52).trans <| (V5_of m outs c r h2).trans <|
    (V4_of m outs c r h40).trans <| (V3_of m outs c r h1).trans <| (V2_of m outs c r h28)

/-- The graph ids are as launched when the last host stretch starts. -/
theorem V6_arg2 (c : Dev nD) : V6 m outs c main_arg2 = m ((c : Thread nD τ).loc main_arg2) :=
  (V6_of m outs c main_arg2 (by decide)).trans <| (V5_of m outs c main_arg2 (by decide)).trans <|
    (V4_of m outs c main_arg2 (by decide)).trans <| (V3_of m outs c main_arg2 (by decide)).trans <|
    (V2_of m outs c main_arg2 (by decide)).trans <| (V1_of m c main_arg2 (by decide)).trans rfl

/-! ## What the first host stretch leaves in the three re-layouts -/

theorem V1_v4 (c : Dev nD) : (V1 m c main_v4 : S100000x1.Idx → BitVec 32)
    = shapeCast S100000x1 (m ((c : Thread nD τ).loc main_arg2) : S100000.Idx → BitVec 32) shapeCasts_S100000_S100000x1 := by
  show StableHlo.after hostOps0 _ (Proc.devRef .tc main_v4) = _
  after_results
  rfl

theorem V1_v11 (c : Dev nD) : (V1 m c main_v11 : S64x64.Idx → EReal)
    = transpose S64x64 [1, 0] (m ((c : Thread nD τ).loc main_arg12) : S64x64.Idx → EReal) transposes_S64x64_S64x64_1_0 := by
  show StableHlo.after hostOps0 _ (Proc.devRef .tc main_v11) = _
  after_results

theorem V1_v15 (c : Dev nD) : (V1 m c main_v15 : S1x64.Idx → EReal)
    = shapeCast S1x64 (m ((c : Thread nD τ).loc main_arg13) : S64.Idx → EReal) shapeCasts_S64_S1x64 := by
  show StableHlo.after hostOps0 _ (Proc.devRef .tc main_v15) = _
  after_results
  rfl

/-! ## The re-layouts as the specification's -/

/-- A vector of 100000 words cast to a 100000 × 1 column reads, at (r, 0), the vector at r. -/
theorem shapeCast_col (x : S100000.Idx → BitVec 32) :
    shapeCast S100000x1 x shapeCasts_S100000_S100000x1 = Spec.colI x := by
  funext j
  obtain ⟨r, u, rfl⟩ : ∃ r u, j = ix2 r u := ⟨j 0, j 1, eq_ix2 j⟩
  refine shapeCast_apply x _ _ (ix1 r) ?_
  rw [Shape.rowMajor_val_two, Shape.rowMajor_val_one]
  have hu := u.isLt
  show r.val = r.val * 1 + u.val
  omega

/-- The same column made by a broadcast along a new unit axis. -/
theorem bcast_col (x : S100000.Idx → BitVec 32) :
    broadcastInDim S100000x1 ![0] bcast_S100000_S100000x1_0 x = Spec.colI x := by
  funext j
  refine broadcastInDim_apply _ _ x j (ix1 (j 0)) fun a => ?_
  obtain rfl : a = 0 := Fin.fin_one_eq_zero a
  rw [if_neg (by decide)]
  rfl

/-- A 64 × 64 matrix transposed reads, at (a, b), the matrix at (b, a). -/
theorem transpose_trW (W : S64x64.Idx → EReal) :
    transpose S64x64 [1, 0] W transposes_S64x64_S64x64_1_0 = Spec.trW W := by
  funext j
  obtain ⟨a, b, rfl⟩ : ∃ a b, j = ix2 a b := ⟨j 0, j 1, eq_ix2 j⟩
  exact transpose_ix2_apply W _ a b

/-- A vector of 64 cast to a 1 × 64 row reads, at (0, i), the vector at i. -/
theorem shapeCast_rowB (b : S64.Idx → EReal) : shapeCast S1x64 b shapeCasts_S64_S1x64 = Spec.rowB b := by
  funext j
  obtain ⟨u, i, rfl⟩ : ∃ u i, j = ix2 u i := ⟨j 0, j 1, eq_ix2 j⟩
  exact shapeCast_a_1a_apply b _ u i

/-- A vector of 64 cast to a 64 × 1 column reads, at (g, 0), the vector at g. -/
theorem shapeCast_col64 (x : S64.Idx → EReal) (g : Fin 64) (u : Fin 1) :
    shapeCast S64x1 x shapeCasts_S64_S64x1 (ix2 g u) = x (ix1 g) := by
  refine shapeCast_apply x _ _ (ix1 g) ?_
  rw [Shape.rowMajor_val_two, Shape.rowMajor_val_one]
  have hu := u.isLt
  show g.val = g.val * 1 + u.val
  omega

/-! ## The reciprocal counts -/

/-- What the host stretch before the pooling call leaves in the 64 × 1 column, as a function of the graph ids:
    1 / max(scatter-add of ones onto zeros at the ids, 1), as a column. -/
def invTerm (a2 : S100000.Idx → BitVec 32) : S64x1.Idx → EReal :=
  shapeCast S64x1
    (Host.divf (F := Ideal) (φ := .f32)
      (broadcastInDim S64 ![] bcast_S_S64 (constant (F := Ideal) S_ .f32 0x3F800000#32))
      (maximumf (F := Ideal) (φ := .f32)
        (Host.scatterAdd (F := Ideal) (φ := .f32) scatter_S64_S100000x1_S100000_n_0_0_1
          (broadcastInDim S64 ![] bcast_S_S64 (constant (F := Ideal) S_ .f32 0x00000000#32))
          (broadcastInDim S100000x1 ![0] bcast_S100000_S100000x1_0 a2)
          (broadcastInDim S100000 ![] bcast_S_S100000 (constant (F := Ideal) S_ .f32 0x3F800000#32)))
        (broadcastInDim S64 ![] bcast_S_S64 (constant (F := Ideal) S_ .f32 0x3F800000#32))))
    shapeCasts_S64_S64x1

/-- The last host stretch, from any contents, leaves in the column that function of the graph ids it started from. -/
theorem after3_v61 (W : Valuation τ sig (Elt Ideal)) :
    (StableHlo.after hostOps3 W (Proc.devRef .tc main_v61) : S64x1.Idx → EReal)
      = invTerm (W (Proc.devRef .tc main_arg2)) := by
  unfold invTerm
  after_results
  rfl

theorem hostDivf_apply' {s : Shape} (x y : FVec Ideal s .f32) (i : s.Idx) :
    Host.divf x y i = Ideal.div (x i) (y i) := rfl

theorem scatterAdd_apply' {s si su : Shape} {w : Nat} (d : ScatterDims s si su) (x : FVec Ideal s .f32) (idx : IVec si w)
    (upd : FVec Ideal su .f32) (i : s.Idx) :
    Host.scatterAdd d x idx upd i = Ideal.hostScatterAdd d x idx upd i := rfl

/-- The constant one broadcast to any shape reads 1 everywhere. -/
theorem bcast_one {T : Shape} (h : S_.BroadcastsInDim T ![]) (i : T.Idx) :
    broadcastInDim T ![] h (constant (F := Ideal) S_ .f32 0x3F800000#32) i = 1 := by
  rw [broadcastInDim_scalar_apply, constant_apply, ofBits_one_f32]

/-- The constant zero broadcast to any shape reads 0 everywhere. -/
theorem bcast_zero {T : Shape} (h : S_.BroadcastsInDim T ![]) (i : T.Idx) :
    broadcastInDim T ![] h (constant (F := Ideal) S_ .f32 0x00000000#32) i = 0 := by
  rw [broadcastInDim_scalar_apply, constant_apply, Ideal.ofBits_zero_f32]

/-- The scatter of a vector of 100000 entries into 64, read at g: what was there plus the updates of the nodes of graph g
    (the two programs' scatters have the same dimension numbers). -/
theorem hcount (x : S64.Idx → EReal) (idx : IVec S100000x1 32) (upd : S100000.Idx → EReal) (g : Fin 64) :
    Ideal.hostScatterAdd scatter_S64_S100000x1_S100000_n_0_0_1 x idx upd (ix1 g)
      = x (ix1 g) + ∑ r ∈ Spec.members idx g, upd (ix1 r) :=
  Cert.ScatterRead.count_scatter_apply x idx upd g

/-- The column the host computes is the reciprocal of max(count, 1): the scatter of ones onto zeros counts each graph's
    nodes, one added per member to zero. -/
theorem invTerm_eq (a2 : S100000.Idx → BitVec 32) : invTerm a2 = Spec.invCol (Spec.colI a2) := by
  funext j
  obtain ⟨g, u, rfl⟩ : ∃ g u, j = ix2 g u := ⟨j 0, j 1, eq_ix2 j⟩
  unfold invTerm
  rw [shapeCast_col64, hostDivf_apply', maximumf_apply, scatterAdd_apply', hcount, bcast_one, bcast_zero, bcast_col,
    Finset.sum_congr rfl fun r _ => bcast_one bcast_S_S100000 (ix1 r)]
  rfl

/-! ## The five arrays the pooling call reads -/

theorem V7_v4 (c : Dev nD) : (V7 m outs c main_v4 : S100000x1.Idx → BitVec 32)
    = Spec.colI (m ((c : Thread nD τ).loc main_arg2) : S100000.Idx → BitVec 32) :=
  (V7_back m outs c main_v4 (by decide) (by decide) (by decide) (by decide) (by decide) (by decide)).trans <|
    (V1_v4 m c).trans (shapeCast_col _)

theorem V7_v11 (c : Dev nD) : (V7 m outs c main_v11 : S64x64.Idx → EReal)
    = Spec.trW (m ((c : Thread nD τ).loc main_arg12) : S64x64.Idx → EReal) :=
  (V7_back m outs c main_v11 (by decide) (by decide) (by decide) (by decide) (by decide) (by decide)).trans <|
    (V1_v11 m c).trans (transpose_trW _)

theorem V7_v15 (c : Dev nD) : (V7 m outs c main_v15 : S1x64.Idx → EReal)
    = Spec.rowB (m ((c : Thread nD τ).loc main_arg13) : S64.Idx → EReal) :=
  (V7_back m outs c main_v15 (by decide) (by decide) (by decide) (by decide) (by decide) (by decide)).trans <|
    (V1_v15 m c).trans (shapeCast_rowB _)

theorem V7_v61 (c : Dev nD) : (V7 m outs c main_v61 : S64x1.Idx → EReal)
    = Spec.invCol (Spec.colI (m ((c : Thread nD τ).loc main_arg2) : S100000.Idx → BitVec 32)) := by
  refine (after3_v61 (V6 m outs c)).trans ?_
  rw [V6_arg2 m outs c]
  exact invTerm_eq _

/-- The pool of the five arrays the call reads is the pool of the third layer's output and the arguments' re-layouts. -/
theorem poolOut_reads (c : Dev nD) :
    Spec.poolOut (V7 m outs c main_v52) (V7 m outs c main_v4) (V7 m outs c main_v11) (V7 m outs c main_v15) (V7 m outs c main_v61)
      = Spec.poolOut (outs 6 main_v52 c) (Spec.colI (m ((c : Thread nD τ).loc main_arg2)))
          (Spec.trW (m ((c : Thread nD τ).loc main_arg12))) (Spec.rowB (m ((c : Thread nD τ).loc main_arg13)))
          (Spec.invCol (Spec.colI (m ((c : Thread nD τ).loc main_arg2)))) := by
  rw [V7_v52 m outs c, V7_v4 m outs c, V7_v11 m outs c, V7_v15 m outs c, V7_v61 m outs c]

/-! ## The result -/

/-- The program's result array: the specification's pool of the third layer's output, the graph ids as a column, the
    last weights transposed, the last bias as a row and the column of reciprocal counts. -/
theorem kout (c : Dev nD) :
    V8 m (Run.outs m) c main_v62
      = Spec.poolOut (Run.X6 m c main_v52) (Spec.colI (m ((c : Thread nD τ).loc main_arg2)))
          (Spec.trW (m ((c : Thread nD τ).loc main_arg12))) (Spec.rowB (m ((c : Thread nD τ).loc main_arg13)))
          (Spec.invCol (Spec.colI (m ((c : Thread nD τ).loc main_arg2)))) :=
  (Run.res_eq m c).trans <| (PoolValue.final3 (fun c b => Run.E7 m c b) c).trans <| poolOut_reads m (Run.outs m) c

end Cert.KernelIdeal.KPool

end
-- ==== Proof.Val.Bridge.lean ====
/-
  The last step of the value claim over the extended reals: the reference's result is the kernel's.
  Both programs aggregate by the same scatter-add of the same gathered rows (the kernel narrows and widens the storage
  format around the gather, which changes nothing over the extended reals), so layer by layer the kernel's node
  features are the reference's; the two pools agree on equal features; and the two programs are run on equal arguments.
-/
import proofs.«430438_j75239237091885_2_alg».proof.Proof.Val.RefLayers
import proofs.«430438_j75239237091885_2_alg».proof.Proof.Val.KChain
import proofs.«430438_j75239237091885_2_alg».proof.Proof.Val.KPool
import proofs.«430438_j75239237091885_2_alg».proof.Proof.Val.SpecLaws
import proofs.«430438_j75239237091885_2_alg».proof.Proof.Val.Spec
import proofs.«430438_j75239237091885_2_alg».proof.Proof.Gen.ReferenceIdeal.Read
import proofs.«430438_j75239237091885_2_alg».proof.Proof.Gen.ReferenceIdeal.Run
import proofs.«430438_j75239237091885_2_alg».proof.Proof.KI.Run

noncomputable section

namespace Cert.Bridge

open Idealize.ShloMosaic Idealize.ShloMosaic.TcCoe Idealize.SL.Sem
open Cert.ReferenceIdeal.Read (val_main_v22 val_main_v41 val_main_v59 val_main_v76)
open Cert.RefLayers (aggR ref_h1 ref_h2 ref_h3 ref_out)
open Cert.KernelIdeal.KChain (aggK0 aggK kh1 kh2 kh3)
open Cert.KernelIdeal.KPool (kout)
open Cert.KernelIdeal.Run (X2 X4 X6 outs)

/-! ## One aggregation -/

/-- Layers 2 and 3: the kernel's aggregation is the reference's. The index vectors, the zero array and the dimension
    records are the same terms under the two programs' names, and widening the gathered rows is the identity. -/
theorem aggK_eq (h : Cert.KernelIdeal.S100000x64.Idx → EReal) (e : Cert.KernelIdeal.S2x1600000.Idx → BitVec 32) :
    aggK h e = aggR h e := rfl

/-- Layer 1: narrowing the features before the gather is the identity too. -/
theorem aggK0_eq (x : Cert.KernelIdeal.S100000x64.Idx → EReal) (e : Cert.KernelIdeal.S2x1600000.Idx → BitVec 32) :
    aggK0 x e = aggR x e := rfl

/-! ## The node features, layer by layer -/

variable (m : (ℓ : Loc Cert.KernelIdeal.nD Cert.KernelIdeal.τ Cert.KernelIdeal.sig) → Buf (Elt Ideal) ℓ)

/-- After the first call the kernel's node features are the reference's first layer. -/
theorem hh1 (c : Dev Cert.KernelIdeal.nD) :
    X2 m c Cert.KernelIdeal.main_v28 = val_main_v22 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) := by
  rw [kh1 m c, ref_h1, aggK0_eq]

/-- After the second call, the second layer. -/
theorem hh2 (c : Dev Cert.KernelIdeal.nD) :
    X4 m c Cert.KernelIdeal.main_v40 = val_main_v41 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := by
  rw [kh2 m c, ref_h2, aggK_eq, hh1 m c]

/-- After the third call, the third layer. -/
theorem hh3 (c : Dev Cert.KernelIdeal.nD) :
    X6 m c Cert.KernelIdeal.main_v52 = val_main_v59 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) := by
  rw [kh3 m c, ref_h3, aggK_eq, hh2 m c]

/-! ## The results -/

/-- On memories that agree on the fourteen arguments, the reference's result is what the kernel's pooling call leaves
    in its output array: the reference's result is the reference pool of its third layer; the kernel's is the tiled pool
    of its own third layer, which is the same features; and the two pools agree. -/
theorem bridge (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (c : Dev Cert.KernelIdeal.nD) :
    Cert.ReferenceIdeal.Value.res_main_v76 (F := Ideal) m' c = Cert.KernelIdeal.Gen.V8 m (outs m) c Cert.KernelIdeal.main_v62 := by
  obtain ⟨h0, h1, h2, h3, h4, h5, h6, h7, h8, h9, h10, h11, h12, h13⟩ := hagree c
  rw [Cert.ReferenceIdeal.Read.val_main_v76_eq m' c, h0, h1, h2, h3, h4, h5, h6, h7, h8, h9, h10, h11, h12, h13, ref_out,
    kout m c, Spec.pool_bridge, hh3 m c]

end Cert.Bridge

end
-- ==== Proof.lean ====
/-
  Three layers of graph convolution and a mean pool, against their plain reference, over the extended reals.

  Each layer is  h' = [max(·, 0)] (aggr(h) · Wr^T + h · Wn^T + b)  with aggr(h) the sum, per target node, of the rows of h
  at the source nodes of its incoming edges; the kernel computes the two products and the bias in one call per layer,
  ten row tiles at a time, and leaves the gather and the segment sum to the host, as the reference does. The pool is
  S(g, ·) = the sum of the rows of graph g, divided by max(count g, 1), times Wl^T, plus bl: the kernel accumulates S in
  a scratch, one tile's one-hot product at a time, multiplies by the reciprocal count and applies the last layer at
  the last tile.

  The frames: every call's body runs on its staged blocks, a call's result is what its write-backs leave, and the
  arguments are read back unchanged through the four host stretches (Proof/KI/Run.lean; Proof/K/Run.lean for the
  word-level program). The values agree because (i) the aggregation is the same term in both programs once the changes of
  float format are read as the identity, (ii) a layer differs only in the order of its three summands, (iii) the
  one-hot product summed tile by tile is the sum over the members of a graph, and multiplying by the reciprocal of a
  nonzero real count is dividing by it on every extended real (Proof/Val/Bridge.lean).
-/
import proofs.«430438_j75239237091885_2_alg».proof.Defs
import proofs.«430438_j75239237091885_2_alg».proof.Proof.Gen.Kernel
import proofs.«430438_j75239237091885_2_alg».proof.Proof.Gen.KernelIdeal
import proofs.«430438_j75239237091885_2_alg».proof.Proof.Gen.ReferenceIdeal
import proofs.«430438_j75239237091885_2_alg».proof.Proof.Gen.Pre_finite_inputs
import proofs.«430438_j75239237091885_2_alg».proof.Proof.Gen.ReferenceIdeal.Run
import proofs.«430438_j75239237091885_2_alg».proof.Proof.K.Run
import proofs.«430438_j75239237091885_2_alg».proof.Proof.KI.Run
import proofs.«430438_j75239237091885_2_alg».proof.Proof.Val.Bridge
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_k : Cert.frame_Kernel := fun m ρ _ =>
  (θ_run Cert.Kernel.defs _ _).mono (fun _ h c => (h c).2) (Cert.Kernel.Run.run (F := Bits) m ρ)

/-- So does the program read over the extended reals. -/
theorem frame_ki : Cert.frame_KernelIdeal := fun m ρ _ =>
  (θ_run Cert.KernelIdeal.defs _ _).mono (fun _ h c => (h c).2) (Cert.KernelIdeal.Run.run (F := Ideal) m ρ)

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the same 64 × 64 result: the kernel's run names its result, the reference's run its own,
    and the two are one function of the arguments. -/
theorem algebraic : Cert.algebraic_KernelIdeal_ReferenceIdeal := by
  intro m ρ m' ρ' _ hagree
  refine ⟨fun c => Cert.KernelIdeal.Gen.V8 m (Cert.KernelIdeal.Run.outs m) c Cert.KernelIdeal.main_v62,
    Cert.KernelIdeal.Run.run (F := Ideal) m ρ, ?_⟩
  refine (θ_run Cert.ReferenceIdeal.defs _ _).mono (fun _ h c => ⟨(h c).1.trans ?_, (h c).2⟩)
    (Cert.ReferenceIdeal.Value.run (F := Ideal) m' ρ')
  exact Cert.Bridge.bridge m m' hagree c

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
